-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8388608 : Shape := ⟨2, ![2, 8388608]⟩
abbrev S4x2x128x128 : Shape := ⟨4, ![4, 2, 128, 128]⟩
abbrev S_ : Shape := ⟨0, ![]⟩

class Facts : Prop where
  bcast_S_S2x8388608 : S_.BroadcastsInDim S2x8388608 (![] : Fin 0 → Fin S2x8388608.rank)
  reducesTo_S2x8388608_S_d0_1 : S2x8388608.ReducesTo [0, 1] S_
  h_S_ : 0 < S_.numel
  bcast_S_S4x2x128x128 : S_.BroadcastsInDim S4x2x128x128 (![] : Fin 0 → Fin S4x2x128x128.rank)
  reducesTo_S4x2x128x128_S_d0_1_2_3 : S4x2x128x128.ReducesTo [0, 1, 2, 3] S_

variable [Facts]

def fn {F : FTy → Type} [FloatOps F] (main_arg0 : FVec F S2x8388608 .f32) (main_arg1 : FVec F S4x2x128x128 .f32) : IVec S_ 1 :=
  let main_v0 : FVec F S2x8388608 .f32 := Host.absf main_arg0
  let main_cst : FVec F S_ .f32 := constant S_ .f32 0x7F800000#32
  let main_v1 : FVec F S2x8388608 .f32 := broadcastInDim S2x8388608 ![] bcast_S_S2x8388608 main_cst
  let main_v2 : IVec S2x8388608 1 := cmpf .olt main_v0 main_v1
  let main_c : IVec S_ 1 := constantI S_ 1 1#1
  let main_v3 : IVec S_ 1 := (fun x v => Host.reduce IntOp.andi x v reducesTo_S2x8388608_S_d0_1 h_S_) main_v2 main_c
  let main_v4 : FVec F S4x2x128x128 .f32 := Host.absf main_arg1
  let main_cst_0 : FVec F S_ .f32 := constant S_ .f32 0x7F800000#32
  let main_v5 : FVec F S4x2x128x128 .f32 := broadcastInDim S4x2x128x128 ![] bcast_S_S4x2x128x128 main_cst_0
  let main_v6 : IVec S4x2x128x128 1 := cmpf .olt main_v4 main_v5
  let main_c_1 : IVec S_ 1 := constantI S_ 1 1#1
  let main_v7 : IVec S_ 1 := (fun x v => Host.reduce IntOp.andi x v reducesTo_S4x2x128x128_S_d0_1_2_3 h_S_) main_v6 main_c_1
  let main_v8 : IVec S_ 1 := andi main_v3 main_v7
  main_v8
-- ==== Kernel.lean ====
abbrev S2x8388608 : Shape := ⟨2, ![2, 8388608]⟩
abbrev S4x2x128x128 : Shape := ⟨4, ![4, 2, 128, 128]⟩
abbrev S1x1x128x128 : Shape := ⟨4, ![1, 1, 128, 128]⟩
abbrev S128x128 : Shape := ⟨2, ![128, 128]⟩
abbrev S2x65536x128 : Shape := ⟨3, ![2, 65536, 128]⟩
abbrev S2x512x128 : Shape := ⟨3, ![2, 512, 128]⟩
abbrev S1x512x128 : Shape := ⟨3, ![1, 512, 128]⟩
abbrev S512x128 : Shape := ⟨2, ![512, 128]⟩
abbrev S2x128x128x512 : Shape := ⟨4, ![2, 128, 128, 512]⟩
abbrev S2x8x2x2x2x2x2x2x2x2x2x2x2x2x2x128 : Shape := ⟨16, ![2, 8, 2, 2, 2, 2, 2, 2, 2, 2, 2, 2, 2, 2, 2, 128]⟩
abbrev S2x2x2x2x2x2x2x2x8x2x2x2x2x2x2x128 : Shape := ⟨16, ![2, 2, 2, 2, 2, 2, 2, 2, 8, 2, 2, 2, 2, 2, 2, 128]⟩
abbrev S2x128x65536 : Shape := ⟨3, ![2, 128, 65536]⟩

abbrev nBuf : Space → Nat
  | .hbm => 58
  | .vmem => 28
  | .smem => 0
  | _ => 0

abbrev bufTy : (tb : Table) → Fin (tcTables nBuf tb) → BufTy
  | .hbm, ⟨0, _⟩ => ⟨S2x8388608, .f32⟩
  | .hbm, ⟨1, _⟩ => ⟨S4x2x128x128, .f32⟩
  | .hbm, ⟨2, _⟩ => ⟨S1x1x128x128, .f32⟩
  | .hbm, ⟨3, _⟩ => ⟨S128x128, .f32⟩
  | .hbm, ⟨4, _⟩ => ⟨S1x1x128x128, .f32⟩
  | .hbm, ⟨5, _⟩ => ⟨S128x128, .f32⟩
  | .hbm, ⟨6, _⟩ => ⟨S2x65536x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S2x65536x128, .f32⟩
  | .hbm, ⟨12, _⟩ => ⟨S2x8388608, .f32⟩
  | .hbm, ⟨13, _⟩ => ⟨S1x1x128x128, .f32⟩
  | .hbm, ⟨14, _⟩ => ⟨S128x128, .f32⟩
  | .hbm, ⟨15, _⟩ => ⟨S1x1x128x128, .f32⟩
  | .hbm, ⟨16, _⟩ => ⟨S128x128, .f32⟩
  | .hbm, ⟨17, _⟩ => ⟨S2x128x128x512, .f32⟩
  | .hbm, ⟨18, _⟩ => ⟨S2x128x128x512, .f32⟩
  | .hbm, ⟨19, _⟩ => ⟨S2x65536x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S2x65536x128, .f32⟩
  | .hbm, ⟨25, _⟩ => ⟨S2x128x128x512, .f32⟩
  | .hbm, ⟨26, _⟩ => ⟨S2x128x128x512, .f32⟩
  | .hbm, ⟨27, _⟩ => ⟨S2x8388608, .f32⟩
  | .hbm, ⟨28, _⟩ => ⟨S1x1x128x128, .f32⟩
  | .hbm, ⟨29, _⟩ => ⟨S128x128, .f32⟩
  | .hbm, ⟨30, _⟩ => ⟨S1x1x128x128, .f32⟩
  | .hbm, ⟨31, _⟩ => ⟨S128x128, .f32⟩
  | .hbm, ⟨32, _⟩ => ⟨S2x8x2x2x2x2x2x2x2x2x2x2x2x2x2x128, .f32⟩
  | .hbm, ⟨33, _⟩ => ⟨S2x2x2x2x2x2x2x2x8x2x2x2x2x2x2x128, .f32⟩
  | .hbm, ⟨34, _⟩ => ⟨S2x65536x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S2x65536x128, .f32⟩
  | .hbm, ⟨40, _⟩ => ⟨S2x2x2x2x2x2x2x2x8x2x2x2x2x2x2x128, .f32⟩
  | .hbm, ⟨41, _⟩ => ⟨S2x8x2x2x2x2x2x2x2x2x2x2x2x2x2x128, .f32⟩
  | .hbm, ⟨42, _⟩ => ⟨S2x8388608, .f32⟩
  | .hbm, ⟨43, _⟩ => ⟨S1x1x128x128, .f32⟩
  | .hbm, ⟨44, _⟩ => ⟨S128x128, .f32⟩
  | .hbm, ⟨45, _⟩ => ⟨S1x1x128x128, .f32⟩
  | .hbm, ⟨46, _⟩ => ⟨S128x128, .f32⟩
  | .hbm, ⟨47, _⟩ => ⟨S2x65536x128, .f32⟩
  | .hbm, ⟨48, _⟩ => ⟨S2x128x65536, .f32⟩
  | .hbm, ⟨49, _⟩ => ⟨S2x65536x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S2x65536x128, .f32⟩
  | .hbm, ⟨55, _⟩ => ⟨S2x128x65536, .f32⟩
  | .hbm, ⟨56, _⟩ => ⟨S2x65536x128, .f32⟩
  | .hbm, ⟨57, _⟩ => ⟨S2x8388608, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S2x512x128, .f32⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S2x512x128, .f32⟩
  | .local _ .vmem, ⟨18, _⟩ => ⟨S2x512x128, .f32⟩
  | .local _ .vmem, ⟨19, _⟩ => ⟨S2x512x128, .f32⟩
  | .local _ .vmem, ⟨20, _⟩ => ⟨S2x512x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S2x512x128, .f32⟩
  | .local _ .vmem, ⟨25, _⟩ => ⟨S2x512x128, .f32⟩
  | .local _ .vmem, ⟨26, _⟩ => ⟨S2x512x128, .f32⟩
  | .local _ .vmem, ⟨27, _⟩ => ⟨S2x512x128, .f32⟩
  | _, _ => ⟨S2x8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![128], ![false]⟩

def k0_mult1 : BitVec 32 :=
  let c0_i32 : BitVec 32 := 0#32
  let c512_i32 : BitVec 32 := 512#32
  let v9 : BitVec 32 := Scalar.muli c0_i32 c512_i32
  v9
def k0_off1 : Fin 3 → Nat :=
  let c0_5 : Index := 0#32
  let c0_i32 : BitVec 32 := 0#32
  let c512_i32 : BitVec 32 := 512#32
  let v9 : BitVec 32 := Scalar.muli c0_i32 c512_i32
  let v10 : BitVec 32 := v9
  let v11 : Index := Scalar.indexCast v10
  let c0_6 : Index := 0#32
  ![0, v11.toNat, 0]
def k0_off2 : Fin 3 → Nat :=
  let c1 : Index := 1#32
  let c0_i32 : BitVec 32 := 0#32
  let c512_i32 : BitVec 32 := 512#32
  let v9 : BitVec 32 := Scalar.muli c0_i32 c512_i32
  let v10 : BitVec 32 := v9
  let v14 : Index := Scalar.indexCast v10
  let c0_7 : Index := 0#32
  ![1, v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![128], ![false]⟩

def k1_mult1 : BitVec 32 :=
  let c0_i32 : BitVec 32 := 0#32
  let c512_i32 : BitVec 32 := 512#32
  let v9 : BitVec 32 := Scalar.muli c0_i32 c512_i32
  v9
def k1_off1 : Fin 3 → Nat :=
  let c0_5 : Index := 0#32
  let c0_i32 : BitVec 32 := 0#32
  let c512_i32 : BitVec 32 := 512#32
  let v9 : BitVec 32 := Scalar.muli c0_i32 c512_i32
  let v10 : BitVec 32 := v9
  let v11 : Index := Scalar.indexCast v10
  let c0_6 : Index := 0#32
  ![0, v11.toNat, 0]
def k1_off2 : Fin 3 → Nat :=
  let c1 : Index := 1#32
  let c0_i32 : BitVec 32 := 0#32
  let c512_i32 : BitVec 32 := 512#32
  let v9 : BitVec 32 := Scalar.muli c0_i32 c512_i32
  let v10 : BitVec 32 := v9
  let v14 : Index := Scalar.indexCast v10
  let c0_7 : Index := 0#32
  ![1, v14.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![128], ![false]⟩

def k2_mult1 : BitVec 32 :=
  let c0_i32 : BitVec 32 := 0#32
  let c512_i32 : BitVec 32 := 512#32
  let v9 : BitVec 32 := Scalar.muli c0_i32 c512_i32
  v9
def k2_off1 : Fin 3 → Nat :=
  let c0_5 : Index := 0#32
  let c0_i32 : BitVec 32 := 0#32
  let c512_i32 : BitVec 32 := 512#32
  let v9 : BitVec 32 := Scalar.muli c0_i32 c512_i32
  let v10 : BitVec 32 := v9
  let v11 : Index := Scalar.indexCast v10
  let c0_6 : Index := 0#32
  ![0, v11.toNat, 0]
def k2_off2 : Fin 3 → Nat :=
  let c1 : Index := 1#32
  let c0_i32 : BitVec 32 := 0#32
  let c512_i32 : BitVec 32 := 512#32
  let v9 : BitVec 32 := Scalar.muli c0_i32 c512_i32
  let v10 : BitVec 32 := v9
  let v14 : Index := Scalar.indexCast v10
  let c0_7 : Index := 0#32
  ![1, v14.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 1 → Memref sig .tc .vmem S128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2x512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2x512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![128], ![false]⟩

def k3_mult1 : BitVec 32 :=
  let c0_i32 : BitVec 32 := 0#32
  let c512_i32 : BitVec 32 := 512#32
  let v9 : BitVec 32 := Scalar.muli c0_i32 c512_i32
  v9
def k3_off1 : Fin 3 → Nat :=
  let c0_5 : Index := 0#32
  let c0_i32 : BitVec 32 := 0#32
  let c512_i32 : BitVec 32 := 512#32
  let v9 : BitVec 32 := Scalar.muli c0_i32 c512_i32
  let v10 : BitVec 32 := v9
  let v11 : Index := Scalar.indexCast v10
  let c0_6 : Index := 0#32
  ![0, v11.toNat, 0]
def k3_off2 : Fin 3 → Nat :=
  let c1 : Index := 1#32
  let c0_i32 : BitVec 32 := 0#32
  let c512_i32 : BitVec 32 := 512#32
  let v9 : BitVec 32 := Scalar.muli c0_i32 c512_i32
  let v10 : BitVec 32 := v9
  let v14 : Index := Scalar.indexCast v10
  let c0_7 : Index := 0#32
  ![1, v14.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 1 → Memref sig .tc .vmem S128x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2x512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2x512x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S4x2x128x128_S1x1x128x128_0_0_0_0 : S4x2x128x128.Slices ![0, 0, 0, 0] S1x1x128x128
  shapeCasts_S1x1x128x128_S128x128 : S1x1x128x128.ShapeCasts S128x128
  slices_S4x2x128x128_S1x1x128x128_0_1_0_0 : S4x2x128x128.Slices ![0, 1, 0, 0] S1x1x128x128
  shapeCasts_S2x8388608_S2x65536x128 : S2x8388608.ShapeCasts S2x65536x128
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  h_S1x512x128 : 0 < S1x512x128.numel
  shapeCasts_S1x512x128_S512x128 : S1x512x128.ShapeCasts S512x128
  shapeCasts_S512x128_S1x512x128 : S512x128.ShapeCasts S1x512x128
  shapeCasts_S2x65536x128_S2x8388608 : S2x65536x128.ShapeCasts S2x8388608
  slices_S4x2x128x128_S1x1x128x128_1_0_0_0 : S4x2x128x128.Slices ![1, 0, 0, 0] S1x1x128x128
  slices_S4x2x128x128_S1x1x128x128_1_1_0_0 : S4x2x128x128.Slices ![1, 1, 0, 0] S1x1x128x128
  shapeCasts_S2x8388608_S2x128x128x512 : S2x8388608.ShapeCasts S2x128x128x512
  transposes_S2x128x128x512_S2x128x128x512_0_2_1_3 : S2x128x128x512.Transposes [0, 2, 1, 3] S2x128x128x512
  shapeCasts_S2x128x128x512_S2x65536x128 : S2x128x128x512.ShapeCasts S2x65536x128
  shapeCasts_S2x65536x128_S2x128x128x512 : S2x65536x128.ShapeCasts S2x128x128x512
  shapeCasts_S2x128x128x512_S2x8388608 : S2x128x128x512.ShapeCasts S2x8388608
  slices_S4x2x128x128_S1x1x128x128_2_0_0_0 : S4x2x128x128.Slices ![2, 0, 0, 0] S1x1x128x128
  slices_S4x2x128x128_S1x1x128x128_2_1_0_0 : S4x2x128x128.Slices ![2, 1, 0, 0] S1x1x128x128
  shapeCasts_S2x8388608_S2x8x2x2x2x2x2x2x2x2x2x2x2x2x2x128 : S2x8388608.ShapeCasts S2x8x2x2x2x2x2x2x2x2x2x2x2x2x2x128
  transposes_S2x8x2x2x2x2x2x2x2x2x2x2x2x2x2x128_S2x2x2x2x2x2x2x2x8x2x2x2x2x2x2x128_0_2_4_6_8_10_12_14_1_3_5_7_9_11_13_15 : S2x8x2x2x2x2x2x2x2x2x2x2x2x2x2x128.Transposes [0, 2, 4, 6, 8, 10, 12, 14, 1, 3, 5, 7, 9, 11, 13, 15] S2x2x2x2x2x2x2x2x8x2x2x2x2x2x2x128
  shapeCasts_S2x2x2x2x2x2x2x2x8x2x2x2x2x2x2x128_S2x65536x128 : S2x2x2x2x2x2x2x2x8x2x2x2x2x2x2x128.ShapeCasts S2x65536x128
  shapeCasts_S2x65536x128_S2x2x2x2x2x2x2x2x8x2x2x2x2x2x2x128 : S2x65536x128.ShapeCasts S2x2x2x2x2x2x2x2x8x2x2x2x2x2x2x128
  transposes_S2x2x2x2x2x2x2x2x8x2x2x2x2x2x2x128_S2x8x2x2x2x2x2x2x2x2x2x2x2x2x2x128_0_8_1_9_2_10_3_11_4_12_5_13_6_14_7_15 : S2x2x2x2x2x2x2x2x8x2x2x2x2x2x2x128.Transposes [0, 8, 1, 9, 2, 10, 3, 11, 4, 12, 5, 13, 6, 14, 7, 15] S2x8x2x2x2x2x2x2x2x2x2x2x2x2x2x128
  shapeCasts_S2x8x2x2x2x2x2x2x2x2x2x2x2x2x2x128_S2x8388608 : S2x8x2x2x2x2x2x2x2x2x2x2x2x2x2x128.ShapeCasts S2x8388608
  slices_S4x2x128x128_S1x1x128x128_3_0_0_0 : S4x2x128x128.Slices ![3, 0, 0, 0] S1x1x128x128
  slices_S4x2x128x128_S1x1x128x128_3_1_0_0 : S4x2x128x128.Slices ![3, 1, 0, 0] S1x1x128x128
  transposes_S2x65536x128_S2x128x65536_0_2_1 : S2x65536x128.Transposes [0, 2, 1] S2x128x65536
  shapeCasts_S2x128x65536_S2x65536x128 : S2x128x65536.ShapeCasts S2x65536x128
  shapeCasts_S2x65536x128_S2x128x65536 : S2x65536x128.ShapeCasts S2x128x65536
  transposes_S2x128x65536_S2x65536x128_0_2_1 : S2x128x65536.Transposes [0, 2, 1] S2x65536x128
  dot_S512x128_S128x128_S512x128_1_0_0_1_n_n_wf : DotDims.WF S512x128 S128x128 S512x128 [1] [0] [0] [1] [] []
  hrank0 : 0 < grid0.rank
  k0_mult1_dvd : 512 ∣ k0_mult1.toNat
  k0_off1_inb : ∀ a, k0_off1 a + S1x512x128.size a ≤ S2x512x128.size a
  k0_off2_inb : ∀ a, k0_off2 a + S1x512x128.size a ≤ S2x512x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x128.size a ≤ S2x65536x128.size a
  hwx0_3 : ∀ i : grid0.Coords, EltTy.bits .f32 = 32 ∨ (Rect.block (s := S2x65536x128) S2x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x128.size a ≤ S2x65536x128.size a
  hwx0_4 : ∀ i : grid0.Coords, EltTy.bits .f32 = 32 ∨ (Rect.block (s := S2x65536x128) S2x512x128.size (cc0_transform_4 i) (hinb0_4 i)).WholeWords (EltTy.packing .f32)
  hrank1 : 0 < grid1.rank
  k1_mult1_dvd : 512 ∣ k1_mult1.toNat
  k1_off1_inb : ∀ a, k1_off1 a + S1x512x128.size a ≤ S2x512x128.size a
  k1_off2_inb : ∀ a, k1_off2 a + S1x512x128.size a ≤ S2x512x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S128x128.size a
  hwx1_0 : ∀ i : grid1.Coords, EltTy.bits .f32 = 32 ∨ (Rect.block (s := S128x128) S128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x512x128.size a ≤ S2x65536x128.size a
  hwx1_3 : ∀ i : grid1.Coords, EltTy.bits .f32 = 32 ∨ (Rect.block (s := S2x65536x128) S2x512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x512x128.size a ≤ S2x65536x128.size a
  hwx1_4 : ∀ i : grid1.Coords, EltTy.bits .f32 = 32 ∨ (Rect.block (s := S2x65536x128) S2x512x128.size (cc1_transform_4 i) (hinb1_4 i)).WholeWords (EltTy.packing .f32)
  hrank2 : 0 < grid2.rank
  k2_mult1_dvd : 512 ∣ k2_mult1.toNat
  k2_off1_inb : ∀ a, k2_off1 a + S1x512x128.size a ≤ S2x512x128.size a
  k2_off2_inb : ∀ a, k2_off2 a + S1x512x128.size a ≤ S2x512x128.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S128x128.size a
  hwx2_0 : ∀ i : grid2.Coords, EltTy.bits .f32 = 32 ∨ (Rect.block (s := S128x128) S128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2x512x128.size a ≤ S2x65536x128.size a
  hwx2_3 : ∀ i : grid2.Coords, EltTy.bits .f32 = 32 ∨ (Rect.block (s := S2x65536x128) S2x512x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2x512x128.size a ≤ S2x65536x128.size a
  hwx2_4 : ∀ i : grid2.Coords, EltTy.bits .f32 = 32 ∨ (Rect.block (s := S2x65536x128) S2x512x128.size (cc2_transform_4 i) (hinb2_4 i)).WholeWords (EltTy.packing .f32)
  hrank3 : 0 < grid3.rank
  k3_mult1_dvd : 512 ∣ k3_mult1.toNat
  k3_off1_inb : ∀ a, k3_off1 a + S1x512x128.size a ≤ S2x512x128.size a
  k3_off2_inb : ∀ a, k3_off2 a + S1x512x128.size a ≤ S2x512x128.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x128.size a ≤ S128x128.size a
  hwx3_0 : ∀ i : grid3.Coords, EltTy.bits .f32 = 32 ∨ (Rect.block (s := S128x128) S128x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2x512x128.size a ≤ S2x65536x128.size a
  hwx3_3 : ∀ i : grid3.Coords, EltTy.bits .f32 = 32 ∨ (Rect.block (s := S2x65536x128) S2x512x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2x512x128.size a ≤ S2x65536x128.size a
  hwx3_4 : ∀ i : grid3.Coords, EltTy.bits .f32 = 32 ∨ (Rect.block (s := S2x65536x128) S2x512x128.size (cc3_transform_4 i) (hinb3_4 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v6) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2x512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S128x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S2x512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S2x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S128x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v35) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S2x512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37) S2x512x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S128x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v50) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S2x512x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v52) S2x512x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S2x8388608 : Shape := ⟨2, ![2, 8388608]⟩
abbrev S4x2x128x128 : Shape := ⟨4, ![4, 2, 128, 128]⟩
abbrev S1x1x128x128 : Shape := ⟨4, ![1, 1, 128, 128]⟩
abbrev S128x128 : Shape := ⟨2, ![128, 128]⟩
abbrev S2x2x2x2x2x2x2x2x2x2x2x2x2x2x2x2x2x2x2x2x2x2x2x2 : Shape := ⟨24, ![2, 2, 2, 2, 2, 2, 2, 2, 2, 2, 2, 2, 2, 2, 2, 2, 2, 2, 2, 2, 2, 2, 2, 2]⟩
abbrev S2x65536x128 : Shape := ⟨3, ![2, 65536, 128]⟩
abbrev S1x65536x128 : Shape := ⟨3, ![1, 65536, 128]⟩
abbrev S65536x128 : Shape := ⟨2, ![65536, 128]⟩

abbrev nBuf : Space → Nat
  | .hbm => 100
  | .vmem => 0
  | .smem => 0
  | _ => 0

abbrev bufTy : (tb : Table) → Fin (tcTables nBuf tb) → BufTy
  | .hbm, ⟨0, _⟩ => ⟨S2x8388608, .f32⟩
  | .hbm, ⟨1, _⟩ => ⟨S4x2x128x128, .f32⟩
  | .hbm, ⟨2, _⟩ => ⟨S1x1x128x128, .f32⟩
  | .hbm, ⟨3, _⟩ => ⟨S128x128, .f32⟩
  | .hbm, ⟨4, _⟩ => ⟨S1x1x128x128, .f32⟩
  | .hbm, ⟨5, _⟩ => ⟨S128x128, .f32⟩
  | .hbm, ⟨6, _⟩ => ⟨S2x2x2x2x2x2x2x2x2x2x2x2x2x2x2x2x2x2x2x2x2x2x2x2, .f32⟩
  | .hbm, ⟨7, _⟩ => ⟨S2x65536x128, .f32⟩
  | .hbm, ⟨8, _⟩ => ⟨S1x65536x128, .f32⟩
  | .hbm, ⟨9, _⟩ => ⟨S65536x128, .f32⟩
  | .hbm, ⟨10, _⟩ => ⟨S1x65536x128, .f32⟩
  | .hbm, ⟨11, _⟩ => ⟨S65536x128, .f32⟩
  | .hbm, ⟨12, _⟩ => ⟨S65536x128, .f32⟩
  | .hbm, ⟨13, _⟩ => ⟨S65536x128, .f32⟩
  | .hbm, ⟨14, _⟩ => ⟨S128x128, .f32⟩
  | .hbm, ⟨15, _⟩ => ⟨S65536x128, .f32⟩
  | .hbm, ⟨16, _⟩ => ⟨S65536x128, .f32⟩
  | .hbm, ⟨17, _⟩ => ⟨S65536x128, .f32⟩
  | .hbm, ⟨18, _⟩ => ⟨S65536x128, .f32⟩
  | .hbm, ⟨19, _⟩ => ⟨S65536x128, .f32⟩
  | .hbm, ⟨20, _⟩ => ⟨S1x65536x128, .f32⟩
  | .hbm, ⟨21, _⟩ => ⟨S1x65536x128, .f32⟩
  | .hbm, ⟨22, _⟩ => ⟨S2x65536x128, .f32⟩
  | .hbm, ⟨23, _⟩ => ⟨S2x2x2x2x2x2x2x2x2x2x2x2x2x2x2x2x2x2x2x2x2x2x2x2, .f32⟩
  | .hbm, ⟨24, _⟩ => ⟨S2x8388608, .f32⟩
  | .hbm, ⟨25, _⟩ => ⟨S1x1x128x128, .f32⟩
  | .hbm, ⟨26, _⟩ => ⟨S128x128, .f32⟩
  | .hbm, ⟨27, _⟩ => ⟨S1x1x128x128, .f32⟩
  | .hbm, ⟨28, _⟩ => ⟨S128x128, .f32⟩
  | .hbm, ⟨29, _⟩ => ⟨S2x2x2x2x2x2x2x2x2x2x2x2x2x2x2x2x2x2x2x2x2x2x2x2, .f32⟩
  | .hbm, ⟨30, _⟩ => ⟨S2x2x2x2x2x2x2x2x2x2x2x2x2x2x2x2x2x2x2x2x2x2x2x2, .f32⟩
  | .hbm, ⟨31, _⟩ => ⟨S2x65536x128, .f32⟩
  | .hbm, ⟨32, _⟩ => ⟨S1x65536x128, .f32⟩
  | .hbm, ⟨33, _⟩ => ⟨S65536x128, .f32⟩
  | .hbm, ⟨34, _⟩ => ⟨S1x65536x128, .f32⟩
  | .hbm, ⟨35, _⟩ => ⟨S65536x128, .f32⟩
  | .hbm, ⟨36, _⟩ => ⟨S65536x128, .f32⟩
  | .hbm, ⟨37, _⟩ => ⟨S65536x128, .f32⟩
  | .hbm, ⟨38, _⟩ => ⟨S128x128, .f32⟩
  | .hbm, ⟨39, _⟩ => ⟨S65536x128, .f32⟩
  | .hbm, ⟨40, _⟩ => ⟨S65536x128, .f32⟩
  | .hbm, ⟨41, _⟩ => ⟨S65536x128, .f32⟩
  | .hbm, ⟨42, _⟩ => ⟨S65536x128, .f32⟩
  | .hbm, ⟨43, _⟩ => ⟨S65536x128, .f32⟩
  | .hbm, ⟨44, _⟩ => ⟨S1x65536x128, .f32⟩
  | .hbm, ⟨45, _⟩ => ⟨S1x65536x128, .f32⟩
  | .hbm, ⟨46, _⟩ => ⟨S2x65536x128, .f32⟩
  | .hbm, ⟨47, _⟩ => ⟨S2x2x2x2x2x2x2x2x2x2x2x2x2x2x2x2x2x2x2x2x2x2x2x2, .f32⟩
  | .hbm, ⟨48, _⟩ => ⟨S2x2x2x2x2x2x2x2x2x2x2x2x2x2x2x2x2x2x2x2x2x2x2x2, .f32⟩
  | .hbm, ⟨49, _⟩ => ⟨S2x8388608, .f32⟩
  | .hbm, ⟨50, _⟩ => ⟨S1x1x128x128, .f32⟩
  | .hbm, ⟨51, _⟩ => ⟨S128x128, .f32⟩
  | .hbm, ⟨52, _⟩ => ⟨S1x1x128x128, .f32⟩
  | .hbm, ⟨53, _⟩ => ⟨S128x128, .f32⟩
  | .hbm, ⟨54, _⟩ => ⟨S2x2x2x2x2x2x2x2x2x2x2x2x2x2x2x2x2x2x2x2x2x2x2x2, .f32⟩
  | .hbm, ⟨55, _⟩ => ⟨S2x2x2x2x2x2x2x2x2x2x2x2x2x2x2x2x2x2x2x2x2x2x2x2, .f32⟩
  | .hbm, ⟨56, _⟩ => ⟨S2x65536x128, .f32⟩
  | .hbm, ⟨57, _⟩ => ⟨S1x65536x128, .f32⟩
  | .hbm, ⟨58, _⟩ => ⟨S65536x128, .f32⟩
  | .hbm, ⟨59, _⟩ => ⟨S1x65536x128, .f32⟩
  | .hbm, ⟨60, _⟩ => ⟨S65536x128, .f32⟩
  | .hbm, ⟨61, _⟩ => ⟨S65536x128, .f32⟩
  | .hbm, ⟨62, _⟩ => ⟨S65536x128, .f32⟩
  | .hbm, ⟨63, _⟩ => ⟨S128x128, .f32⟩
  | .hbm, ⟨64, _⟩ => ⟨S65536x128, .f32⟩
  | .hbm, ⟨65, _⟩ => ⟨S65536x128, .f32⟩
  | .hbm, ⟨66, _⟩ => ⟨S65536x128, .f32⟩
  | .hbm, ⟨67, _⟩ => ⟨S65536x128, .f32⟩
  | .hbm, ⟨68, _⟩ => ⟨S65536x128, .f32⟩
  | .hbm, ⟨69, _⟩ => ⟨S1x65536x128, .f32⟩
  | .hbm, ⟨70, _⟩ => ⟨S1x65536x128, .f32⟩
  | .hbm, ⟨71, _⟩ => ⟨S2x65536x128, .f32⟩
  | .hbm, ⟨72, _⟩ => ⟨S2x2x2x2x2x2x2x2x2x2x2x2x2x2x2x2x2x2x2x2x2x2x2x2, .f32⟩
  | .hbm, ⟨73, _⟩ => ⟨S2x2x2x2x2x2x2x2x2x2x2x2x2x2x2x2x2x2x2x2x2x2x2x2, .f32⟩
  | .hbm, ⟨74, _⟩ => ⟨S2x8388608, .f32⟩
  | .hbm, ⟨75, _⟩ => ⟨S1x1x128x128, .f32⟩
  | .hbm, ⟨76, _⟩ => ⟨S128x128, .f32⟩
  | .hbm, ⟨77, _⟩ => ⟨S1x1x128x128, .f32⟩
  | .hbm, ⟨78, _⟩ => ⟨S128x128, .f32⟩
  | .hbm, ⟨79, _⟩ => ⟨S2x2x2x2x2x2x2x2x2x2x2x2x2x2x2x2x2x2x2x2x2x2x2x2, .f32⟩
  | .hbm, ⟨80, _⟩ => ⟨S2x2x2x2x2x2x2x2x2x2x2x2x2x2x2x2x2x2x2x2x2x2x2x2, .f32⟩
  | .hbm, ⟨81, _⟩ => ⟨S2x65536x128, .f32⟩
  | .hbm, ⟨82, _⟩ => ⟨S1x65536x128, .f32⟩
  | .hbm, ⟨83, _⟩ => ⟨S65536x128, .f32⟩
  | .hbm, ⟨84, _⟩ => ⟨S1x65536x128, .f32⟩
  | .hbm, ⟨85, _⟩ => ⟨S65536x128, .f32⟩
  | .hbm, ⟨86, _⟩ => ⟨S65536x128, .f32⟩
  | .hbm, ⟨87, _⟩ => ⟨S65536x128, .f32⟩
  | .hbm, ⟨88, _⟩ => ⟨S128x128, .f32⟩
  | .hbm, ⟨89, _⟩ => ⟨S65536x128, .f32⟩
  | .hbm, ⟨90, _⟩ => ⟨S65536x128, .f32⟩
  | .hbm, ⟨91, _⟩ => ⟨S65536x128, .f32⟩
  | .hbm, ⟨92, _⟩ => ⟨S65536x128, .f32⟩
  | .hbm, ⟨93, _⟩ => ⟨S65536x128, .f32⟩
  | .hbm, ⟨94, _⟩ => ⟨S1x65536x128, .f32⟩
  | .hbm, ⟨95, _⟩ => ⟨S1x65536x128, .f32⟩
  | .hbm, ⟨96, _⟩ => ⟨S2x65536x128, .f32⟩
  | .hbm, ⟨97, _⟩ => ⟨S2x2x2x2x2x2x2x2x2x2x2x2x2x2x2x2x2x2x2x2x2x2x2x2, .f32⟩
  | .hbm, ⟨98, _⟩ => ⟨S2x2x2x2x2x2x2x2x2x2x2x2x2x2x2x2x2x2x2x2x2x2x2x2, .f32⟩
  | .hbm, ⟨99, _⟩ => ⟨S2x8388608, .f32⟩
  | _, _ => ⟨S2x8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩

abbrev nD : Nat := 1
abbrev τ : Topo := Topo.v7x

variable {F : FTy → Type} [FloatOps F]

class Facts₀ : Prop where
  slices_S4x2x128x128_S1x1x128x128_0_0_0_0 : S4x2x128x128.Slices ![0, 0, 0, 0] S1x1x128x128
  shapeCasts_S1x1x128x128_S128x128 : S1x1x128x128.ShapeCasts S128x128
  slices_S4x2x128x128_S1x1x128x128_0_1_0_0 : S4x2x128x128.Slices ![0, 1, 0, 0] S1x1x128x128
  shapeCasts_S2x8388608_S2x2x2x2x2x2x2x2x2x2x2x2x2x2x2x2x2x2x2x2x2x2x2x2 : S2x8388608.ShapeCasts S2x2x2x2x2x2x2x2x2x2x2x2x2x2x2x2x2x2x2x2x2x2x2x2
  shapeCasts_S2x2x2x2x2x2x2x2x2x2x2x2x2x2x2x2x2x2x2x2x2x2x2x2_S2x65536x128 : S2x2x2x2x2x2x2x2x2x2x2x2x2x2x2x2x2x2x2x2x2x2x2x2.ShapeCasts S2x65536x128
  slices_S2x65536x128_S1x65536x128_0_0_0 : S2x65536x128.Slices ![0, 0, 0] S1x65536x128
  shapeCasts_S1x65536x128_S65536x128 : S1x65536x128.ShapeCasts S65536x128
  slices_S2x65536x128_S1x65536x128_1_0_0 : S2x65536x128.Slices ![1, 0, 0] S1x65536x128
  bcast_S65536x128_S1x65536x128_1_2 : S65536x128.BroadcastsInDim S1x65536x128 (![1, 2] : Fin 2 → Fin S1x65536x128.rank)
  concatenates_S1x65536x128_S1x65536x128_S2x65536x128_d0 : Shape.Concatenates [S1x65536x128, S1x65536x128] S2x65536x128 0
  shapeCasts_S2x65536x128_S2x2x2x2x2x2x2x2x2x2x2x2x2x2x2x2x2x2x2x2x2x2x2x2 : S2x65536x128.ShapeCasts S2x2x2x2x2x2x2x2x2x2x2x2x2x2x2x2x2x2x2x2x2x2x2x2
  shapeCasts_S2x2x2x2x2x2x2x2x2x2x2x2x2x2x2x2x2x2x2x2x2x2x2x2_S2x8388608 : S2x2x2x2x2x2x2x2x2x2x2x2x2x2x2x2x2x2x2x2x2x2x2x2.ShapeCasts S2x8388608
  slices_S4x2x128x128_S1x1x128x128_1_0_0_0 : S4x2x128x128.Slices ![1, 0, 0, 0] S1x1x128x128
  slices_S4x2x128x128_S1x1x128x128_1_1_0_0 : S4x2x128x128.Slices ![1, 1, 0, 0] S1x1x128x128
  transposes_S2x2x2x2x2x2x2x2x2x2x2x2x2x2x2x2x2x2x2x2x2x2x2x2_S2x2x2x2x2x2x2x2x2x2x2x2x2x2x2x2x2x2x2x2x2x2x2x2_0_8_9_10_11_12_13_14_1_2_3_4_5_6_7_15_16_17_18_19_20_21_22_23 : S2x2x2x2x2x2x2x2x2x2x2x2x2x2x2x2x2x2x2x2x2x2x2x2.Transposes [0, 8, 9, 10, 11, 12, 13, 14, 1, 2, 3, 4, 5, 6, 7, 15, 16, 17, 18, 19, 20, 21, 22, 23] S2x2x2x2x2x2x2x2x2x2x2x2x2x2x2x2x2x2x2x2x2x2x2x2
  slices_S4x2x128x128_S1x1x128x128_2_0_0_0 : S4x2x128x128.Slices ![2, 0, 0, 0] S1x1x128x128
  slices_S4x2x128x128_S1x1x128x128_2_1_0_0 : S4x2x128x128.Slices ![2, 1, 0, 0] S1x1x128x128
  transposes_S2x2x2x2x2x2x2x2x2x2x2x2x2x2x2x2x2x2x2x2x2x2x2x2_S2x2x2x2x2x2x2x2x2x2x2x2x2x2x2x2x2x2x2x2x2x2x2x2_0_4_6_8_10_12_14_16_1_2_3_5_7_9_11_13_15_17_18_19_20_21_22_23 : S2x2x2x2x2x2x2x2x2x2x2x2x2x2x2x2x2x2x2x2x2x2x2x2.Transposes [0, 4, 6, 8, 10, 12, 14, 16, 1, 2, 3, 5, 7, 9, 11, 13, 15, 17, 18, 19, 20, 21, 22, 23] S2x2x2x2x2x2x2x2x2x2x2x2x2x2x2x2x2x2x2x2x2x2x2x2
  transposes_S2x2x2x2x2x2x2x2x2x2x2x2x2x2x2x2x2x2x2x2x2x2x2x2_S2x2x2x2x2x2x2x2x2x2x2x2x2x2x2x2x2x2x2x2x2x2x2x2_0_8_9_10_1_11_2_12_3_13_4_14_5_15_6_16_7_17_18_19_20_21_22_23 : S2x2x2x2x2x2x2x2x2x2x2x2x2x2x2x2x2x2x2x2x2x2x2x2.Transposes [0, 8, 9, 10, 1, 11, 2, 12, 3, 13, 4, 14, 5, 15, 6, 16, 7, 17, 18, 19, 20, 21, 22, 23] S2x2x2x2x2x2x2x2x2x2x2x2x2x2x2x2x2x2x2x2x2x2x2x2
  slices_S4x2x128x128_S1x1x128x128_3_0_0_0 : S4x2x128x128.Slices ![3, 0, 0, 0] S1x1x128x128
  slices_S4x2x128x128_S1x1x128x128_3_1_0_0 : S4x2x128x128.Slices ![3, 1, 0, 0] S1x1x128x128
  transposes_S2x2x2x2x2x2x2x2x2x2x2x2x2x2x2x2x2x2x2x2x2x2x2x2_S2x2x2x2x2x2x2x2x2x2x2x2x2x2x2x2x2x2x2x2x2x2x2x2_0_17_18_19_20_21_22_23_1_2_3_4_5_6_7_8_9_10_11_12_13_14_15_16 : S2x2x2x2x2x2x2x2x2x2x2x2x2x2x2x2x2x2x2x2x2x2x2x2.Transposes [0, 17, 18, 19, 20, 21, 22, 23, 1, 2, 3, 4, 5, 6, 7, 8, 9, 10, 11, 12, 13, 14, 15, 16] S2x2x2x2x2x2x2x2x2x2x2x2x2x2x2x2x2x2x2x2x2x2x2x2
  transposes_S2x2x2x2x2x2x2x2x2x2x2x2x2x2x2x2x2x2x2x2x2x2x2x2_S2x2x2x2x2x2x2x2x2x2x2x2x2x2x2x2x2x2x2x2x2x2x2x2_0_8_9_10_11_12_13_14_15_16_17_18_19_20_21_22_23_1_2_3_4_5_6_7 : S2x2x2x2x2x2x2x2x2x2x2x2x2x2x2x2x2x2x2x2x2x2x2x2.Transposes [0, 8, 9, 10, 11, 12, 13, 14, 15, 16, 17, 18, 19, 20, 21, 22, 23, 1, 2, 3, 4, 5, 6, 7] S2x2x2x2x2x2x2x2x2x2x2x2x2x2x2x2x2x2x2x2x2x2x2x2
  dot_S65536x128_S128x128_S65536x128_1_1_0_0_n_n_wf : DotDims.WF S65536x128 S128x128 S65536x128 [1] [1] [0] [0] [] []

variable [Facts₀]

def dot_S65536x128_S128x128_S65536x128_1_1_0_0_n_n : DotDims S65536x128 S128x128 S65536x128 where
  lhsContracting := [1]
  rhsContracting := [1]
  lhsNonContracting := [0]
  rhsNonContracting := [0]
  lhsBatch := []
  rhsBatch := []
  wf := dot_S65536x128_S128x128_S65536x128_1_1_0_0_n_n_wf

class Facts : Prop extends Facts₀ where

variable [Facts]
-- ==== Proof.Spec.lean ====
/-
  The mathematics both programs compute, stated once over the extended reals.

  The state is a complex vector of length 2^23 held as two real channels, `[2, 8388608]`. One gate is applied on the
  state re-laid as `[2, 65536, 128]` (channel, row, lane): with `sr = s[0]`, `si = s[1]` and the real and imaginary parts
  `Ur`, `Ui` of a 128 x 128 matrix,
    `Wr[r, l] = sum_a sr[r, a] * Ur[l, a]`,  `Wi[r, l] = sum_a si[r, a] * Ui[l, a]`,
    `S[r, l] = sum_a (sr[r, a] + si[r, a]) * (Ur[l, a] + Ui[l, a])`,
  and the result holds `S - Wr - Wi` in channel 0 and `Wr - Wi` in channel 1 (the three-product form of a complex
  product, with the channels swapped as both programs swap them).  `gateT` is the same with the matrices handed over
  already transposed, as a matrix product `s * U^T` reads them.
-/
import Idealize.ShloMosaic.PureOps.Ideal
import Idealize.ShloMosaic.Lib.ValueIdx
import Idealize.ShloMosaic.Lib.ValueLayout
import Idealize.ShloMosaic.Lib.Pipeline.Value

noncomputable section

namespace Cert.Spec

open Idealize.ShloMosaic Idealize.ShloMosaic.ValueIdx

abbrev SU : Shape := ⟨2, ![128, 128]⟩
abbrev SP : Shape := ⟨3, ![2, 65536, 128]⟩

/-- One gate at channel `c`, row `r`, lane `l`, the matrices indexed `[l, a]`. -/
def gateAt (Ur Ui : SU.Idx → EReal) (s : SP.Idx → EReal) (c : Fin 2) (r : Fin 65536) (l : Fin 128) : EReal :=
  if c.val = 0 then
    (∑ a : Fin 128, (s (ix3 0 r a) + s (ix3 1 r a)) * (Ur (ix2 l a) + Ui (ix2 l a)))
      - (∑ a : Fin 128, s (ix3 0 r a) * Ur (ix2 l a)) - (∑ a : Fin 128, s (ix3 1 r a) * Ui (ix2 l a))
  else
    (∑ a : Fin 128, s (ix3 0 r a) * Ur (ix2 l a)) - (∑ a : Fin 128, s (ix3 1 r a) * Ui (ix2 l a))

/-- One gate as a function of the whole re-laid state. -/
def gateFn (Ur Ui : SU.Idx → EReal) (s : SP.Idx → EReal) : SP.Idx → EReal :=
  fun j => gateAt Ur Ui s (j 0) (j 1) (j 2)

theorem gateFn_ix3 (Ur Ui : SU.Idx → EReal) (s : SP.Idx → EReal) (c : Fin 2) (r : Fin 65536) (l : Fin 128) :
    gateFn Ur Ui s (ix3 c r l) = gateAt Ur Ui s c r l := rfl

/-- The same gate with the three matrices given transposed (`[a, l]`) and the sum matrix given ready-made. -/
def gateTAt (urT uiT usT : SU.Idx → EReal) (s : SP.Idx → EReal) (c : Fin 2) (r : Fin 65536) (l : Fin 128) : EReal :=
  if c.val = 0 then
    (∑ a : Fin 128, (s (ix3 0 r a) + s (ix3 1 r a)) * usT (ix2 a l))
      - (∑ a : Fin 128, s (ix3 0 r a) * urT (ix2 a l)) - (∑ a : Fin 128, s (ix3 1 r a) * uiT (ix2 a l))
  else
    (∑ a : Fin 128, s (ix3 0 r a) * urT (ix2 a l)) - (∑ a : Fin 128, s (ix3 1 r a) * uiT (ix2 a l))

def gateT (urT uiT usT : SU.Idx → EReal) (s : SP.Idx → EReal) : SP.Idx → EReal :=
  fun j => gateTAt urT uiT usT s (j 0) (j 1) (j 2)

theorem gateT_ix3 (urT uiT usT : SU.Idx → EReal) (s : SP.Idx → EReal) (c : Fin 2) (r : Fin 65536) (l : Fin 128) :
    gateT urT uiT usT s (ix3 c r l) = gateTAt urT uiT usT s c r l := rfl

/-- Handing a matrix product the transposes of `Ur`, `Ui` and `Ur + Ui` gives the gate itself. -/
theorem gateT_transposes (Ur Ui : FVec Ideal SU .f32) (s : FVec Ideal SP .f32) (h : SU.Transposes [1, 0] SU) :
    gateT (transpose SU [1, 0] Ur h) (transpose SU [1, 0] Ui h) (transpose SU [1, 0] (addf Ur Ui) h) s = gateFn Ur Ui s := by
  funext j
  have e : ∀ (X : SU.Idx → EReal) (a l : Fin 128), transpose SU [1, 0] X h (ix2 a l) = X (ix2 l a) := fun X a l =>
    transpose_apply [1, 0] X h (ix2 a l) (ix2 l a) (fun b => match b with | ⟨0, _⟩ => rfl | ⟨1, _⟩ => rfl)
  obtain ⟨c, r, l, rfl⟩ : ∃ (c : Fin 2) (r : Fin 65536) (l : Fin 128), j = ix3 c r l := ⟨j 0, j 1, j 2, eq_ix3 j⟩
  show gateTAt _ _ _ s c r l = gateAt Ur Ui s c r l
  unfold gateTAt gateAt
  simp only [e]
  rfl

end Cert.Spec

end
-- ==== Proof.KRegion0.lean ====
/-
  What the first gate's pipelined matrix product leaves in its output array.  The grid has 128 points; point `t` reads
  rows `512 t … 512 t + 511` of both channels of the re-laid state and the three 128 x 128 matrices whole, forms the
  three products over the lane axis, and writes `S - Wr - Wi` into channel 0 and `Wr - Wi` into channel 1 of the same
  rows.  The row blocks tile the array, so after the last point the whole array is the gate of the specification,
  entry by entry.
-/
import proofs.«410610_j67473936220746_4_alg».proof.Proof.Gen.KernelIdeal.Frame
import proofs.«410610_j67473936220746_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

namespace Region0

/-! ## The matrix product's operand indices, axis by axis

The product contracts the lane axis of the 512 x 128 block with the row axis of the 128 x 128 matrix: at output entry
`(r, l)` and contraction position `a` the left operand is read at `(r, a)` and the right one at `(a, l)`. -/

theorem lhs_axis0 (j : S512x128.Idx) (k : dot_S512x128_S128x128_S512x128_1_0_0_1_n_n.contr.Idx) :
    (dot_S512x128_S128x128_S512x128_1_0_0_1_n_n.lhsIdx j k 0).val = (j 0).val := by
  simp [DotDims.lhsIdx, dot_S512x128_S128x128_S512x128_1_0_0_1_n_n]
  rfl

theorem lhs_axis1 (j : S512x128.Idx) (k : dot_S512x128_S128x128_S512x128_1_0_0_1_n_n.contr.Idx) :
    (dot_S512x128_S128x128_S512x128_1_0_0_1_n_n.lhsIdx j k 1).val = (k ⟨0, by decide⟩).val :=
  DotDims.lhsIdx_val_of_single _ rfl j k

theorem rhs_axis0 (j : S512x128.Idx) (k : dot_S512x128_S128x128_S512x128_1_0_0_1_n_n.contr.Idx) :
    (dot_S512x128_S128x128_S512x128_1_0_0_1_n_n.rhsIdx j k 0).val = (k ⟨0, by decide⟩).val :=
  DotDims.rhsIdx_val_of_single _ rfl j k

theorem rhs_axis1 (j : S512x128.Idx) (k : dot_S512x128_S128x128_S512x128_1_0_0_1_n_n.contr.Idx) :
    (dot_S512x128_S128x128_S512x128_1_0_0_1_n_n.rhsIdx j k 1).val = (j 1).val := by
  simp [DotDims.rhsIdx, dot_S512x128_S128x128_S512x128_1_0_0_1_n_n]
  rfl

/-- A 512 x 128 block times a 128 x 128 matrix into the zero accumulator, entry by entry: the sum over the lane axis. -/
theorem matmul_rows {φ₁ φ₂ : FTy} (lhs : FVec Ideal S512x128 φ₁) (rhs : FVec Ideal S128x128 φ₂) (r : Fin 512) (l : Fin 128) :
    matmul dot_S512x128_S128x128_S512x128_1_0_0_1_n_n none lhs rhs (constant (F := Ideal) S512x128 .f32 0x00000000#32) (ix2 r l)
      = ∑ a : Fin 128, lhs (ix2 r a) * rhs (ix2 a l) := by
  refine (Ideal.matmul_constant_zero_apply dot_S512x128_S128x128_S512x128_1_0_0_1_n_n none lhs rhs (ix2 r l)).trans ?_
  rw [← Equiv.sum_comp (contrEquiv1 dot_S512x128_S128x128_S512x128_1_0_0_1_n_n 128 rfl rfl).symm]
  refine Finset.sum_congr rfl fun a _ => ?_
  have hk := contrEquiv1_symm_val dot_S512x128_S128x128_S512x128_1_0_0_1_n_n 128 rfl rfl a
  congr 1
  · refine congrArg lhs (funext fun b => Fin.ext ?_)
    match b with
    | ⟨0, _⟩ => exact lhs_axis0 _ _
    | ⟨1, _⟩ => exact (lhs_axis1 _ _).trans hk
  · refine congrArg rhs (funext fun b => Fin.ext ?_)
    match b with
    | ⟨0, _⟩ => exact (rhs_axis0 _ _).trans hk
    | ⟨1, _⟩ => exact rhs_axis1 _ _

/-! ## The body's arithmetic at an entry

With `v12`, `v15` the two channels' 512 rows (each held as a `[1, 512, 128]` block) and `v0`, `v3`, `v6` the three
matrices, the body forms `Wr = v12 * v0`, `Wi = v15 * v3`, `S = (v12 + v15) * v6` and stores `S - Wr - Wi` and `Wr - Wi`.
The narrowing to the product's operand format is the identity on extended reals. -/

theorem pay3_at (v0 : Vec Ideal S128x128 .f32) (v12 : Vec Ideal S1x512x128 .f32) (r : Fin 512) (l : Fin 128) :
    k0_pay3 v0 v12 (ix2 r l) = ∑ a : Fin 128, v12 (ix3 0 r a) * v0 (ix2 a l) := by
  unfold k0_pay3 k0_pay1
  refine (matmul_rows _ _ r l).trans ?_
  refine Finset.sum_congr rfl fun a _ => ?_
  rw [truncf_apply, truncf_apply, shapeCast_self, shapeCast_1ab_ab_apply]

theorem pay4_at (v3 : Vec Ideal S128x128 .f32) (v15 : Vec Ideal S1x512x128 .f32) (r : Fin 512) (l : Fin 128) :
    k0_pay4 v3 v15 (ix2 r l) = ∑ a : Fin 128, v15 (ix3 0 r a) * v3 (ix2 a l) := by
  unfold k0_pay4 k0_pay2
  refine (matmul_rows _ _ r l).trans ?_
  refine Finset.sum_congr rfl fun a _ => ?_
  rw [truncf_apply, truncf_apply, shapeCast_self, shapeCast_1ab_ab_apply]

/-- What the body stores into channel 1 of its rows: `Wr - Wi`. -/
theorem pay6_at (v0 v3 : Vec Ideal S128x128 .f32) (v12 v15 : Vec Ideal S1x512x128 .f32) (u : Fin 1) (r : Fin 512) (l : Fin 128) :
    k0_pay6 v0 v3 v12 v15 (ix3 u r l)
      = (∑ a : Fin 128, v12 (ix3 0 r a) * v0 (ix2 a l)) - (∑ a : Fin 128, v15 (ix3 0 r a) * v3 (ix2 a l)) := by
  unfold k0_pay6
  refine (shapeCast_ab_1ab_apply _ _ u r l).trans ?_
  rw [subf_apply, pay3_at, pay4_at]

/-- What the body stores into channel 0 of its rows: `S - Wr - Wi`. -/
theorem pay5_at (v0 v3 v6 : Vec Ideal S128x128 .f32) (v12 v15 : Vec Ideal S1x512x128 .f32) (u : Fin 1) (r : Fin 512) (l : Fin 128) :
    k0_pay5 v0 v3 v6 v12 v15 (ix3 u r l)
      = (∑ a : Fin 128, (v12 (ix3 0 r a) + v15 (ix3 0 r a)) * v6 (ix2 a l))
        - (∑ a : Fin 128, v12 (ix3 0 r a) * v0 (ix2 a l)) - (∑ a : Fin 128, v15 (ix3 0 r a) * v3 (ix2 a l)) := by
  unfold k0_pay5
  refine (shapeCast_ab_1ab_apply _ _ u r l).trans ?_
  rw [subf_apply, subf_apply, pay3_at, pay4_at]
  congr 2
  refine (matmul_rows _ _ r l).trans ?_
  refine Finset.sum_congr rfl fun a _ => ?_
  unfold k0_pay1 k0_pay2
  rw [truncf_apply, truncf_apply, addf_apply, shapeCast_self, shapeCast_1ab_ab_apply, shapeCast_1ab_ab_apply]

/-! ## What one point leaves in the output block

The body reads the two channels of its input block through the row rectangles at channel 0 and channel 1 and the
matrices whole; it stores `S - Wr - Wi` through the channel-0 rectangle and `Wr - Wi` through the channel-1 rectangle of
the output block. So the block the body leaves is one function of the block's index: the gate on the block's 512 rows. -/

/-- The gate on one block of 512 rows, at channel `c`, row `r`, lane `l`. -/
def gateBlockAt (urT uiT usT : S128x128.Idx → EReal) (b : S2x512x128.Idx → EReal) (c : Fin 2) (r : Fin 512) (l : Fin 128) : EReal :=
  if c.val = 0 then
    (∑ a : Fin 128, (b (ix3 0 r a) + b (ix3 1 r a)) * usT (ix2 a l))
      - (∑ a : Fin 128, b (ix3 0 r a) * urT (ix2 a l)) - (∑ a : Fin 128, b (ix3 1 r a) * uiT (ix2 a l))
  else
    (∑ a : Fin 128, b (ix3 0 r a) * urT (ix2 a l)) - (∑ a : Fin 128, b (ix3 1 r a) * uiT (ix2 a l))

/-- The same as a function of the block's index. -/
def gateBlock (urT uiT usT : S128x128.Idx → EReal) (b : S2x512x128.Idx → EReal) : S2x512x128.Idx → EReal :=
  fun y => gateBlockAt urT uiT usT b (y 0) (y 1) (y 2)

theorem hz2 : (![0, 0] : Fin 2 → Nat) = fun _ => 0 := funext fun a => by fin_cases a <;> rfl

/-- The row rectangles start at channel 0 and channel 1, row 0, lane 0. -/
theorem off_ch0 : k0_off1 0 = 0 ∧ k0_off1 1 = 0 ∧ k0_off1 2 = 0 := by decide +kernel
theorem off_ch1 : k0_off2 0 = 1 ∧ k0_off2 1 = 0 ∧ k0_off2 2 = 0 := by decide +kernel

/-- The channel-0 rectangle places `(u, r, l)` at `(0, r, l)` of the block, -/
theorem emb_ch0 (u : Fin 1) (r : Fin 512) (l : Fin 128) : r0_1.emb (ix3 u r l) = (ix3 0 r l : S2x512x128.Idx) := by
  obtain ⟨e0, e1, e2⟩ := off_ch0
  funext a; apply Fin.ext
  match a with
  | ⟨0, _⟩ => show k0_off1 0 + 1 * u.val = 0; omega
  | ⟨1, _⟩ => show k0_off1 1 + 1 * r.val = r.val; omega
  | ⟨2, _⟩ => show k0_off1 2 + 1 * l.val = l.val; omega

/-- and the channel-1 rectangle at `(1, r, l)`. -/
theorem emb_ch1 (u : Fin 1) (r : Fin 512) (l : Fin 128) : r0_2.emb (ix3 u r l) = (ix3 1 r l : S2x512x128.Idx) := by
  obtain ⟨e0, e1, e2⟩ := off_ch1
  funext a; apply Fin.ext
  match a with
  | ⟨0, _⟩ => show k0_off2 0 + 1 * u.val = 1; omega
  | ⟨1, _⟩ => show k0_off2 1 + 1 * r.val = r.val; omega
  | ⟨2, _⟩ => show k0_off2 2 + 1 * l.val = l.val; omega

/-- A load through the channel-0 rectangle reads channel 0 of the block, -/
theorem ld_ch0 (X : Vec Ideal S2x512x128 .f32) :
    View.ld (Val := Elt Ideal) X r0_1 = fun x : S1x512x128.Idx => X (ix3 0 (x 1) (x 2)) := by
  funext x
  obtain ⟨u, r, l, rfl⟩ : ∃ (u : Fin 1) (r : Fin 512) (l : Fin 128), x = ix3 u r l := ⟨x 0, x 1, x 2, eq_ix3 x⟩
  exact congrArg X (emb_ch0 u r l)

/-- and through the channel-1 rectangle channel 1. -/
theorem ld_ch1 (X : Vec Ideal S2x512x128 .f32) :
    View.ld (Val := Elt Ideal) X r0_2 = fun x : S1x512x128.Idx => X (ix3 1 (x 1) (x 2)) := by
  funext x
  obtain ⟨u, r, l, rfl⟩ : ∃ (u : Fin 1) (r : Fin 512) (l : Fin 128), x = ix3 u r l := ⟨x 0, x 1, x 2, eq_ix3 x⟩
  exact congrArg X (emb_ch1 u r l)

/-- The block the body leaves in the output window's buffer is the gate on the input block's 512 rows. -/
theorem out_block (x0 x1 x2 : Vec Ideal S128x128 .f32) (x3 : Vec Ideal S2x512x128 .f32) :
    out0_4 x0 x1 x2 x3 = gateBlock x0 x1 x2 x3 := by
  funext y
  unfold out0_4
  refine View.canon_apply_of_pieces (Val := Elt Ideal) (e := .f32) (gateBlock x0 x1 x2 x3) _ ?_ y (cover0_4 _ _ y)
  intro p hp x
  simp only [View.ld_unit_zero (S := S128x128) hz2] at hp
  rcases List.mem_cons.mp hp with rfl | hp
  · obtain ⟨u, r, l, rfl⟩ : ∃ (u : Fin 1) (r : Fin 512) (l : Fin 128), x = ix3 u r l := ⟨x 0, x 1, x 2, eq_ix3 x⟩
    rw [emb_ch1]
    refine (pay6_at _ _ _ _ u r l).trans ?_
    rw [ld_ch0, ld_ch1]
    rfl
  · obtain rfl := List.mem_singleton.mp hp
    obtain ⟨u, r, l, rfl⟩ : ∃ (u : Fin 1) (r : Fin 512) (l : Fin 128), x = ix3 u r l := ⟨x 0, x 1, x 2, eq_ix3 x⟩
    rw [emb_ch0]
    refine (pay5_at _ _ _ _ _ u r l).trans ?_
    rw [ld_ch0, ld_ch1]
    rfl

/-! ## The blocks a point reads, as rows of the arrays

The three matrix windows hold their arrays whole at every point; the state window at point `t` holds rows
`512 t … 512 t + 511` of both channels, and the output window writes back the same rows. -/

/-- The block indices over the grid: zero on every axis of the matrix windows; on the state and output windows zero on
    the channel and lane axes and the point's number on the row axis. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0 :=
  (by decide +kernel : ∀ t : Fin grid0.N, _)

/-- Row `r` of point `t`'s block is row `512 t + r` of the array. -/
def rowAt (t : Fin cfg0.N) (r : Fin 512) : Fin 65536 :=
  ⟨512 * t.val + r.val, by have h : t.val < 128 := t.isLt.trans_eq N_0; omega⟩

theorem block_urT (c : Dev nD) (t : Fin cfg0.N) (p q : Fin 128) :
    (iblk0 V c 0 t : Vec Ideal S128x128 .f32) (ix2 p q) = (V c main_v6 : S128x128.Idx → EReal) (ix2 p q) := by
  obtain ⟨e0, e1, -⟩ := block_indices t
  unfold iblk0
  rw [View.read_apply]
  show V c main_v6 _ = V c main_v6 _
  congr 1
  funext a; apply Fin.ext
  match a with
  | ⟨0, _⟩ => show win0_0.index t (0 : Fin 2) * 128 + 1 * p.val = p.val; omega
  | ⟨1, _⟩ => show win0_0.index t (1 : Fin 2) * 128 + 1 * q.val = q.val; omega

theorem block_uiT (c : Dev nD) (t : Fin cfg0.N) (p q : Fin 128) :
    (iblk0 V c 1 t : Vec Ideal S128x128 .f32) (ix2 p q) = (V c main_v7 : S128x128.Idx → EReal) (ix2 p q) := by
  obtain ⟨-, -, e0, e1, -⟩ := block_indices t
  unfold iblk0
  rw [View.read_apply]
  show V c main_v7 _ = V c main_v7 _
  congr 1
  funext a; apply Fin.ext
  match a with
  | ⟨0, _⟩ => show win0_1.index t (0 : Fin 2) * 128 + 1 * p.val = p.val; omega
  | ⟨1, _⟩ => show win0_1.index t (1 : Fin 2) * 128 + 1 * q.val = q.val; omega

theorem block_usT (c : Dev nD) (t : Fin cfg0.N) (p q : Fin 128) :
    (iblk0 V c 2 t : Vec Ideal S128x128 .f32) (ix2 p q) = (V c main_v8 : S128x128.Idx → EReal) (ix2 p q) := by
  obtain ⟨-, -, -, -, e0, e1, -⟩ := block_indices t
  unfold iblk0
  rw [View.read_apply]
  show V c main_v8 _ = V c main_v8 _
  congr 1
  funext a; apply Fin.ext
  match a with
  | ⟨0, _⟩ => show win0_2.index t (0 : Fin 2) * 128 + 1 * p.val = p.val; omega
  | ⟨1, _⟩ => show win0_2.index t (1 : Fin 2) * 128 + 1 * q.val = q.val; omega

theorem block_state (c : Dev nD) (t : Fin cfg0.N) (ch : Fin 2) (r : Fin 512) (a : Fin 128) :
    (iblk0 V c 3 t : Vec Ideal S2x512x128 .f32) (ix3 ch r a)
      = (V c main_v4 : S2x65536x128.Idx → EReal) (ix3 ch (rowAt t r) a) := by
  obtain ⟨-, -, -, -, -, -, e0, e1, e2, -⟩ := block_indices t
  unfold iblk0
  rw [View.read_apply]
  show V c main_v4 _ = V c main_v4 _
  congr 1
  funext b; apply Fin.ext
  match b with
  | ⟨0, _⟩ => show win0_3.index t (0 : Fin 3) * 2 + 1 * ch.val = ch.val; omega
  | ⟨1, _⟩ => show win0_3.index t (1 : Fin 3) * 512 + 1 * r.val = 512 * t.val + r.val; omega
  | ⟨2, _⟩ => show win0_3.index t (2 : Fin 3) * 128 + 1 * a.val = a.val; omega

/-- The output window's block at point `t` sits at the same rows. -/
theorem out_emb (t : Fin cfg0.N) (ch : Fin 2) (r : Fin 512) (l : Fin 128) :
    ((cfg0.win 4).blk t).view.emb (ix3 ch r l) = (ix3 ch (rowAt t r) l : S2x65536x128.Idx) := by
  obtain ⟨-, -, -, -, -, -, -, -, -, e0, e1, e2⟩ := block_indices t
  funext b; apply Fin.ext
  match b with
  | ⟨0, _⟩ => show win0_4.index t (0 : Fin 3) * 2 + 1 * ch.val = ch.val; omega
  | ⟨1, _⟩ => show win0_4.index t (1 : Fin 3) * 512 + 1 * r.val = 512 * t.val + r.val; omega
  | ⟨2, _⟩ => show win0_4.index t (2 : Fin 3) * 128 + 1 * l.val = l.val; omega

/-! ## What a point writes back, and the array after the last point -/

/-- On a block that holds rows `512 t …` of the state, the block's gate is the specification's gate at those rows. -/
theorem gateBlockAt_rows (urT uiT usT urT' uiT' usT' : S128x128.Idx → EReal) (b : S2x512x128.Idx → EReal)
    (s : S2x65536x128.Idx → EReal) (t : Fin cfg0.N)
    (hr : ∀ p q, urT (ix2 p q) = urT' (ix2 p q)) (hi : ∀ p q, uiT (ix2 p q) = uiT' (ix2 p q))
    (hs : ∀ p q, usT (ix2 p q) = usT' (ix2 p q))
    (hb : ∀ ch r a, b (ix3 ch r a) = s (ix3 ch (rowAt t r) a)) (ch : Fin 2) (r : Fin 512) (l : Fin 128) :
    gateBlockAt urT uiT usT b ch r l = Cert.Spec.gateTAt urT' uiT' usT' s ch (rowAt t r) l := by
  unfold gateBlockAt Cert.Spec.gateTAt
  simp only [hr, hi, hs, hb]

/-- What point `t` writes back is its block of the specification's gate of the arrays as the region finds them. -/
theorem flushed_eq (c : Dev nD) (t : Fin cfg0.N) :
    (dat0 (F := Ideal) V c).flushed 4 t
      = ((cfg0.win 4).blk t).view.read (Elt Ideal)
          (Cert.Spec.gateT (V c main_v6) (V c main_v7) (V c main_v8) (V c main_v4)) := by
  show (cfg0.win 4).cut (grid0.coords t) ((dat0 V c).after 4 t) = _
  rw [after0_4, out_block]
  funext y
  obtain ⟨ch, r, l, rfl⟩ : ∃ (ch : Fin 2) (r : Fin 512) (l : Fin 128), y = ix3 ch r l := ⟨y 0, y 1, y 2, eq_ix3 y⟩
  rw [View.read_apply, out_emb]
  show gateBlockAt _ _ _ _ ch r l = Cert.Spec.gateTAt _ _ _ _ ch (rowAt t r) l
  exact gateBlockAt_rows _ _ _ _ _ _ _ _ t (block_urT V c t) (block_uiT V c t) (block_usT V c t)
    (block_state V c t) ch r l

/-- An index of the array is in point `t`'s block iff each coordinate is in the block's range on its axis. -/
theorem mem_out_block (t : Fin cfg0.N) (i : S2x65536x128.Idx) :
    i ∈ ((cfg0.win 4).blk t).view.set
      ↔ ∀ a : Fin 3, win0_4.index t a * S2x512x128.size a ≤ (i a).val
          ∧ (i a).val < win0_4.index t a * S2x512x128.size a + S2x512x128.size a := by
  show i ∈ ((View.whole main_v9).slice (win0_4.rect t)).set ↔ _
  rw [View.set_slice_whole, Rect.mem_set_unit]
  exact Iff.rfl

/-- Every row of the array is in some point's block: row `ρ` in that of point `ρ / 512`. -/
theorem rows_covered (i : S2x65536x128.Idx) :
    ∃ t : Fin cfg0.N, (cfg0.win 4).flush t = true ∧ i ∈ ((cfg0.win 4).blk t).view.set := by
  have h0 : (i 0).val < 2 := (i 0).isLt
  have h1 : (i 1).val < 65536 := (i 1).isLt
  have h2 : (i 2).val < 128 := (i 2).isLt
  have hN : cfg0.N = 128 := N_0
  let t : Fin cfg0.N := ⟨(i 1).val / 512, by rw [hN]; omega⟩
  obtain ⟨-, -, -, -, -, -, -, -, -, e0, e1, e2⟩ := block_indices t
  have ht : t.val = (i 1).val / 512 := rfl
  refine ⟨t, flush0_4 t, ?_⟩
  rw [mem_out_block]
  intro a
  match a with
  | ⟨0, _⟩ => show win0_4.index t (0 : Fin 3) * 2 ≤ (i 0).val ∧ (i 0).val < win0_4.index t (0 : Fin 3) * 2 + 2; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

end Region0

/-- After its last point, region 0's output array is the gate of the specification applied to the arrays the region
    found: the three transposed matrices and the re-laid state. -/
theorem region0_value (c : Dev nD) :
    (dat0 (F := Ideal) V c).arrAt 4 cfg0.N
      = Cert.Spec.gateT (V c main_v6) (V c main_v7) (V c main_v8) (V c main_v4) :=
  (dat0 (F := Ideal) V c).arrAt_eq_of_cover 4 _ (fun t _ => Region0.flushed_eq V c t) Region0.rows_covered

end Cert.KernelIdeal.KValue

end
-- ==== Proof.KRegion1.lean ====
/-
  What the second gate's pipelined matrix product leaves in its output array.  The grid has 128 points; point `t` reads
  rows `512 t … 512 t + 511` of both channels of the re-laid state and the three 128 x 128 matrices whole, forms the
  three products over the lane axis, and writes `S - Wr - Wi` into channel 0 and `Wr - Wi` into channel 1 of the same
  rows.  The row blocks tile the array, so after the last point the whole array is the gate of the specification,
  entry by entry.
-/
import proofs.«410610_j67473936220746_4_alg».proof.Proof.Gen.KernelIdeal.Frame
import proofs.«410610_j67473936220746_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

namespace Region1

/-! ## The matrix product's operand indices, axis by axis

The product contracts the lane axis of the 512 x 128 block with the row axis of the 128 x 128 matrix: at output entry
`(r, l)` and contraction position `a` the left operand is read at `(r, a)` and the right one at `(a, l)`. -/

theorem lhs_axis0 (j : S512x128.Idx) (k : dot_S512x128_S128x128_S512x128_1_0_0_1_n_n.contr.Idx) :
    (dot_S512x128_S128x128_S512x128_1_0_0_1_n_n.lhsIdx j k 0).val = (j 0).val := by
  simp [DotDims.lhsIdx, dot_S512x128_S128x128_S512x128_1_0_0_1_n_n]
  rfl

theorem lhs_axis1 (j : S512x128.Idx) (k : dot_S512x128_S128x128_S512x128_1_0_0_1_n_n.contr.Idx) :
    (dot_S512x128_S128x128_S512x128_1_0_0_1_n_n.lhsIdx j k 1).val = (k ⟨0, by decide⟩).val :=
  DotDims.lhsIdx_val_of_single _ rfl j k

theorem rhs_axis0 (j : S512x128.Idx) (k : dot_S512x128_S128x128_S512x128_1_0_0_1_n_n.contr.Idx) :
    (dot_S512x128_S128x128_S512x128_1_0_0_1_n_n.rhsIdx j k 0).val = (k ⟨0, by decide⟩).val :=
  DotDims.rhsIdx_val_of_single _ rfl j k

theorem rhs_axis1 (j : S512x128.Idx) (k : dot_S512x128_S128x128_S512x128_1_0_0_1_n_n.contr.Idx) :
    (dot_S512x128_S128x128_S512x128_1_0_0_1_n_n.rhsIdx j k 1).val = (j 1).val := by
  simp [DotDims.rhsIdx, dot_S512x128_S128x128_S512x128_1_0_0_1_n_n]
  rfl

/-- A 512 x 128 block times a 128 x 128 matrix into the zero accumulator, entry by entry: the sum over the lane axis. -/
theorem matmul_rows {φ₁ φ₂ : FTy} (lhs : FVec Ideal S512x128 φ₁) (rhs : FVec Ideal S128x128 φ₂) (r : Fin 512) (l : Fin 128) :
    matmul dot_S512x128_S128x128_S512x128_1_0_0_1_n_n none lhs rhs (constant (F := Ideal) S512x128 .f32 0x00000000#32) (ix2 r l)
      = ∑ a : Fin 128, lhs (ix2 r a) * rhs (ix2 a l) := by
  refine (Ideal.matmul_constant_zero_apply dot_S512x128_S128x128_S512x128_1_0_0_1_n_n none lhs rhs (ix2 r l)).trans ?_
  rw [← Equiv.sum_comp (contrEquiv1 dot_S512x128_S128x128_S512x128_1_0_0_1_n_n 128 rfl rfl).symm]
  refine Finset.sum_congr rfl fun a _ => ?_
  have hk := contrEquiv1_symm_val dot_S512x128_S128x128_S512x128_1_0_0_1_n_n 128 rfl rfl a
  congr 1
  · refine congrArg lhs (funext fun b => Fin.ext ?_)
    match b with
    | ⟨0, _⟩ => exact lhs_axis0 _ _
    | ⟨1, _⟩ => exact (lhs_axis1 _ _).trans hk
  · refine congrArg rhs (funext fun b => Fin.ext ?_)
    match b with
    | ⟨0, _⟩ => exact (rhs_axis0 _ _).trans hk
    | ⟨1, _⟩ => exact rhs_axis1 _ _

/-! ## The body's arithmetic at an entry

With `v12`, `v15` the two channels' 512 rows (each held as a `[1, 512, 128]` block) and `v0`, `v3`, `v6` the three
matrices, the body forms `Wr = v12 * v0`, `Wi = v15 * v3`, `S = (v12 + v15) * v6` and stores `S - Wr - Wi` and `Wr - Wi`.
The narrowing to the product's operand format is the identity on extended reals. -/

theorem pay3_at (v0 : Vec Ideal S128x128 .f32) (v12 : Vec Ideal S1x512x128 .f32) (r : Fin 512) (l : Fin 128) :
    k1_pay3 v0 v12 (ix2 r l) = ∑ a : Fin 128, v12 (ix3 0 r a) * v0 (ix2 a l) := by
  unfold k1_pay3 k1_pay1
  refine (matmul_rows _ _ r l).trans ?_
  refine Finset.sum_congr rfl fun a _ => ?_
  rw [truncf_apply, truncf_apply, shapeCast_self, shapeCast_1ab_ab_apply]

theorem pay4_at (v3 : Vec Ideal S128x128 .f32) (v15 : Vec Ideal S1x512x128 .f32) (r : Fin 512) (l : Fin 128) :
    k1_pay4 v3 v15 (ix2 r l) = ∑ a : Fin 128, v15 (ix3 0 r a) * v3 (ix2 a l) := by
  unfold k1_pay4 k1_pay2
  refine (matmul_rows _ _ r l).trans ?_
  refine Finset.sum_congr rfl fun a _ => ?_
  rw [truncf_apply, truncf_apply, shapeCast_self, shapeCast_1ab_ab_apply]

/-- What the body stores into channel 1 of its rows: `Wr - Wi`. -/
theorem pay6_at (v0 v3 : Vec Ideal S128x128 .f32) (v12 v15 : Vec Ideal S1x512x128 .f32) (u : Fin 1) (r : Fin 512) (l : Fin 128) :
    k1_pay6 v0 v3 v12 v15 (ix3 u r l)
      = (∑ a : Fin 128, v12 (ix3 0 r a) * v0 (ix2 a l)) - (∑ a : Fin 128, v15 (ix3 0 r a) * v3 (ix2 a l)) := by
  unfold k1_pay6
  refine (shapeCast_ab_1ab_apply _ _ u r l).trans ?_
  rw [subf_apply, pay3_at, pay4_at]

/-- What the body stores into channel 0 of its rows: `S - Wr - Wi`. -/
theorem pay5_at (v0 v3 v6 : Vec Ideal S128x128 .f32) (v12 v15 : Vec Ideal S1x512x128 .f32) (u : Fin 1) (r : Fin 512) (l : Fin 128) :
    k1_pay5 v0 v3 v6 v12 v15 (ix3 u r l)
      = (∑ a : Fin 128, (v12 (ix3 0 r a) + v15 (ix3 0 r a)) * v6 (ix2 a l))
        - (∑ a : Fin 128, v12 (ix3 0 r a) * v0 (ix2 a l)) - (∑ a : Fin 128, v15 (ix3 0 r a) * v3 (ix2 a l)) := by
  unfold k1_pay5
  refine (shapeCast_ab_1ab_apply _ _ u r l).trans ?_
  rw [subf_apply, subf_apply, pay3_at, pay4_at]
  congr 2
  refine (matmul_rows _ _ r l).trans ?_
  refine Finset.sum_congr rfl fun a _ => ?_
  unfold k1_pay1 k1_pay2
  rw [truncf_apply, truncf_apply, addf_apply, shapeCast_self, shapeCast_1ab_ab_apply, shapeCast_1ab_ab_apply]

/-! ## What one point leaves in the output block

The body reads the two channels of its input block through the row rectangles at channel 0 and channel 1 and the
matrices whole; it stores `S - Wr - Wi` through the channel-0 rectangle and `Wr - Wi` through the channel-1 rectangle of
the output block. So the block the body leaves is one function of the block's index: the gate on the block's 512 rows. -/

/-- The gate on one block of 512 rows, at channel `c`, row `r`, lane `l`. -/
def gateBlockAt (urT uiT usT : S128x128.Idx → EReal) (b : S2x512x128.Idx → EReal) (c : Fin 2) (r : Fin 512) (l : Fin 128) : EReal :=
  if c.val = 0 then
    (∑ a : Fin 128, (b (ix3 0 r a) + b (ix3 1 r a)) * usT (ix2 a l))
      - (∑ a : Fin 128, b (ix3 0 r a) * urT (ix2 a l)) - (∑ a : Fin 128, b (ix3 1 r a) * uiT (ix2 a l))
  else
    (∑ a : Fin 128, b (ix3 0 r a) * urT (ix2 a l)) - (∑ a : Fin 128, b (ix3 1 r a) * uiT (ix2 a l))

/-- The same as a function of the block's index. -/
def gateBlock (urT uiT usT : S128x128.Idx → EReal) (b : S2x512x128.Idx → EReal) : S2x512x128.Idx → EReal :=
  fun y => gateBlockAt urT uiT usT b (y 0) (y 1) (y 2)

theorem hz2 : (![0, 0] : Fin 2 → Nat) = fun _ => 0 := funext fun a => by fin_cases a <;> rfl

/-- The row rectangles start at channel 0 and channel 1, row 0, lane 0. -/
theorem off_ch0 : k1_off1 0 = 0 ∧ k1_off1 1 = 0 ∧ k1_off1 2 = 0 := by decide +kernel
theorem off_ch1 : k1_off2 0 = 1 ∧ k1_off2 1 = 0 ∧ k1_off2 2 = 0 := by decide +kernel

/-- The channel-0 rectangle places `(u, r, l)` at `(0, r, l)` of the block, -/
theorem emb_ch0 (u : Fin 1) (r : Fin 512) (l : Fin 128) : r1_1.emb (ix3 u r l) = (ix3 0 r l : S2x512x128.Idx) := by
  obtain ⟨e0, e1, e2⟩ := off_ch0
  funext a; apply Fin.ext
  match a with
  | ⟨0, _⟩ => show k1_off1 0 + 1 * u.val = 0; omega
  | ⟨1, _⟩ => show k1_off1 1 + 1 * r.val = r.val; omega
  | ⟨2, _⟩ => show k1_off1 2 + 1 * l.val = l.val; omega

/-- and the channel-1 rectangle at `(1, r, l)`. -/
theorem emb_ch1 (u : Fin 1) (r : Fin 512) (l : Fin 128) : r1_2.emb (ix3 u r l) = (ix3 1 r l : S2x512x128.Idx) := by
  obtain ⟨e0, e1, e2⟩ := off_ch1
  funext a; apply Fin.ext
  match a with
  | ⟨0, _⟩ => show k1_off2 0 + 1 * u.val = 1; omega
  | ⟨1, _⟩ => show k1_off2 1 + 1 * r.val = r.val; omega
  | ⟨2, _⟩ => show k1_off2 2 + 1 * l.val = l.val; omega

/-- A load through the channel-0 rectangle reads channel 0 of the block, -/
theorem ld_ch0 (X : Vec Ideal S2x512x128 .f32) :
    View.ld (Val := Elt Ideal) X r1_1 = fun x : S1x512x128.Idx => X (ix3 0 (x 1) (x 2)) := by
  funext x
  obtain ⟨u, r, l, rfl⟩ : ∃ (u : Fin 1) (r : Fin 512) (l : Fin 128), x = ix3 u r l := ⟨x 0, x 1, x 2, eq_ix3 x⟩
  exact congrArg X (emb_ch0 u r l)

/-- and through the channel-1 rectangle channel 1. -/
theorem ld_ch1 (X : Vec Ideal S2x512x128 .f32) :
    View.ld (Val := Elt Ideal) X r1_2 = fun x : S1x512x128.Idx => X (ix3 1 (x 1) (x 2)) := by
  funext x
  obtain ⟨u, r, l, rfl⟩ : ∃ (u : Fin 1) (r : Fin 512) (l : Fin 128), x = ix3 u r l := ⟨x 0, x 1, x 2, eq_ix3 x⟩
  exact congrArg X (emb_ch1 u r l)

/-- The block the body leaves in the output window's buffer is the gate on the input block's 512 rows. -/
theorem out_block (x0 x1 x2 : Vec Ideal S128x128 .f32) (x3 : Vec Ideal S2x512x128 .f32) :
    out1_4 x0 x1 x2 x3 = gateBlock x0 x1 x2 x3 := by
  funext y
  unfold out1_4
  refine View.canon_apply_of_pieces (Val := Elt Ideal) (e := .f32) (gateBlock x0 x1 x2 x3) _ ?_ y (cover1_4 _ _ y)
  intro p hp x
  simp only [View.ld_unit_zero (S := S128x128) hz2] at hp
  rcases List.mem_cons.mp hp with rfl | hp
  · obtain ⟨u, r, l, rfl⟩ : ∃ (u : Fin 1) (r : Fin 512) (l : Fin 128), x = ix3 u r l := ⟨x 0, x 1, x 2, eq_ix3 x⟩
    rw [emb_ch1]
    refine (pay6_at _ _ _ _ u r l).trans ?_
    rw [ld_ch0, ld_ch1]
    rfl
  · obtain rfl := List.mem_singleton.mp hp
    obtain ⟨u, r, l, rfl⟩ : ∃ (u : Fin 1) (r : Fin 512) (l : Fin 128), x = ix3 u r l := ⟨x 0, x 1, x 2, eq_ix3 x⟩
    rw [emb_ch0]
    refine (pay5_at _ _ _ _ _ u r l).trans ?_
    rw [ld_ch0, ld_ch1]
    rfl

/-! ## The blocks a point reads, as rows of the arrays

The three matrix windows hold their arrays whole at every point; the state window at point `t` holds rows
`512 t … 512 t + 511` of both channels, and the output window writes back the same rows. -/

/-- The block indices over the grid: zero on every axis of the matrix windows; on the state and output windows zero on
    the channel and lane axes and the point's number on the row axis. -/
theorem block_indices : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = t.val ∧ win1_3.index t (2 : Fin 3) = 0
    ∧ win1_4.index t (0 : Fin 3) = 0 ∧ win1_4.index t (1 : Fin 3) = t.val ∧ win1_4.index t (2 : Fin 3) = 0 :=
  (by decide +kernel : ∀ t : Fin grid1.N, _)

/-- Row `r` of point `t`'s block is row `512 t + r` of the array. -/
def rowAt (t : Fin cfg1.N) (r : Fin 512) : Fin 65536 :=
  ⟨512 * t.val + r.val, by have h : t.val < 128 := t.isLt.trans_eq N_1; omega⟩

theorem block_urT (c : Dev nD) (t : Fin cfg1.N) (p q : Fin 128) :
    (iblk1 V c 0 t : Vec Ideal S128x128 .f32) (ix2 p q) = (V c main_v19 : S128x128.Idx → EReal) (ix2 p q) := by
  obtain ⟨e0, e1, -⟩ := block_indices t
  unfold iblk1
  rw [View.read_apply]
  show V c main_v19 _ = V c main_v19 _
  congr 1
  funext a; apply Fin.ext
  match a with
  | ⟨0, _⟩ => show win1_0.index t (0 : Fin 2) * 128 + 1 * p.val = p.val; omega
  | ⟨1, _⟩ => show win1_0.index t (1 : Fin 2) * 128 + 1 * q.val = q.val; omega

theorem block_uiT (c : Dev nD) (t : Fin cfg1.N) (p q : Fin 128) :
    (iblk1 V c 1 t : Vec Ideal S128x128 .f32) (ix2 p q) = (V c main_v20 : S128x128.Idx → EReal) (ix2 p q) := by
  obtain ⟨-, -, e0, e1, -⟩ := block_indices t
  unfold iblk1
  rw [View.read_apply]
  show V c main_v20 _ = V c main_v20 _
  congr 1
  funext a; apply Fin.ext
  match a with
  | ⟨0, _⟩ => show win1_1.index t (0 : Fin 2) * 128 + 1 * p.val = p.val; omega
  | ⟨1, _⟩ => show win1_1.index t (1 : Fin 2) * 128 + 1 * q.val = q.val; omega

theorem block_usT (c : Dev nD) (t : Fin cfg1.N) (p q : Fin 128) :
    (iblk1 V c 2 t : Vec Ideal S128x128 .f32) (ix2 p q) = (V c main_v21 : S128x128.Idx → EReal) (ix2 p q) := by
  obtain ⟨-, -, -, -, e0, e1, -⟩ := block_indices t
  unfold iblk1
  rw [View.read_apply]
  show V c main_v21 _ = V c main_v21 _
  congr 1
  funext a; apply Fin.ext
  match a with
  | ⟨0, _⟩ => show win1_2.index t (0 : Fin 2) * 128 + 1 * p.val = p.val; omega
  | ⟨1, _⟩ => show win1_2.index t (1 : Fin 2) * 128 + 1 * q.val = q.val; omega

theorem block_state (c : Dev nD) (t : Fin cfg1.N) (ch : Fin 2) (r : Fin 512) (a : Fin 128) :
    (iblk1 V c 3 t : Vec Ideal S2x512x128 .f32) (ix3 ch r a)
      = (V c main_v17 : S2x65536x128.Idx → EReal) (ix3 ch (rowAt t r) a) := by
  obtain ⟨-, -, -, -, -, -, e0, e1, e2, -⟩ := block_indices t
  unfold iblk1
  rw [View.read_apply]
  show V c main_v17 _ = V c main_v17 _
  congr 1
  funext b; apply Fin.ext
  match b with
  | ⟨0, _⟩ => show win1_3.index t (0 : Fin 3) * 2 + 1 * ch.val = ch.val; omega
  | ⟨1, _⟩ => show win1_3.index t (1 : Fin 3) * 512 + 1 * r.val = 512 * t.val + r.val; omega
  | ⟨2, _⟩ => show win1_3.index t (2 : Fin 3) * 128 + 1 * a.val = a.val; omega

/-- The output window's block at point `t` sits at the same rows. -/
theorem out_emb (t : Fin cfg1.N) (ch : Fin 2) (r : Fin 512) (l : Fin 128) :
    ((cfg1.win 4).blk t).view.emb (ix3 ch r l) = (ix3 ch (rowAt t r) l : S2x65536x128.Idx) := by
  obtain ⟨-, -, -, -, -, -, -, -, -, e0, e1, e2⟩ := block_indices t
  funext b; apply Fin.ext
  match b with
  | ⟨0, _⟩ => show win1_4.index t (0 : Fin 3) * 2 + 1 * ch.val = ch.val; omega
  | ⟨1, _⟩ => show win1_4.index t (1 : Fin 3) * 512 + 1 * r.val = 512 * t.val + r.val; omega
  | ⟨2, _⟩ => show win1_4.index t (2 : Fin 3) * 128 + 1 * l.val = l.val; omega

/-! ## What a point writes back, and the array after the last point -/

/-- On a block that holds rows `512 t …` of the state, the block's gate is the specification's gate at those rows. -/
theorem gateBlockAt_rows (urT uiT usT urT' uiT' usT' : S128x128.Idx → EReal) (b : S2x512x128.Idx → EReal)
    (s : S2x65536x128.Idx → EReal) (t : Fin cfg1.N)
    (hr : ∀ p q, urT (ix2 p q) = urT' (ix2 p q)) (hi : ∀ p q, uiT (ix2 p q) = uiT' (ix2 p q))
    (hs : ∀ p q, usT (ix2 p q) = usT' (ix2 p q))
    (hb : ∀ ch r a, b (ix3 ch r a) = s (ix3 ch (rowAt t r) a)) (ch : Fin 2) (r : Fin 512) (l : Fin 128) :
    gateBlockAt urT uiT usT b ch r l = Cert.Spec.gateTAt urT' uiT' usT' s ch (rowAt t r) l := by
  unfold gateBlockAt Cert.Spec.gateTAt
  simp only [hr, hi, hs, hb]

/-- What point `t` writes back is its block of the specification's gate of the arrays as the region finds them. -/
theorem flushed_eq (c : Dev nD) (t : Fin cfg1.N) :
    (dat1 (F := Ideal) V c).flushed 4 t
      = ((cfg1.win 4).blk t).view.read (Elt Ideal)
          (Cert.Spec.gateT (V c main_v19) (V c main_v20) (V c main_v21) (V c main_v17)) := by
  show (cfg1.win 4).cut (grid1.coords t) ((dat1 V c).after 4 t) = _
  rw [after1_4, out_block]
  funext y
  obtain ⟨ch, r, l, rfl⟩ : ∃ (ch : Fin 2) (r : Fin 512) (l : Fin 128), y = ix3 ch r l := ⟨y 0, y 1, y 2, eq_ix3 y⟩
  rw [View.read_apply, out_emb]
  show gateBlockAt _ _ _ _ ch r l = Cert.Spec.gateTAt _ _ _ _ ch (rowAt t r) l
  exact gateBlockAt_rows _ _ _ _ _ _ _ _ t (block_urT V c t) (block_uiT V c t) (block_usT V c t)
    (block_state V c t) ch r l

/-- An index of the array is in point `t`'s block iff each coordinate is in the block's range on its axis. -/
theorem mem_out_block (t : Fin cfg1.N) (i : S2x65536x128.Idx) :
    i ∈ ((cfg1.win 4).blk t).view.set
      ↔ ∀ a : Fin 3, win1_4.index t a * S2x512x128.size a ≤ (i a).val
          ∧ (i a).val < win1_4.index t a * S2x512x128.size a + S2x512x128.size a := by
  show i ∈ ((View.whole main_v22).slice (win1_4.rect t)).set ↔ _
  rw [View.set_slice_whole, Rect.mem_set_unit]
  exact Iff.rfl

/-- Every row of the array is in some point's block: row `ρ` in that of point `ρ / 512`. -/
theorem rows_covered (i : S2x65536x128.Idx) :
    ∃ t : Fin cfg1.N, (cfg1.win 4).flush t = true ∧ i ∈ ((cfg1.win 4).blk t).view.set := by
  have h0 : (i 0).val < 2 := (i 0).isLt
  have h1 : (i 1).val < 65536 := (i 1).isLt
  have h2 : (i 2).val < 128 := (i 2).isLt
  have hN : cfg1.N = 128 := N_1
  let t : Fin cfg1.N := ⟨(i 1).val / 512, by rw [hN]; omega⟩
  obtain ⟨-, -, -, -, -, -, -, -, -, e0, e1, e2⟩ := block_indices t
  have ht : t.val = (i 1).val / 512 := rfl
  refine ⟨t, flush1_4 t, ?_⟩
  rw [mem_out_block]
  intro a
  match a with
  | ⟨0, _⟩ => show win1_4.index t (0 : Fin 3) * 2 ≤ (i 0).val ∧ (i 0).val < win1_4.index t (0 : Fin 3) * 2 + 2; omega
  | ⟨1, _⟩ => show win1_4.index t (1 : Fin 3) * 512 ≤ (i 1).val ∧ (i 1).val < win1_4.index t (1 : Fin 3) * 512 + 512; omega
  | ⟨2, _⟩ => show win1_4.index t (2 : Fin 3) * 128 ≤ (i 2).val ∧ (i 2).val < win1_4.index t (2 : Fin 3) * 128 + 128; omega

end Region1

/-- After its last point, region 1's output array is the gate of the specification applied to the arrays the region
    found: the three transposed matrices and the re-laid state. -/
theorem region1_value (c : Dev nD) :
    (dat1 (F := Ideal) V c).arrAt 4 cfg1.N
      = Cert.Spec.gateT (V c main_v19) (V c main_v20) (V c main_v21) (V c main_v17) :=
  (dat1 (F := Ideal) V c).arrAt_eq_of_cover 4 _ (fun t _ => Region1.flushed_eq V c t) Region1.rows_covered

end Cert.KernelIdeal.KValue

end
-- ==== Proof.KRegion2.lean ====
/-
  What the third gate's pipelined matrix product leaves in its output array.  The grid has 128 points; point `t` reads
  rows `512 t … 512 t + 511` of both channels of the re-laid state and the three 128 x 128 matrices whole, forms the
  three products over the lane axis, and writes `S - Wr - Wi` into channel 0 and `Wr - Wi` into channel 1 of the same
  rows.  The row blocks tile the array, so after the last point the whole array is the gate of the specification,
  entry by entry.
-/
import proofs.«410610_j67473936220746_4_alg».proof.Proof.Gen.KernelIdeal.Frame
import proofs.«410610_j67473936220746_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

namespace Region2

/-! ## The matrix product's operand indices, axis by axis

The product contracts the lane axis of the 512 x 128 block with the row axis of the 128 x 128 matrix: at output entry
`(r, l)` and contraction position `a` the left operand is read at `(r, a)` and the right one at `(a, l)`. -/

theorem lhs_axis0 (j : S512x128.Idx) (k : dot_S512x128_S128x128_S512x128_1_0_0_1_n_n.contr.Idx) :
    (dot_S512x128_S128x128_S512x128_1_0_0_1_n_n.lhsIdx j k 0).val = (j 0).val := by
  simp [DotDims.lhsIdx, dot_S512x128_S128x128_S512x128_1_0_0_1_n_n]
  rfl

theorem lhs_axis1 (j : S512x128.Idx) (k : dot_S512x128_S128x128_S512x128_1_0_0_1_n_n.contr.Idx) :
    (dot_S512x128_S128x128_S512x128_1_0_0_1_n_n.lhsIdx j k 1).val = (k ⟨0, by decide⟩).val :=
  DotDims.lhsIdx_val_of_single _ rfl j k

theorem rhs_axis0 (j : S512x128.Idx) (k : dot_S512x128_S128x128_S512x128_1_0_0_1_n_n.contr.Idx) :
    (dot_S512x128_S128x128_S512x128_1_0_0_1_n_n.rhsIdx j k 0).val = (k ⟨0, by decide⟩).val :=
  DotDims.rhsIdx_val_of_single _ rfl j k

theorem rhs_axis1 (j : S512x128.Idx) (k : dot_S512x128_S128x128_S512x128_1_0_0_1_n_n.contr.Idx) :
    (dot_S512x128_S128x128_S512x128_1_0_0_1_n_n.rhsIdx j k 1).val = (j 1).val := by
  simp [DotDims.rhsIdx, dot_S512x128_S128x128_S512x128_1_0_0_1_n_n]
  rfl

/-- A 512 x 128 block times a 128 x 128 matrix into the zero accumulator, entry by entry: the sum over the lane axis. -/
theorem matmul_rows {φ₁ φ₂ : FTy} (lhs : FVec Ideal S512x128 φ₁) (rhs : FVec Ideal S128x128 φ₂) (r : Fin 512) (l : Fin 128) :
    matmul dot_S512x128_S128x128_S512x128_1_0_0_1_n_n none lhs rhs (constant (F := Ideal) S512x128 .f32 0x00000000#32) (ix2 r l)
      = ∑ a : Fin 128, lhs (ix2 r a) * rhs (ix2 a l) := by
  refine (Ideal.matmul_constant_zero_apply dot_S512x128_S128x128_S512x128_1_0_0_1_n_n none lhs rhs (ix2 r l)).trans ?_
  rw [← Equiv.sum_comp (contrEquiv1 dot_S512x128_S128x128_S512x128_1_0_0_1_n_n 128 rfl rfl).symm]
  refine Finset.sum_congr rfl fun a _ => ?_
  have hk := contrEquiv1_symm_val dot_S512x128_S128x128_S512x128_1_0_0_1_n_n 128 rfl rfl a
  congr 1
  · refine congrArg lhs (funext fun b => Fin.ext ?_)
    match b with
    | ⟨0, _⟩ => exact lhs_axis0 _ _
    | ⟨1, _⟩ => exact (lhs_axis1 _ _).trans hk
  · refine congrArg rhs (funext fun b => Fin.ext ?_)
    match b with
    | ⟨0, _⟩ => exact (rhs_axis0 _ _).trans hk
    | ⟨1, _⟩ => exact rhs_axis1 _ _

/-! ## The body's arithmetic at an entry

With `v12`, `v15` the two channels' 512 rows (each held as a `[1, 512, 128]` block) and `v0`, `v3`, `v6` the three
matrices, the body forms `Wr = v12 * v0`, `Wi = v15 * v3`, `S = (v12 + v15) * v6` and stores `S - Wr - Wi` and `Wr - Wi`.
The narrowing to the product's operand format is the identity on extended reals. -/

theorem pay3_at (v0 : Vec Ideal S128x128 .f32) (v12 : Vec Ideal S1x512x128 .f32) (r : Fin 512) (l : Fin 128) :
    k2_pay3 v0 v12 (ix2 r l) = ∑ a : Fin 128, v12 (ix3 0 r a) * v0 (ix2 a l) := by
  unfold k2_pay3 k2_pay1
  refine (matmul_rows _ _ r l).trans ?_
  refine Finset.sum_congr rfl fun a _ => ?_
  rw [truncf_apply, truncf_apply, shapeCast_self, shapeCast_1ab_ab_apply]

theorem pay4_at (v3 : Vec Ideal S128x128 .f32) (v15 : Vec Ideal S1x512x128 .f32) (r : Fin 512) (l : Fin 128) :
    k2_pay4 v3 v15 (ix2 r l) = ∑ a : Fin 128, v15 (ix3 0 r a) * v3 (ix2 a l) := by
  unfold k2_pay4 k2_pay2
  refine (matmul_rows _ _ r l).trans ?_
  refine Finset.sum_congr rfl fun a _ => ?_
  rw [truncf_apply, truncf_apply, shapeCast_self, shapeCast_1ab_ab_apply]

/-- What the body stores into channel 1 of its rows: `Wr - Wi`. -/
theorem pay6_at (v0 v3 : Vec Ideal S128x128 .f32) (v12 v15 : Vec Ideal S1x512x128 .f32) (u : Fin 1) (r : Fin 512) (l : Fin 128) :
    k2_pay6 v0 v3 v12 v15 (ix3 u r l)
      = (∑ a : Fin 128, v12 (ix3 0 r a) * v0 (ix2 a l)) - (∑ a : Fin 128, v15 (ix3 0 r a) * v3 (ix2 a l)) := by
  unfold k2_pay6
  refine (shapeCast_ab_1ab_apply _ _ u r l).trans ?_
  rw [subf_apply, pay3_at, pay4_at]

/-- What the body stores into channel 0 of its rows: `S - Wr - Wi`. -/
theorem pay5_at (v0 v3 v6 : Vec Ideal S128x128 .f32) (v12 v15 : Vec Ideal S1x512x128 .f32) (u : Fin 1) (r : Fin 512) (l : Fin 128) :
    k2_pay5 v0 v3 v6 v12 v15 (ix3 u r l)
      = (∑ a : Fin 128, (v12 (ix3 0 r a) + v15 (ix3 0 r a)) * v6 (ix2 a l))
        - (∑ a : Fin 128, v12 (ix3 0 r a) * v0 (ix2 a l)) - (∑ a : Fin 128, v15 (ix3 0 r a) * v3 (ix2 a l)) := by
  unfold k2_pay5
  refine (shapeCast_ab_1ab_apply _ _ u r l).trans ?_
  rw [subf_apply, subf_apply, pay3_at, pay4_at]
  congr 2
  refine (matmul_rows _ _ r l).trans ?_
  refine Finset.sum_congr rfl fun a _ => ?_
  unfold k2_pay1 k2_pay2
  rw [truncf_apply, truncf_apply, addf_apply, shapeCast_self, shapeCast_1ab_ab_apply, shapeCast_1ab_ab_apply]

/-! ## What one point leaves in the output block

The body reads the two channels of its input block through the row rectangles at channel 0 and channel 1 and the
matrices whole; it stores `S - Wr - Wi` through the channel-0 rectangle and `Wr - Wi` through the channel-1 rectangle of
the output block. So the block the body leaves is one function of the block's index: the gate on the block's 512 rows. -/

/-- The gate on one block of 512 rows, at channel `c`, row `r`, lane `l`. -/
def gateBlockAt (urT uiT usT : S128x128.Idx → EReal) (b : S2x512x128.Idx → EReal) (c : Fin 2) (r : Fin 512) (l : Fin 128) : EReal :=
  if c.val = 0 then
    (∑ a : Fin 128, (b (ix3 0 r a) + b (ix3 1 r a)) * usT (ix2 a l))
      - (∑ a : Fin 128, b (ix3 0 r a) * urT (ix2 a l)) - (∑ a : Fin 128, b (ix3 1 r a) * uiT (ix2 a l))
  else
    (∑ a : Fin 128, b (ix3 0 r a) * urT (ix2 a l)) - (∑ a : Fin 128, b (ix3 1 r a) * uiT (ix2 a l))

/-- The same as a function of the block's index. -/
def gateBlock (urT uiT usT : S128x128.Idx → EReal) (b : S2x512x128.Idx → EReal) : S2x512x128.Idx → EReal :=
  fun y => gateBlockAt urT uiT usT b (y 0) (y 1) (y 2)

theorem hz2 : (![0, 0] : Fin 2 → Nat) = fun _ => 0 := funext fun a => by fin_cases a <;> rfl

/-- The row rectangles start at channel 0 and channel 1, row 0, lane 0. -/
theorem off_ch0 : k2_off1 0 = 0 ∧ k2_off1 1 = 0 ∧ k2_off1 2 = 0 := by decide +kernel
theorem off_ch1 : k2_off2 0 = 1 ∧ k2_off2 1 = 0 ∧ k2_off2 2 = 0 := by decide +kernel

/-- The channel-0 rectangle places `(u, r, l)` at `(0, r, l)` of the block, -/
theorem emb_ch0 (u : Fin 1) (r : Fin 512) (l : Fin 128) : r2_1.emb (ix3 u r l) = (ix3 0 r l : S2x512x128.Idx) := by
  obtain ⟨e0, e1, e2⟩ := off_ch0
  funext a; apply Fin.ext
  match a with
  | ⟨0, _⟩ => show k2_off1 0 + 1 * u.val = 0; omega
  | ⟨1, _⟩ => show k2_off1 1 + 1 * r.val = r.val; omega
  | ⟨2, _⟩ => show k2_off1 2 + 1 * l.val = l.val; omega

/-- and the channel-1 rectangle at `(1, r, l)`. -/
theorem emb_ch1 (u : Fin 1) (r : Fin 512) (l : Fin 128) : r2_2.emb (ix3 u r l) = (ix3 1 r l : S2x512x128.Idx) := by
  obtain ⟨e0, e1, e2⟩ := off_ch1
  funext a; apply Fin.ext
  match a with
  | ⟨0, _⟩ => show k2_off2 0 + 1 * u.val = 1; omega
  | ⟨1, _⟩ => show k2_off2 1 + 1 * r.val = r.val; omega
  | ⟨2, _⟩ => show k2_off2 2 + 1 * l.val = l.val; omega

/-- A load through the channel-0 rectangle reads channel 0 of the block, -/
theorem ld_ch0 (X : Vec Ideal S2x512x128 .f32) :
    View.ld (Val := Elt Ideal) X r2_1 = fun x : S1x512x128.Idx => X (ix3 0 (x 1) (x 2)) := by
  funext x
  obtain ⟨u, r, l, rfl⟩ : ∃ (u : Fin 1) (r : Fin 512) (l : Fin 128), x = ix3 u r l := ⟨x 0, x 1, x 2, eq_ix3 x⟩
  exact congrArg X (emb_ch0 u r l)

/-- and through the channel-1 rectangle channel 1. -/
theorem ld_ch1 (X : Vec Ideal S2x512x128 .f32) :
    View.ld (Val := Elt Ideal) X r2_2 = fun x : S1x512x128.Idx => X (ix3 1 (x 1) (x 2)) := by
  funext x
  obtain ⟨u, r, l, rfl⟩ : ∃ (u : Fin 1) (r : Fin 512) (l : Fin 128), x = ix3 u r l := ⟨x 0, x 1, x 2, eq_ix3 x⟩
  exact congrArg X (emb_ch1 u r l)

/-- The block the body leaves in the output window's buffer is the gate on the input block's 512 rows. -/
theorem out_block (x0 x1 x2 : Vec Ideal S128x128 .f32) (x3 : Vec Ideal S2x512x128 .f32) :
    out2_4 x0 x1 x2 x3 = gateBlock x0 x1 x2 x3 := by
  funext y
  unfold out2_4
  refine View.canon_apply_of_pieces (Val := Elt Ideal) (e := .f32) (gateBlock x0 x1 x2 x3) _ ?_ y (cover2_4 _ _ y)
  intro p hp x
  simp only [View.ld_unit_zero (S := S128x128) hz2] at hp
  rcases List.mem_cons.mp hp with rfl | hp
  · obtain ⟨u, r, l, rfl⟩ : ∃ (u : Fin 1) (r : Fin 512) (l : Fin 128), x = ix3 u r l := ⟨x 0, x 1, x 2, eq_ix3 x⟩
    rw [emb_ch1]
    refine (pay6_at _ _ _ _ u r l).trans ?_
    rw [ld_ch0, ld_ch1]
    rfl
  · obtain rfl := List.mem_singleton.mp hp
    obtain ⟨u, r, l, rfl⟩ : ∃ (u : Fin 1) (r : Fin 512) (l : Fin 128), x = ix3 u r l := ⟨x 0, x 1, x 2, eq_ix3 x⟩
    rw [emb_ch0]
    refine (pay5_at _ _ _ _ _ u r l).trans ?_
    rw [ld_ch0, ld_ch1]
    rfl

/-! ## The blocks a point reads, as rows of the arrays

The three matrix windows hold their arrays whole at every point; the state window at point `t` holds rows
`512 t … 512 t + 511` of both channels, and the output window writes back the same rows. -/

/-- The block indices over the grid: zero on every axis of the matrix windows; on the state and output windows zero on
    the channel and lane axes and the point's number on the row axis. -/
theorem block_indices : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = 0 ∧ win2_3.index t (1 : Fin 3) = t.val ∧ win2_3.index t (2 : Fin 3) = 0
    ∧ win2_4.index t (0 : Fin 3) = 0 ∧ win2_4.index t (1 : Fin 3) = t.val ∧ win2_4.index t (2 : Fin 3) = 0 :=
  (by decide +kernel : ∀ t : Fin grid2.N, _)

/-- Row `r` of point `t`'s block is row `512 t + r` of the array. -/
def rowAt (t : Fin cfg2.N) (r : Fin 512) : Fin 65536 :=
  ⟨512 * t.val + r.val, by have h : t.val < 128 := t.isLt.trans_eq N_2; omega⟩

theorem block_urT (c : Dev nD) (t : Fin cfg2.N) (p q : Fin 128) :
    (iblk2 V c 0 t : Vec Ideal S128x128 .f32) (ix2 p q) = (V c main_v34 : S128x128.Idx → EReal) (ix2 p q) := by
  obtain ⟨e0, e1, -⟩ := block_indices t
  unfold iblk2
  rw [View.read_apply]
  show V c main_v34 _ = V c main_v34 _
  congr 1
  funext a; apply Fin.ext
  match a with
  | ⟨0, _⟩ => show win2_0.index t (0 : Fin 2) * 128 + 1 * p.val = p.val; omega
  | ⟨1, _⟩ => show win2_0.index t (1 : Fin 2) * 128 + 1 * q.val = q.val; omega

theorem block_uiT (c : Dev nD) (t : Fin cfg2.N) (p q : Fin 128) :
    (iblk2 V c 1 t : Vec Ideal S128x128 .f32) (ix2 p q) = (V c main_v35 : S128x128.Idx → EReal) (ix2 p q) := by
  obtain ⟨-, -, e0, e1, -⟩ := block_indices t
  unfold iblk2
  rw [View.read_apply]
  show V c main_v35 _ = V c main_v35 _
  congr 1
  funext a; apply Fin.ext
  match a with
  | ⟨0, _⟩ => show win2_1.index t (0 : Fin 2) * 128 + 1 * p.val = p.val; omega
  | ⟨1, _⟩ => show win2_1.index t (1 : Fin 2) * 128 + 1 * q.val = q.val; omega

theorem block_usT (c : Dev nD) (t : Fin cfg2.N) (p q : Fin 128) :
    (iblk2 V c 2 t : Vec Ideal S128x128 .f32) (ix2 p q) = (V c main_v36 : S128x128.Idx → EReal) (ix2 p q) := by
  obtain ⟨-, -, -, -, e0, e1, -⟩ := block_indices t
  unfold iblk2
  rw [View.read_apply]
  show V c main_v36 _ = V c main_v36 _
  congr 1
  funext a; apply Fin.ext
  match a with
  | ⟨0, _⟩ => show win2_2.index t (0 : Fin 2) * 128 + 1 * p.val = p.val; omega
  | ⟨1, _⟩ => show win2_2.index t (1 : Fin 2) * 128 + 1 * q.val = q.val; omega

theorem block_state (c : Dev nD) (t : Fin cfg2.N) (ch : Fin 2) (r : Fin 512) (a : Fin 128) :
    (iblk2 V c 3 t : Vec Ideal S2x512x128 .f32) (ix3 ch r a)
      = (V c main_v32 : S2x65536x128.Idx → EReal) (ix3 ch (rowAt t r) a) := by
  obtain ⟨-, -, -, -, -, -, e0, e1, e2, -⟩ := block_indices t
  unfold iblk2
  rw [View.read_apply]
  show V c main_v32 _ = V c main_v32 _
  congr 1
  funext b; apply Fin.ext
  match b with
  | ⟨0, _⟩ => show win2_3.index t (0 : Fin 3) * 2 + 1 * ch.val = ch.val; omega
  | ⟨1, _⟩ => show win2_3.index t (1 : Fin 3) * 512 + 1 * r.val = 512 * t.val + r.val; omega
  | ⟨2, _⟩ => show win2_3.index t (2 : Fin 3) * 128 + 1 * a.val = a.val; omega

/-- The output window's block at point `t` sits at the same rows. -/
theorem out_emb (t : Fin cfg2.N) (ch : Fin 2) (r : Fin 512) (l : Fin 128) :
    ((cfg2.win 4).blk t).view.emb (ix3 ch r l) = (ix3 ch (rowAt t r) l : S2x65536x128.Idx) := by
  obtain ⟨-, -, -, -, -, -, -, -, -, e0, e1, e2⟩ := block_indices t
  funext b; apply Fin.ext
  match b with
  | ⟨0, _⟩ => show win2_4.index t (0 : Fin 3) * 2 + 1 * ch.val = ch.val; omega
  | ⟨1, _⟩ => show win2_4.index t (1 : Fin 3) * 512 + 1 * r.val = 512 * t.val + r.val; omega
  | ⟨2, _⟩ => show win2_4.index t (2 : Fin 3) * 128 + 1 * l.val = l.val; omega

/-! ## What a point writes back, and the array after the last point -/

/-- On a block that holds rows `512 t …` of the state, the block's gate is the specification's gate at those rows. -/
theorem gateBlockAt_rows (urT uiT usT urT' uiT' usT' : S128x128.Idx → EReal) (b : S2x512x128.Idx → EReal)
    (s : S2x65536x128.Idx → EReal) (t : Fin cfg2.N)
    (hr : ∀ p q, urT (ix2 p q) = urT' (ix2 p q)) (hi : ∀ p q, uiT (ix2 p q) = uiT' (ix2 p q))
    (hs : ∀ p q, usT (ix2 p q) = usT' (ix2 p q))
    (hb : ∀ ch r a, b (ix3 ch r a) = s (ix3 ch (rowAt t r) a)) (ch : Fin 2) (r : Fin 512) (l : Fin 128) :
    gateBlockAt urT uiT usT b ch r l = Cert.Spec.gateTAt urT' uiT' usT' s ch (rowAt t r) l := by
  unfold gateBlockAt Cert.Spec.gateTAt
  simp only [hr, hi, hs, hb]

/-- What point `t` writes back is its block of the specification's gate of the arrays as the region finds them. -/
theorem flushed_eq (c : Dev nD) (t : Fin cfg2.N) :
    (dat2 (F := Ideal) V c).flushed 4 t
      = ((cfg2.win 4).blk t).view.read (Elt Ideal)
          (Cert.Spec.gateT (V c main_v34) (V c main_v35) (V c main_v36) (V c main_v32)) := by
  show (cfg2.win 4).cut (grid2.coords t) ((dat2 V c).after 4 t) = _
  rw [after2_4, out_block]
  funext y
  obtain ⟨ch, r, l, rfl⟩ : ∃ (ch : Fin 2) (r : Fin 512) (l : Fin 128), y = ix3 ch r l := ⟨y 0, y 1, y 2, eq_ix3 y⟩
  rw [View.read_apply, out_emb]
  show gateBlockAt _ _ _ _ ch r l = Cert.Spec.gateTAt _ _ _ _ ch (rowAt t r) l
  exact gateBlockAt_rows _ _ _ _ _ _ _ _ t (block_urT V c t) (block_uiT V c t) (block_usT V c t)
    (block_state V c t) ch r l

/-- An index of the array is in point `t`'s block iff each coordinate is in the block's range on its axis. -/
theorem mem_out_block (t : Fin cfg2.N) (i : S2x65536x128.Idx) :
    i ∈ ((cfg2.win 4).blk t).view.set
      ↔ ∀ a : Fin 3, win2_4.index t a * S2x512x128.size a ≤ (i a).val
          ∧ (i a).val < win2_4.index t a * S2x512x128.size a + S2x512x128.size a := by
  show i ∈ ((View.whole main_v37).slice (win2_4.rect t)).set ↔ _
  rw [View.set_slice_whole, Rect.mem_set_unit]
  exact Iff.rfl

/-- Every row of the array is in some point's block: row `ρ` in that of point `ρ / 512`. -/
theorem rows_covered (i : S2x65536x128.Idx) :
    ∃ t : Fin cfg2.N, (cfg2.win 4).flush t = true ∧ i ∈ ((cfg2.win 4).blk t).view.set := by
  have h0 : (i 0).val < 2 := (i 0).isLt
  have h1 : (i 1).val < 65536 := (i 1).isLt
  have h2 : (i 2).val < 128 := (i 2).isLt
  have hN : cfg2.N = 128 := N_2
  let t : Fin cfg2.N := ⟨(i 1).val / 512, by rw [hN]; omega⟩
  obtain ⟨-, -, -, -, -, -, -, -, -, e0, e1, e2⟩ := block_indices t
  have ht : t.val = (i 1).val / 512 := rfl
  refine ⟨t, flush2_4 t, ?_⟩
  rw [mem_out_block]
  intro a
  match a with
  | ⟨0, _⟩ => show win2_4.index t (0 : Fin 3) * 2 ≤ (i 0).val ∧ (i 0).val < win2_4.index t (0 : Fin 3) * 2 + 2; omega
  | ⟨1, _⟩ => show win2_4.index t (1 : Fin 3) * 512 ≤ (i 1).val ∧ (i 1).val < win2_4.index t (1 : Fin 3) * 512 + 512; omega
  | ⟨2, _⟩ => show win2_4.index t (2 : Fin 3) * 128 ≤ (i 2).val ∧ (i 2).val < win2_4.index t (2 : Fin 3) * 128 + 128; omega

end Region2

/-- After its last point, region 2's output array is the gate of the specification applied to the arrays the region
    found: the three transposed matrices and the re-laid state. -/
theorem region2_value (c : Dev nD) :
    (dat2 (F := Ideal) V c).arrAt 4 cfg2.N
      = Cert.Spec.gateT (V c main_v34) (V c main_v35) (V c main_v36) (V c main_v32) :=
  (dat2 (F := Ideal) V c).arrAt_eq_of_cover 4 _ (fun t _ => Region2.flushed_eq V c t) Region2.rows_covered

end Cert.KernelIdeal.KValue

end
-- ==== Proof.KRegion3.lean ====
/-
  What the fourth gate's pipelined matrix product leaves in its output array.  The grid has 128 points; point `t` reads
  rows `512 t … 512 t + 511` of both channels of the re-laid state and the three 128 x 128 matrices whole, forms the
  three products over the lane axis, and writes `S - Wr - Wi` into channel 0 and `Wr - Wi` into channel 1 of the same
  rows.  The row blocks tile the array, so after the last point the whole array is the gate of the specification,
  entry by entry.
-/
import proofs.«410610_j67473936220746_4_alg».proof.Proof.Gen.KernelIdeal.Frame
import proofs.«410610_j67473936220746_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

namespace Region3

/-! ## The matrix product's operand indices, axis by axis

The product contracts the lane axis of the 512 x 128 block with the row axis of the 128 x 128 matrix: at output entry
`(r, l)` and contraction position `a` the left operand is read at `(r, a)` and the right one at `(a, l)`. -/

theorem lhs_axis0 (j : S512x128.Idx) (k : dot_S512x128_S128x128_S512x128_1_0_0_1_n_n.contr.Idx) :
    (dot_S512x128_S128x128_S512x128_1_0_0_1_n_n.lhsIdx j k 0).val = (j 0).val := by
  simp [DotDims.lhsIdx, dot_S512x128_S128x128_S512x128_1_0_0_1_n_n]
  rfl

theorem lhs_axis1 (j : S512x128.Idx) (k : dot_S512x128_S128x128_S512x128_1_0_0_1_n_n.contr.Idx) :
    (dot_S512x128_S128x128_S512x128_1_0_0_1_n_n.lhsIdx j k 1).val = (k ⟨0, by decide⟩).val :=
  DotDims.lhsIdx_val_of_single _ rfl j k

theorem rhs_axis0 (j : S512x128.Idx) (k : dot_S512x128_S128x128_S512x128_1_0_0_1_n_n.contr.Idx) :
    (dot_S512x128_S128x128_S512x128_1_0_0_1_n_n.rhsIdx j k 0).val = (k ⟨0, by decide⟩).val :=
  DotDims.rhsIdx_val_of_single _ rfl j k

theorem rhs_axis1 (j : S512x128.Idx) (k : dot_S512x128_S128x128_S512x128_1_0_0_1_n_n.contr.Idx) :
    (dot_S512x128_S128x128_S512x128_1_0_0_1_n_n.rhsIdx j k 1).val = (j 1).val := by
  simp [DotDims.rhsIdx, dot_S512x128_S128x128_S512x128_1_0_0_1_n_n]
  rfl

/-- A 512 x 128 block times a 128 x 128 matrix into the zero accumulator, entry by entry: the sum over the lane axis. -/
theorem matmul_rows {φ₁ φ₂ : FTy} (lhs : FVec Ideal S512x128 φ₁) (rhs : FVec Ideal S128x128 φ₂) (r : Fin 512) (l : Fin 128) :
    matmul dot_S512x128_S128x128_S512x128_1_0_0_1_n_n none lhs rhs (constant (F := Ideal) S512x128 .f32 0x00000000#32) (ix2 r l)
      = ∑ a : Fin 128, lhs (ix2 r a) * rhs (ix2 a l) := by
  refine (Ideal.matmul_constant_zero_apply dot_S512x128_S128x128_S512x128_1_0_0_1_n_n none lhs rhs (ix2 r l)).trans ?_
  rw [← Equiv.sum_comp (contrEquiv1 dot_S512x128_S128x128_S512x128_1_0_0_1_n_n 128 rfl rfl).symm]
  refine Finset.sum_congr rfl fun a _ => ?_
  have hk := contrEquiv1_symm_val dot_S512x128_S128x128_S512x128_1_0_0_1_n_n 128 rfl rfl a
  congr 1
  · refine congrArg lhs (funext fun b => Fin.ext ?_)
    match b with
    | ⟨0, _⟩ => exact lhs_axis0 _ _
    | ⟨1, _⟩ => exact (lhs_axis1 _ _).trans hk
  · refine congrArg rhs (funext fun b => Fin.ext ?_)
    match b with
    | ⟨0, _⟩ => exact (rhs_axis0 _ _).trans hk
    | ⟨1, _⟩ => exact rhs_axis1 _ _

/-! ## The body's arithmetic at an entry

With `v12`, `v15` the two channels' 512 rows (each held as a `[1, 512, 128]` block) and `v0`, `v3`, `v6` the three
matrices, the body forms `Wr = v12 * v0`, `Wi = v15 * v3`, `S = (v12 + v15) * v6` and stores `S - Wr - Wi` and `Wr - Wi`.
The narrowing to the product's operand format is the identity on extended reals. -/

theorem pay3_at (v0 : Vec Ideal S128x128 .f32) (v12 : Vec Ideal S1x512x128 .f32) (r : Fin 512) (l : Fin 128) :
    k3_pay3 v0 v12 (ix2 r l) = ∑ a : Fin 128, v12 (ix3 0 r a) * v0 (ix2 a l) := by
  unfold k3_pay3 k3_pay1
  refine (matmul_rows _ _ r l).trans ?_
  refine Finset.sum_congr rfl fun a _ => ?_
  rw [truncf_apply, truncf_apply, shapeCast_self, shapeCast_1ab_ab_apply]

theorem pay4_at (v3 : Vec Ideal S128x128 .f32) (v15 : Vec Ideal S1x512x128 .f32) (r : Fin 512) (l : Fin 128) :
    k3_pay4 v3 v15 (ix2 r l) = ∑ a : Fin 128, v15 (ix3 0 r a) * v3 (ix2 a l) := by
  unfold k3_pay4 k3_pay2
  refine (matmul_rows _ _ r l).trans ?_
  refine Finset.sum_congr rfl fun a _ => ?_
  rw [truncf_apply, truncf_apply, shapeCast_self, shapeCast_1ab_ab_apply]

/-- What the body stores into channel 1 of its rows: `Wr - Wi`. -/
theorem pay6_at (v0 v3 : Vec Ideal S128x128 .f32) (v12 v15 : Vec Ideal S1x512x128 .f32) (u : Fin 1) (r : Fin 512) (l : Fin 128) :
    k3_pay6 v0 v3 v12 v15 (ix3 u r l)
      = (∑ a : Fin 128, v12 (ix3 0 r a) * v0 (ix2 a l)) - (∑ a : Fin 128, v15 (ix3 0 r a) * v3 (ix2 a l)) := by
  unfold k3_pay6
  refine (shapeCast_ab_1ab_apply _ _ u r l).trans ?_
  rw [subf_apply, pay3_at, pay4_at]

/-- What the body stores into channel 0 of its rows: `S - Wr - Wi`. -/
theorem pay5_at (v0 v3 v6 : Vec Ideal S128x128 .f32) (v12 v15 : Vec Ideal S1x512x128 .f32) (u : Fin 1) (r : Fin 512) (l : Fin 128) :
    k3_pay5 v0 v3 v6 v12 v15 (ix3 u r l)
      = (∑ a : Fin 128, (v12 (ix3 0 r a) + v15 (ix3 0 r a)) * v6 (ix2 a l))
        - (∑ a : Fin 128, v12 (ix3 0 r a) * v0 (ix2 a l)) - (∑ a : Fin 128, v15 (ix3 0 r a) * v3 (ix2 a l)) := by
  unfold k3_pay5
  refine (shapeCast_ab_1ab_apply _ _ u r l).trans ?_
  rw [subf_apply, subf_apply, pay3_at, pay4_at]
  congr 2
  refine (matmul_rows _ _ r l).trans ?_
  refine Finset.sum_congr rfl fun a _ => ?_
  unfold k3_pay1 k3_pay2
  rw [truncf_apply, truncf_apply, addf_apply, shapeCast_self, shapeCast_1ab_ab_apply, shapeCast_1ab_ab_apply]

/-! ## What one point leaves in the output block

The body reads the two channels of its input block through the row rectangles at channel 0 and channel 1 and the
matrices whole; it stores `S - Wr - Wi` through the channel-0 rectangle and `Wr - Wi` through the channel-1 rectangle of
the output block. So the block the body leaves is one function of the block's index: the gate on the block's 512 rows. -/

/-- The gate on one block of 512 rows, at channel `c`, row `r`, lane `l`. -/
def gateBlockAt (urT uiT usT : S128x128.Idx → EReal) (b : S2x512x128.Idx → EReal) (c : Fin 2) (r : Fin 512) (l : Fin 128) : EReal :=
  if c.val = 0 then
    (∑ a : Fin 128, (b (ix3 0 r a) + b (ix3 1 r a)) * usT (ix2 a l))
      - (∑ a : Fin 128, b (ix3 0 r a) * urT (ix2 a l)) - (∑ a : Fin 128, b (ix3 1 r a) * uiT (ix2 a l))
  else
    (∑ a : Fin 128, b (ix3 0 r a) * urT (ix2 a l)) - (∑ a : Fin 128, b (ix3 1 r a) * uiT (ix2 a l))

/-- The same as a function of the block's index. -/
def gateBlock (urT uiT usT : S128x128.Idx → EReal) (b : S2x512x128.Idx → EReal) : S2x512x128.Idx → EReal :=
  fun y => gateBlockAt urT uiT usT b (y 0) (y 1) (y 2)

theorem hz2 : (![0, 0] : Fin 2 → Nat) = fun _ => 0 := funext fun a => by fin_cases a <;> rfl

/-- The row rectangles start at channel 0 and channel 1, row 0, lane 0. -/
theorem off_ch0 : k3_off1 0 = 0 ∧ k3_off1 1 = 0 ∧ k3_off1 2 = 0 := by decide +kernel
theorem off_ch1 : k3_off2 0 = 1 ∧ k3_off2 1 = 0 ∧ k3_off2 2 = 0 := by decide +kernel

/-- The channel-0 rectangle places `(u, r, l)` at `(0, r, l)` of the block, -/
theorem emb_ch0 (u : Fin 1) (r : Fin 512) (l : Fin 128) : r3_1.emb (ix3 u r l) = (ix3 0 r l : S2x512x128.Idx) := by
  obtain ⟨e0, e1, e2⟩ := off_ch0
  funext a; apply Fin.ext
  match a with
  | ⟨0, _⟩ => show k3_off1 0 + 1 * u.val = 0; omega
  | ⟨1, _⟩ => show k3_off1 1 + 1 * r.val = r.val; omega
  | ⟨2, _⟩ => show k3_off1 2 + 1 * l.val = l.val; omega

/-- and the channel-1 rectangle at `(1, r, l)`. -/
theorem emb_ch1 (u : Fin 1) (r : Fin 512) (l : Fin 128) : r3_2.emb (ix3 u r l) = (ix3 1 r l : S2x512x128.Idx) := by
  obtain ⟨e0, e1, e2⟩ := off_ch1
  funext a; apply Fin.ext
  match a with
  | ⟨0, _⟩ => show k3_off2 0 + 1 * u.val = 1; omega
  | ⟨1, _⟩ => show k3_off2 1 + 1 * r.val = r.val; omega
  | ⟨2, _⟩ => show k3_off2 2 + 1 * l.val = l.val; omega

/-- A load through the channel-0 rectangle reads channel 0 of the block, -/
theorem ld_ch0 (X : Vec Ideal S2x512x128 .f32) :
    View.ld (Val := Elt Ideal) X r3_1 = fun x : S1x512x128.Idx => X (ix3 0 (x 1) (x 2)) := by
  funext x
  obtain ⟨u, r, l, rfl⟩ : ∃ (u : Fin 1) (r : Fin 512) (l : Fin 128), x = ix3 u r l := ⟨x 0, x 1, x 2, eq_ix3 x⟩
  exact congrArg X (emb_ch0 u r l)

/-- and through the channel-1 rectangle channel 1. -/
theorem ld_ch1 (X : Vec Ideal S2x512x128 .f32) :
    View.ld (Val := Elt Ideal) X r3_2 = fun x : S1x512x128.Idx => X (ix3 1 (x 1) (x 2)) := by
  funext x
  obtain ⟨u, r, l, rfl⟩ : ∃ (u : Fin 1) (r : Fin 512) (l : Fin 128), x = ix3 u r l := ⟨x 0, x 1, x 2, eq_ix3 x⟩
  exact congrArg X (emb_ch1 u r l)

/-- The block the body leaves in the output window's buffer is the gate on the input block's 512 rows. -/
theorem out_block (x0 x1 x2 : Vec Ideal S128x128 .f32) (x3 : Vec Ideal S2x512x128 .f32) :
    out3_4 x0 x1 x2 x3 = gateBlock x0 x1 x2 x3 := by
  funext y
  unfold out3_4
  refine View.canon_apply_of_pieces (Val := Elt Ideal) (e := .f32) (gateBlock x0 x1 x2 x3) _ ?_ y (cover3_4 _ _ y)
  intro p hp x
  simp only [View.ld_unit_zero (S := S128x128) hz2] at hp
  rcases List.mem_cons.mp hp with rfl | hp
  · obtain ⟨u, r, l, rfl⟩ : ∃ (u : Fin 1) (r : Fin 512) (l : Fin 128), x = ix3 u r l := ⟨x 0, x 1, x 2, eq_ix3 x⟩
    rw [emb_ch1]
    refine (pay6_at _ _ _ _ u r l).trans ?_
    rw [ld_ch0, ld_ch1]
    rfl
  · obtain rfl := List.mem_singleton.mp hp
    obtain ⟨u, r, l, rfl⟩ : ∃ (u : Fin 1) (r : Fin 512) (l : Fin 128), x = ix3 u r l := ⟨x 0, x 1, x 2, eq_ix3 x⟩
    rw [emb_ch0]
    refine (pay5_at _ _ _ _ _ u r l).trans ?_
    rw [ld_ch0, ld_ch1]
    rfl

/-! ## The blocks a point reads, as rows of the arrays

The three matrix windows hold their arrays whole at every point; the state window at point `t` holds rows
`512 t … 512 t + 511` of both channels, and the output window writes back the same rows. -/

/-- The block indices over the grid: zero on every axis of the matrix windows; on the state and output windows zero on
    the channel and lane axes and the point's number on the row axis. -/
theorem block_indices : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 3) = 0 ∧ win3_3.index t (1 : Fin 3) = t.val ∧ win3_3.index t (2 : Fin 3) = 0
    ∧ win3_4.index t (0 : Fin 3) = 0 ∧ win3_4.index t (1 : Fin 3) = t.val ∧ win3_4.index t (2 : Fin 3) = 0 :=
  (by decide +kernel : ∀ t : Fin grid3.N, _)

/-- Row `r` of point `t`'s block is row `512 t + r` of the array. -/
def rowAt (t : Fin cfg3.N) (r : Fin 512) : Fin 65536 :=
  ⟨512 * t.val + r.val, by have h : t.val < 128 := t.isLt.trans_eq N_3; omega⟩

theorem block_urT (c : Dev nD) (t : Fin cfg3.N) (p q : Fin 128) :
    (iblk3 V c 0 t : Vec Ideal S128x128 .f32) (ix2 p q) = (V c main_v49 : S128x128.Idx → EReal) (ix2 p q) := by
  obtain ⟨e0, e1, -⟩ := block_indices t
  unfold iblk3
  rw [View.read_apply]
  show V c main_v49 _ = V c main_v49 _
  congr 1
  funext a; apply Fin.ext
  match a with
  | ⟨0, _⟩ => show win3_0.index t (0 : Fin 2) * 128 + 1 * p.val = p.val; omega
  | ⟨1, _⟩ => show win3_0.index t (1 : Fin 2) * 128 + 1 * q.val = q.val; omega

theorem block_uiT (c : Dev nD) (t : Fin cfg3.N) (p q : Fin 128) :
    (iblk3 V c 1 t : Vec Ideal S128x128 .f32) (ix2 p q) = (V c main_v50 : S128x128.Idx → EReal) (ix2 p q) := by
  obtain ⟨-, -, e0, e1, -⟩ := block_indices t
  unfold iblk3
  rw [View.read_apply]
  show V c main_v50 _ = V c main_v50 _
  congr 1
  funext a; apply Fin.ext
  match a with
  | ⟨0, _⟩ => show win3_1.index t (0 : Fin 2) * 128 + 1 * p.val = p.val; omega
  | ⟨1, _⟩ => show win3_1.index t (1 : Fin 2) * 128 + 1 * q.val = q.val; omega

theorem block_usT (c : Dev nD) (t : Fin cfg3.N) (p q : Fin 128) :
    (iblk3 V c 2 t : Vec Ideal S128x128 .f32) (ix2 p q) = (V c main_v51 : S128x128.Idx → EReal) (ix2 p q) := by
  obtain ⟨-, -, -, -, e0, e1, -⟩ := block_indices t
  unfold iblk3
  rw [View.read_apply]
  show V c main_v51 _ = V c main_v51 _
  congr 1
  funext a; apply Fin.ext
  match a with
  | ⟨0, _⟩ => show win3_2.index t (0 : Fin 2) * 128 + 1 * p.val = p.val; omega
  | ⟨1, _⟩ => show win3_2.index t (1 : Fin 2) * 128 + 1 * q.val = q.val; omega

theorem block_state (c : Dev nD) (t : Fin cfg3.N) (ch : Fin 2) (r : Fin 512) (a : Fin 128) :
    (iblk3 V c 3 t : Vec Ideal S2x512x128 .f32) (ix3 ch r a)
      = (V c main_v47 : S2x65536x128.Idx → EReal) (ix3 ch (rowAt t r) a) := by
  obtain ⟨-, -, -, -, -, -, e0, e1, e2, -⟩ := block_indices t
  unfold iblk3
  rw [View.read_apply]
  show V c main_v47 _ = V c main_v47 _
  congr 1
  funext b; apply Fin.ext
  match b with
  | ⟨0, _⟩ => show win3_3.index t (0 : Fin 3) * 2 + 1 * ch.val = ch.val; omega
  | ⟨1, _⟩ => show win3_3.index t (1 : Fin 3) * 512 + 1 * r.val = 512 * t.val + r.val; omega
  | ⟨2, _⟩ => show win3_3.index t (2 : Fin 3) * 128 + 1 * a.val = a.val; omega

/-- The output window's block at point `t` sits at the same rows. -/
theorem out_emb (t : Fin cfg3.N) (ch : Fin 2) (r : Fin 512) (l : Fin 128) :
    ((cfg3.win 4).blk t).view.emb (ix3 ch r l) = (ix3 ch (rowAt t r) l : S2x65536x128.Idx) := by
  obtain ⟨-, -, -, -, -, -, -, -, -, e0, e1, e2⟩ := block_indices t
  funext b; apply Fin.ext
  match b with
  | ⟨0, _⟩ => show win3_4.index t (0 : Fin 3) * 2 + 1 * ch.val = ch.val; omega
  | ⟨1, _⟩ => show win3_4.index t (1 : Fin 3) * 512 + 1 * r.val = 512 * t.val + r.val; omega
  | ⟨2, _⟩ => show win3_4.index t (2 : Fin 3) * 128 + 1 * l.val = l.val; omega

/-! ## What a point writes back, and the array after the last point -/

/-- On a block that holds rows `512 t …` of the state, the block's gate is the specification's gate at those rows. -/
theorem gateBlockAt_rows (urT uiT usT urT' uiT' usT' : S128x128.Idx → EReal) (b : S2x512x128.Idx → EReal)
    (s : S2x65536x128.Idx → EReal) (t : Fin cfg3.N)
    (hr : ∀ p q, urT (ix2 p q) = urT' (ix2 p q)) (hi : ∀ p q, uiT (ix2 p q) = uiT' (ix2 p q))
    (hs : ∀ p q, usT (ix2 p q) = usT' (ix2 p q))
    (hb : ∀ ch r a, b (ix3 ch r a) = s (ix3 ch (rowAt t r) a)) (ch : Fin 2) (r : Fin 512) (l : Fin 128) :
    gateBlockAt urT uiT usT b ch r l = Cert.Spec.gateTAt urT' uiT' usT' s ch (rowAt t r) l := by
  unfold gateBlockAt Cert.Spec.gateTAt
  simp only [hr, hi, hs, hb]

/-- What point `t` writes back is its block of the specification's gate of the arrays as the region finds them. -/
theorem flushed_eq (c : Dev nD) (t : Fin cfg3.N) :
    (dat3 (F := Ideal) V c).flushed 4 t
      = ((cfg3.win 4).blk t).view.read (Elt Ideal)
          (Cert.Spec.gateT (V c main_v49) (V c main_v50) (V c main_v51) (V c main_v47)) := by
  show (cfg3.win 4).cut (grid3.coords t) ((dat3 V c).after 4 t) = _
  rw [after3_4, out_block]
  funext y
  obtain ⟨ch, r, l, rfl⟩ : ∃ (ch : Fin 2) (r : Fin 512) (l : Fin 128), y = ix3 ch r l := ⟨y 0, y 1, y 2, eq_ix3 y⟩
  rw [View.read_apply, out_emb]
  show gateBlockAt _ _ _ _ ch r l = Cert.Spec.gateTAt _ _ _ _ ch (rowAt t r) l
  exact gateBlockAt_rows _ _ _ _ _ _ _ _ t (block_urT V c t) (block_uiT V c t) (block_usT V c t)
    (block_state V c t) ch r l

/-- An index of the array is in point `t`'s block iff each coordinate is in the block's range on its axis. -/
theorem mem_out_block (t : Fin cfg3.N) (i : S2x65536x128.Idx) :
    i ∈ ((cfg3.win 4).blk t).view.set
      ↔ ∀ a : Fin 3, win3_4.index t a * S2x512x128.size a ≤ (i a).val
          ∧ (i a).val < win3_4.index t a * S2x512x128.size a + S2x512x128.size a := by
  show i ∈ ((View.whole main_v52).slice (win3_4.rect t)).set ↔ _
  rw [View.set_slice_whole, Rect.mem_set_unit]
  exact Iff.rfl

/-- Every row of the array is in some point's block: row `ρ` in that of point `ρ / 512`. -/
theorem rows_covered (i : S2x65536x128.Idx) :
    ∃ t : Fin cfg3.N, (cfg3.win 4).flush t = true ∧ i ∈ ((cfg3.win 4).blk t).view.set := by
  have h0 : (i 0).val < 2 := (i 0).isLt
  have h1 : (i 1).val < 65536 := (i 1).isLt
  have h2 : (i 2).val < 128 := (i 2).isLt
  have hN : cfg3.N = 128 := N_3
  let t : Fin cfg3.N := ⟨(i 1).val / 512, by rw [hN]; omega⟩
  obtain ⟨-, -, -, -, -, -, -, -, -, e0, e1, e2⟩ := block_indices t
  have ht : t.val = (i 1).val / 512 := rfl
  refine ⟨t, flush3_4 t, ?_⟩
  rw [mem_out_block]
  intro a
  match a with
  | ⟨0, _⟩ => show win3_4.index t (0 : Fin 3) * 2 ≤ (i 0).val ∧ (i 0).val < win3_4.index t (0 : Fin 3) * 2 + 2; omega
  | ⟨1, _⟩ => show win3_4.index t (1 : Fin 3) * 512 ≤ (i 1).val ∧ (i 1).val < win3_4.index t (1 : Fin 3) * 512 + 512; omega
  | ⟨2, _⟩ => show win3_4.index t (2 : Fin 3) * 128 ≤ (i 2).val ∧ (i 2).val < win3_4.index t (2 : Fin 3) * 128 + 128; omega

end Region3

/-- After its last point, region 3's output array is the gate of the specification applied to the arrays the region
    found: the three transposed matrices and the re-laid state. -/
theorem region3_value (c : Dev nD) :
    (dat3 (F := Ideal) V c).arrAt 4 cfg3.N
      = Cert.Spec.gateT (V c main_v49) (V c main_v50) (V c main_v51) (V c main_v47) :=
  (dat3 (F := Ideal) V c).arrAt_eq_of_cover 4 _ (fun t _ => Region3.flushed_eq V c t) Region3.rows_covered

end Cert.KernelIdeal.KValue

end
-- ==== Proof.KernelValue.lean ====
/-
  The kernel program read as four steps.  Each step re-lays the state so that the gate's seven qubits are the lane
  axis (a reshape to a shape that keeps runs of binary digits of a position together, a transpose, a reshape to
  [2, 65536, 128]), hands the re-laid state and the three transposed matrices to the pipelined matrix product, and
  re-lays its output back.  The buffer contents at the boundaries of the run, followed from the launch to the return,
  give the result buffer as the four steps composed.
-/
import proofs.«410610_j67473936220746_4_alg».proof.Proof.Gen.KernelIdeal.Frame
import proofs.«410610_j67473936220746_4_alg».proof.Proof.Spec
import proofs.«410610_j67473936220746_4_alg».proof.Proof.KRegion0
import proofs.«410610_j67473936220746_4_alg».proof.Proof.KRegion1
import proofs.«410610_j67473936220746_4_alg».proof.Proof.KRegion2
import proofs.«410610_j67473936220746_4_alg».proof.Proof.KRegion3
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.StableHlo Idealize.SL.Sem

/-! ## The program's four steps as functions of the two argument arrays -/

/-- Matrix `ri` (0 the real part, 1 the imaginary part) of gate `g`, cut out of the stack of gate matrices. -/
def umat00 (a1 : FVec Ideal S4x2x128x128 .f32) : FVec Ideal S128x128 .f32 :=
  shapeCast S128x128 (extractStridedSlice S1x1x128x128 ![0, 0, 0, 0] a1 slices_S4x2x128x128_S1x1x128x128_0_0_0_0) shapeCasts_S1x1x128x128_S128x128
def umat01 (a1 : FVec Ideal S4x2x128x128 .f32) : FVec Ideal S128x128 .f32 :=
  shapeCast S128x128 (extractStridedSlice S1x1x128x128 ![0, 1, 0, 0] a1 slices_S4x2x128x128_S1x1x128x128_0_1_0_0) shapeCasts_S1x1x128x128_S128x128
def umat10 (a1 : FVec Ideal S4x2x128x128 .f32) : FVec Ideal S128x128 .f32 :=
  shapeCast S128x128 (extractStridedSlice S1x1x128x128 ![1, 0, 0, 0] a1 slices_S4x2x128x128_S1x1x128x128_1_0_0_0) shapeCasts_S1x1x128x128_S128x128
def umat11 (a1 : FVec Ideal S4x2x128x128 .f32) : FVec Ideal S128x128 .f32 :=
  shapeCast S128x128 (extractStridedSlice S1x1x128x128 ![1, 1, 0, 0] a1 slices_S4x2x128x128_S1x1x128x128_1_1_0_0) shapeCasts_S1x1x128x128_S128x128
def umat20 (a1 : FVec Ideal S4x2x128x128 .f32) : FVec Ideal S128x128 .f32 :=
  shapeCast S128x128 (extractStridedSlice S1x1x128x128 ![2, 0, 0, 0] a1 slices_S4x2x128x128_S1x1x128x128_2_0_0_0) shapeCasts_S1x1x128x128_S128x128
def umat21 (a1 : FVec Ideal S4x2x128x128 .f32) : FVec Ideal S128x128 .f32 :=
  shapeCast S128x128 (extractStridedSlice S1x1x128x128 ![2, 1, 0, 0] a1 slices_S4x2x128x128_S1x1x128x128_2_1_0_0) shapeCasts_S1x1x128x128_S128x128
def umat30 (a1 : FVec Ideal S4x2x128x128 .f32) : FVec Ideal S128x128 .f32 :=
  shapeCast S128x128 (extractStridedSlice S1x1x128x128 ![3, 0, 0, 0] a1 slices_S4x2x128x128_S1x1x128x128_3_0_0_0) shapeCasts_S1x1x128x128_S128x128
def umat31 (a1 : FVec Ideal S4x2x128x128 .f32) : FVec Ideal S128x128 .f32 :=
  shapeCast S128x128 (extractStridedSlice S1x1x128x128 ![3, 1, 0, 0] a1 slices_S4x2x128x128_S1x1x128x128_3_1_0_0) shapeCasts_S1x1x128x128_S128x128

/-- A 128 x 128 matrix transposed. -/
def tr (X : FVec Ideal S128x128 .f32) : FVec Ideal S128x128 .f32 :=
  transpose S128x128 [1, 0] X transposes_S128x128_S128x128_1_0

/-- One gate on the re-laid state, as the kernel is handed it: the matrices transposed, their sum formed first. -/
def kgate (Ur Ui : FVec Ideal S128x128 .f32) (s : FVec Ideal S2x65536x128 .f32) : FVec Ideal S2x65536x128 .f32 :=
  Cert.Spec.gateT (tr Ur) (tr Ui) (tr (addf Ur Ui)) s

/-- Gate 0 (qubits 0 … 6 are already the lane axis): re-lay by a reshape, apply, reshape back. -/
def step0 (x : FVec Ideal S2x8388608 .f32) (a1 : FVec Ideal S4x2x128x128 .f32) : FVec Ideal S2x8388608 .f32 :=
  shapeCast S2x8388608 (kgate (umat00 a1) (umat01 a1) (shapeCast S2x65536x128 x shapeCasts_S2x8388608_S2x65536x128))
    shapeCasts_S2x65536x128_S2x8388608

/-- The state re-laid for gate 1. -/
def relayIn1 (x : FVec Ideal S2x8388608 .f32) : FVec Ideal S2x65536x128 .f32 :=
  shapeCast S2x65536x128 (transpose S2x128x128x512 [0, 2, 1, 3] (shapeCast S2x128x128x512 x shapeCasts_S2x8388608_S2x128x128x512)
    transposes_S2x128x128x512_S2x128x128x512_0_2_1_3) shapeCasts_S2x128x128x512_S2x65536x128
/-- … and back. -/
def relayOut1 (y : FVec Ideal S2x65536x128 .f32) : FVec Ideal S2x8388608 .f32 :=
  shapeCast S2x8388608 (transpose S2x128x128x512 [0, 2, 1, 3] (shapeCast S2x128x128x512 y shapeCasts_S2x65536x128_S2x128x128x512)
    transposes_S2x128x128x512_S2x128x128x512_0_2_1_3) shapeCasts_S2x128x128x512_S2x8388608
def step1 (x : FVec Ideal S2x8388608 .f32) (a1 : FVec Ideal S4x2x128x128 .f32) : FVec Ideal S2x8388608 .f32 :=
  relayOut1 (kgate (umat10 a1) (umat11 a1) (relayIn1 x))

/-- The state re-laid for gate 2. -/
def relayIn2 (x : FVec Ideal S2x8388608 .f32) : FVec Ideal S2x65536x128 .f32 :=
  shapeCast S2x65536x128 (transpose S2x2x2x2x2x2x2x2x8x2x2x2x2x2x2x128 [0, 2, 4, 6, 8, 10, 12, 14, 1, 3, 5, 7, 9, 11, 13, 15]
    (shapeCast S2x8x2x2x2x2x2x2x2x2x2x2x2x2x2x128 x shapeCasts_S2x8388608_S2x8x2x2x2x2x2x2x2x2x2x2x2x2x2x128)
    transposes_S2x8x2x2x2x2x2x2x2x2x2x2x2x2x2x128_S2x2x2x2x2x2x2x2x8x2x2x2x2x2x2x128_0_2_4_6_8_10_12_14_1_3_5_7_9_11_13_15) shapeCasts_S2x2x2x2x2x2x2x2x8x2x2x2x2x2x2x128_S2x65536x128
def relayOut2 (y : FVec Ideal S2x65536x128 .f32) : FVec Ideal S2x8388608 .f32 :=
  shapeCast S2x8388608 (transpose S2x8x2x2x2x2x2x2x2x2x2x2x2x2x2x128 [0, 8, 1, 9, 2, 10, 3, 11, 4, 12, 5, 13, 6, 14, 7, 15]
    (shapeCast S2x2x2x2x2x2x2x2x8x2x2x2x2x2x2x128 y shapeCasts_S2x65536x128_S2x2x2x2x2x2x2x2x8x2x2x2x2x2x2x128)
    transposes_S2x2x2x2x2x2x2x2x8x2x2x2x2x2x2x128_S2x8x2x2x2x2x2x2x2x2x2x2x2x2x2x128_0_8_1_9_2_10_3_11_4_12_5_13_6_14_7_15) shapeCasts_S2x8x2x2x2x2x2x2x2x2x2x2x2x2x2x128_S2x8388608
def step2 (x : FVec Ideal S2x8388608 .f32) (a1 : FVec Ideal S4x2x128x128 .f32) : FVec Ideal S2x8388608 .f32 :=
  relayOut2 (kgate (umat20 a1) (umat21 a1) (relayIn2 x))

/-- The state re-laid for gate 3. -/
def relayIn3 (x : FVec Ideal S2x8388608 .f32) : FVec Ideal S2x65536x128 .f32 :=
  shapeCast S2x65536x128 (transpose S2x128x65536 [0, 2, 1] (shapeCast S2x65536x128 x shapeCasts_S2x8388608_S2x65536x128)
    transposes_S2x65536x128_S2x128x65536_0_2_1) shapeCasts_S2x128x65536_S2x65536x128
def relayOut3 (y : FVec Ideal S2x65536x128 .f32) : FVec Ideal S2x8388608 .f32 :=
  shapeCast S2x8388608 (transpose S2x65536x128 [0, 2, 1] (shapeCast S2x128x65536 y shapeCasts_S2x65536x128_S2x128x65536)
    transposes_S2x128x65536_S2x65536x128_0_2_1) shapeCasts_S2x65536x128_S2x8388608
def step3 (x : FVec Ideal S2x8388608 .f32) (a1 : FVec Ideal S4x2x128x128 .f32) : FVec Ideal S2x8388608 .f32 :=
  relayOut3 (kgate (umat30 a1) (umat31 a1) (relayIn3 x))

/-! ## The fold of the run read at the result buffer -/

variable (m : (ℓ : Loc nD τ sig) → Buf (Elt Ideal) ℓ) (ρ : Dev nD → PrngReg)

/-- The stack of gate matrices is never written: every boundary of the run holds it as launched. -/
theorem W0_arg1 (c : Dev nD) : W0 m ρ c (Proc.devRef .tc main_arg1) = m ((c : Thread nD τ).loc main_arg1) := rfl
theorem W2_arg1 (c : Dev nD) : W2 m ρ c (Proc.devRef .tc main_arg1) = m ((c : Thread nD τ).loc main_arg1) := by
  rw [W2_of_ne m ρ c main_arg1 (by decide)]
  show after hostOps0 (W0 m ρ c) (Proc.devRef .tc main_arg1) = _
  after_results <;> rfl
theorem W4_arg1 (c : Dev nD) : W4 m ρ c (Proc.devRef .tc main_arg1) = m ((c : Thread nD τ).loc main_arg1) := by
  rw [W4_of_ne m ρ c main_arg1 (by decide)]
  show after hostOps1 (W2 m ρ c) (Proc.devRef .tc main_arg1) = _
  after_results <;> exact W2_arg1 m ρ c
theorem W6_arg1 (c : Dev nD) : W6 m ρ c (Proc.devRef .tc main_arg1) = m ((c : Thread nD τ).loc main_arg1) := by
  rw [W6_of_ne m ρ c main_arg1 (by decide)]
  show after hostOps2 (W4 m ρ c) (Proc.devRef .tc main_arg1) = _
  after_results <;> exact W4_arg1 m ρ c

/-- After region 0: the state after gate 0, still re-laid. -/
theorem W2_v9 (c : Dev nD) : W2 m ρ c (Proc.devRef .tc main_v9)
    = kgate (umat00 (m ((c : Thread nD τ).loc main_arg1))) (umat01 (m ((c : Thread nD τ).loc main_arg1)))
        (shapeCast S2x65536x128 (m ((c : Thread nD τ).loc main_arg0)) shapeCasts_S2x8388608_S2x65536x128) := by
  refine (W2_arr m ρ c 4).trans ?_
  rw [region0_value (V1 m ρ) c]
  have e6 : V1 m ρ c main_v6 = tr (umat00 (m ((c : Thread nD τ).loc main_arg1))) := by
    show after hostOps0 (W0 m ρ c) (Proc.devRef .tc main_v6) = _
    after_results <;> rfl
  have e7 : V1 m ρ c main_v7 = tr (umat01 (m ((c : Thread nD τ).loc main_arg1))) := by
    show after hostOps0 (W0 m ρ c) (Proc.devRef .tc main_v7) = _
    after_results <;> rfl
  have e8 : V1 m ρ c main_v8 = tr (addf (umat00 (m ((c : Thread nD τ).loc main_arg1))) (umat01 (m ((c : Thread nD τ).loc main_arg1)))) := by
    show after hostOps0 (W0 m ρ c) (Proc.devRef .tc main_v8) = _
    after_results <;> rfl
  have e4 : V1 m ρ c main_v4 = shapeCast S2x65536x128 (m ((c : Thread nD τ).loc main_arg0)) shapeCasts_S2x8388608_S2x65536x128 := by
    show after hostOps0 (W0 m ρ c) (Proc.devRef .tc main_v4) = _
    after_results <;> rfl
  rw [e6, e7, e8, e4]
  rfl

/-- After region 1. -/
theorem W4_v22 (c : Dev nD) : W4 m ρ c (Proc.devRef .tc main_v22)
    = kgate (umat10 (m ((c : Thread nD τ).loc main_arg1))) (umat11 (m ((c : Thread nD τ).loc main_arg1)))
        (relayIn1 (shapeCast S2x8388608 (W2 m ρ c (Proc.devRef .tc main_v9)) shapeCasts_S2x65536x128_S2x8388608)) := by
  refine (W4_arr m ρ c 4).trans ?_
  rw [region1_value (V3 m ρ) c]
  have e19 : V3 m ρ c main_v19 = tr (umat10 (m ((c : Thread nD τ).loc main_arg1))) := by
    show after hostOps1 (W2 m ρ c) (Proc.devRef .tc main_v19) = _
    after_results <;> (rw [W2_arg1]; rfl)
  have e20 : V3 m ρ c main_v20 = tr (umat11 (m ((c : Thread nD τ).loc main_arg1))) := by
    show after hostOps1 (W2 m ρ c) (Proc.devRef .tc main_v20) = _
    after_results <;> (rw [W2_arg1]; rfl)
  have e21 : V3 m ρ c main_v21 = tr (addf (umat10 (m ((c : Thread nD τ).loc main_arg1))) (umat11 (m ((c : Thread nD τ).loc main_arg1)))) := by
    show after hostOps1 (W2 m ρ c) (Proc.devRef .tc main_v21) = _
    after_results <;> (rw [W2_arg1]; rfl)
  have e17 : V3 m ρ c main_v17 = relayIn1 (shapeCast S2x8388608 (W2 m ρ c (Proc.devRef .tc main_v9)) shapeCasts_S2x65536x128_S2x8388608) := by
    show after hostOps1 (W2 m ρ c) (Proc.devRef .tc main_v17) = _
    after_results <;> rfl
  rw [e19, e20, e21, e17]
  rfl

/-- After region 2. -/
theorem W6_v37 (c : Dev nD) : W6 m ρ c (Proc.devRef .tc main_v37)
    = kgate (umat20 (m ((c : Thread nD τ).loc main_arg1))) (umat21 (m ((c : Thread nD τ).loc main_arg1)))
        (relayIn2 (relayOut1 (W4 m ρ c (Proc.devRef .tc main_v22)))) := by
  refine (W6_arr m ρ c 4).trans ?_
  rw [region2_value (V5 m ρ) c]
  have e34 : V5 m ρ c main_v34 = tr (umat20 (m ((c : Thread nD τ).loc main_arg1))) := by
    show after hostOps2 (W4 m ρ c) (Proc.devRef .tc main_v34) = _
    after_results <;> (rw [W4_arg1]; rfl)
  have e35 : V5 m ρ c main_v35 = tr (umat21 (m ((c : Thread nD τ).loc main_arg1))) := by
    show after hostOps2 (W4 m ρ c) (Proc.devRef .tc main_v35) = _
    after_results <;> (rw [W4_arg1]; rfl)
  have e36 : V5 m ρ c main_v36 = tr (addf (umat20 (m ((c : Thread nD τ).loc main_arg1))) (umat21 (m ((c : Thread nD τ).loc main_arg1)))) := by
    show after hostOps2 (W4 m ρ c) (Proc.devRef .tc main_v36) = _
    after_results <;> (rw [W4_arg1]; rfl)
  have e32 : V5 m ρ c main_v32 = relayIn2 (relayOut1 (W4 m ρ c (Proc.devRef .tc main_v22))) := by
    show after hostOps2 (W4 m ρ c) (Proc.devRef .tc main_v32) = _
    after_results <;> rfl
  rw [e34, e35, e36, e32]
  rfl

/-- After region 3. -/
theorem W8_v52 (c : Dev nD) : W8 m ρ c (Proc.devRef .tc main_v52)
    = kgate (umat30 (m ((c : Thread nD τ).loc main_arg1))) (umat31 (m ((c : Thread nD τ).loc main_arg1)))
        (relayIn3 (relayOut2 (W6 m ρ c (Proc.devRef .tc main_v37)))) := by
  refine (W8_arr m ρ c 4).trans ?_
  rw [region3_value (V7 m ρ) c]
  have e49 : V7 m ρ c main_v49 = tr (umat30 (m ((c : Thread nD τ).loc main_arg1))) := by
    show after hostOps3 (W6 m ρ c) (Proc.devRef .tc main_v49) = _
    after_results <;> (rw [W6_arg1]; rfl)
  have e50 : V7 m ρ c main_v50 = tr (umat31 (m ((c : Thread nD τ).loc main_arg1))) := by
    show after hostOps3 (W6 m ρ c) (Proc.devRef .tc main_v50) = _
    after_results <;> (rw [W6_arg1]; rfl)
  have e51 : V7 m ρ c main_v51 = tr (addf (umat30 (m ((c : Thread nD τ).loc main_arg1))) (umat31 (m ((c : Thread nD τ).loc main_arg1)))) := by
    show after hostOps3 (W6 m ρ c) (Proc.devRef .tc main_v51) = _
    after_results <;> (rw [W6_arg1]; rfl)
  have e47 : V7 m ρ c main_v47 = relayIn3 (relayOut2 (W6 m ρ c (Proc.devRef .tc main_v37))) := by
    show after hostOps3 (W6 m ρ c) (Proc.devRef .tc main_v47) = _
    after_results <;> rfl
  rw [e49, e50, e51, e47]
  rfl

/-- The result buffer at the return: the four steps in a row, from the two arguments as launched. -/
theorem W9_v55 (c : Dev nD) : W9 m ρ c (Proc.devRef .tc main_v55)
    = step3 (step2 (step1 (step0 (m ((c : Thread nD τ).loc main_arg0)) (m ((c : Thread nD τ).loc main_arg1)))
        (m ((c : Thread nD τ).loc main_arg1))) (m ((c : Thread nD τ).loc main_arg1))) (m ((c : Thread nD τ).loc main_arg1)) := by
  have e : W9 m ρ c (Proc.devRef .tc main_v55) = relayOut3 (W8 m ρ c (Proc.devRef .tc main_v52)) := by
    show after hostOps4 (W8 m ρ c) (Proc.devRef .tc main_v55) = _
    after_results <;> rfl
  rw [e, W8_v52, W6_v37, W4_v22, W2_v9]
  rfl

end Cert.KernelIdeal.KValue

end
-- ==== Proof.RefGate.lean ====
/-
  One gate of the reference, on the re-laid state `[2, 65536, 128]`: the two channels are sliced off, three
  contractions over the lane axis against `Ur`, `Ui` and `Ur + Ui` give `Wr`, `Wi` and `S`, and the result stacks
  `S - Wr - Wi` over `Wr - Wi`.  Entry by entry this is the gate of the specification.
-/
import proofs.«410610_j67473936220746_4_alg».proof.ReferenceIdeal
import proofs.«410610_j67473936220746_4_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Idealize.ShloMosaic Idealize.ShloMosaic.ValueIdx
open Cert.ReferenceIdeal.Facts₀

variable [Facts]

/-- Channel `0` of the re-laid state, as a matrix `[65536, 128]`. -/
def chan0 (s : FVec Ideal S2x65536x128 .f32) : FVec Ideal S65536x128 .f32 :=
  shapeCast _ (extractStridedSlice S1x65536x128 ![0, 0, 0] s slices_S2x65536x128_S1x65536x128_0_0_0) shapeCasts_S1x65536x128_S65536x128

/-- Channel `1` of the re-laid state. -/
def chan1 (s : FVec Ideal S2x65536x128 .f32) : FVec Ideal S65536x128 .f32 :=
  shapeCast _ (extractStridedSlice S1x65536x128 ![1, 0, 0] s slices_S2x65536x128_S1x65536x128_1_0_0) shapeCasts_S1x65536x128_S65536x128

/-- The contraction of a `[65536, 128]` matrix with a `[128, 128]` matrix over both lane axes. -/
def contr (x : FVec Ideal S65536x128 .f32) (u : FVec Ideal S128x128 .f32) : FVec Ideal S65536x128 .f32 :=
  Host.dotGeneral (F := Ideal) dot_S65536x128_S128x128_S65536x128_1_1_0_0_n_n none x u

/-- One gate of the reference, as its printed operations. -/
def refGate (Ur Ui : FVec Ideal S128x128 .f32) (s : FVec Ideal S2x65536x128 .f32) : FVec Ideal S2x65536x128 .f32 :=
  concatenate S2x65536x128 0
    [⟨S1x65536x128, (broadcastInDim S1x65536x128 ![1, 2] bcast_S65536x128_S1x65536x128_1_2
        (subf (subf (contr (addf (chan0 s) (chan1 s)) (addf Ur Ui)) (contr (chan0 s) Ur)) (contr (chan1 s) Ui)))⟩,
     ⟨S1x65536x128, (broadcastInDim S1x65536x128 ![1, 2] bcast_S65536x128_S1x65536x128_1_2
        (subf (contr (chan0 s) Ur) (contr (chan1 s) Ui)))⟩]
    concatenates_S1x65536x128_S1x65536x128_S2x65536x128_d0

/-! ## The two channels at a row and a lane -/

/-- Channel `0` at row `r`, lane `a` is the state at `(0, r, a)`: the slice starts at the origin and the dropped axis has
    the one coordinate `0`. -/
theorem chan0_apply (s : FVec Ideal S2x65536x128 .f32) (r : Fin 65536) (a : Fin 128) :
    chan0 s (ix2 r a) = s (ix3 0 r a) := by
  unfold chan0
  rw [shapeCast_1ab_ab_apply]
  exact extractStridedSlice_apply _ s _ _ _ fun b => match b with
    | ⟨0, _⟩ => rfl
    | ⟨1, _⟩ => (Nat.zero_add _).symm
    | ⟨2, _⟩ => (Nat.zero_add _).symm

/-- Channel `1` at row `r`, lane `a` is the state at `(1, r, a)`: the slice starts one step along the channel axis. -/
theorem chan1_apply (s : FVec Ideal S2x65536x128 .f32) (r : Fin 65536) (a : Fin 128) :
    chan1 s (ix2 r a) = s (ix3 1 r a) := by
  unfold chan1
  rw [shapeCast_1ab_ab_apply]
  exact extractStridedSlice_apply _ s _ _ _ fun b => match b with
    | ⟨0, _⟩ => rfl
    | ⟨1, _⟩ => (Nat.zero_add _).symm
    | ⟨2, _⟩ => (Nat.zero_add _).symm

/-! ## The contraction at a row and a lane

The dimension numbers contract axis `1` of both operands and keep axis `0` of each, the left one first. So at result
index `(r, l)` and contracted coordinate `a` the left operand is read at `(r, a)` and the right one at `(l, a)`: the four
coordinate facts below, one per operand axis. -/

/-- Left operand, axis `0` (kept): the result's row. -/
theorem lhs_axis0 (j : S65536x128.Idx) (k : dot_S65536x128_S128x128_S65536x128_1_1_0_0_n_n.contr.Idx) :
    (dot_S65536x128_S128x128_S65536x128_1_1_0_0_n_n.lhsIdx j k 0).val = (j 0).val := by
  unfold DotDims.lhsIdx
  rw [dif_neg (show ¬(0 : Fin S65536x128.rank) ∈ dot_S65536x128_S128x128_S65536x128_1_1_0_0_n_n.lhsBatch from List.not_mem_nil),
    dif_pos (show (0 : Fin S65536x128.rank) ∈ dot_S65536x128_S128x128_S65536x128_1_1_0_0_n_n.lhsNonContracting from List.mem_singleton.mpr rfl)]
  rfl

/-- Left operand, axis `1` (contracted): the contracted coordinate. -/
theorem lhs_axis1 (j : S65536x128.Idx) (k : dot_S65536x128_S128x128_S65536x128_1_1_0_0_n_n.contr.Idx)
    (h : 0 < dot_S65536x128_S128x128_S65536x128_1_1_0_0_n_n.contr.rank) :
    (dot_S65536x128_S128x128_S65536x128_1_1_0_0_n_n.lhsIdx j k 1).val = (k ⟨0, h⟩).val :=
  dot_S65536x128_S128x128_S65536x128_1_1_0_0_n_n.lhsIdx_val_of_single rfl j k

/-- Right operand, axis `0` (kept): the result's lane. -/
theorem rhs_axis0 (j : S65536x128.Idx) (k : dot_S65536x128_S128x128_S65536x128_1_1_0_0_n_n.contr.Idx) :
    (dot_S65536x128_S128x128_S65536x128_1_1_0_0_n_n.rhsIdx j k 0).val = (j 1).val := by
  unfold DotDims.rhsIdx
  rw [dif_neg (show ¬(0 : Fin S128x128.rank) ∈ dot_S65536x128_S128x128_S65536x128_1_1_0_0_n_n.rhsBatch from List.not_mem_nil),
    dif_pos (show (0 : Fin S128x128.rank) ∈ dot_S65536x128_S128x128_S65536x128_1_1_0_0_n_n.rhsNonContracting from List.mem_singleton.mpr rfl)]
  rfl

/-- Right operand, axis `1` (contracted): the contracted coordinate. -/
theorem rhs_axis1 (j : S65536x128.Idx) (k : dot_S65536x128_S128x128_S65536x128_1_1_0_0_n_n.contr.Idx)
    (h : 0 < dot_S65536x128_S128x128_S65536x128_1_1_0_0_n_n.contr.rank) :
    (dot_S65536x128_S128x128_S65536x128_1_1_0_0_n_n.rhsIdx j k 1).val = (k ⟨0, h⟩).val :=
  dot_S65536x128_S128x128_S65536x128_1_1_0_0_n_n.rhsIdx_val_of_single rfl j k

/-- The contraction at row `r`, lane `l`: the sum over the lane `a` of `x[r, a] * u[l, a]`. The sum over the record's
    contracted index set is carried to `Fin 128` along the bijection that reads its one coordinate. -/
theorem contr_apply (x : FVec Ideal S65536x128 .f32) (u : FVec Ideal S128x128 .f32) (r : Fin 65536) (l : Fin 128) :
    contr x u (ix2 r l) = ∑ a : Fin 128, x (ix2 r a) * u (ix2 l a) := by
  unfold contr
  show FloatOps.dotGeneral _ none _ x u (ix2 r l) = _
  rw [Ideal.dotGeneral_apply, ← Equiv.sum_comp (contrEquiv1 dot_S65536x128_S128x128_S65536x128_1_1_0_0_n_n 128 rfl rfl).symm]
  refine Finset.sum_congr rfl fun a _ => ?_
  have hk := contrEquiv1_symm_val dot_S65536x128_S128x128_S65536x128_1_1_0_0_n_n 128 rfl rfl a
  have hl : dot_S65536x128_S128x128_S65536x128_1_1_0_0_n_n.lhsIdx (ix2 r l) ((contrEquiv1 dot_S65536x128_S128x128_S65536x128_1_1_0_0_n_n 128 rfl rfl).symm a) = ix2 r a := by
    funext b
    apply Fin.ext
    match b with
    | ⟨0, _⟩ => exact lhs_axis0 _ _
    | ⟨1, _⟩ => exact (lhs_axis1 _ _ _).trans hk
  have hr : dot_S65536x128_S128x128_S65536x128_1_1_0_0_n_n.rhsIdx (ix2 r l) ((contrEquiv1 dot_S65536x128_S128x128_S65536x128_1_1_0_0_n_n 128 rfl rfl).symm a) = ix2 l a := by
    funext b
    apply Fin.ext
    match b with
    | ⟨0, _⟩ => exact rhs_axis0 _ _
    | ⟨1, _⟩ => exact (rhs_axis1 _ _ _).trans hk
  rw [hl, hr]

/-! ## The broadcast and the stack -/

/-- A matrix broadcast to a one-channel block reads through at its row and lane. -/
theorem bcast_apply {α : Type} (x : S65536x128.Idx → α) (c : Fin 1) (r : Fin 65536) (l : Fin 128) :
    broadcastInDim S1x65536x128 ![1, 2] bcast_S65536x128_S1x65536x128_1_2 x (ix3 c r l) = x (ix2 r l) :=
  broadcastInDim_apply _ _ x _ _ fun a => match a with
    | ⟨0, _⟩ => (if_neg (show ¬(65536 : ℕ) = 1 by decide)).symm
    | ⟨1, _⟩ => (if_neg (show ¬(128 : ℕ) = 1 by decide)).symm

/-- Two one-channel blocks stacked along the channel axis: channel `0` of the stack is the first block … -/
theorem stack_apply_zero {α : Type} (A B : S1x65536x128.Idx → α) (r : Fin 65536) (l : Fin 128) :
    concatenate S2x65536x128 0 [⟨S1x65536x128, A⟩, ⟨S1x65536x128, B⟩]
      concatenates_S1x65536x128_S1x65536x128_S2x65536x128_d0 (ix3 0 r l) = A (ix3 0 r l) :=
  concatenate_pair_apply_left (t := S2x65536x128) 0 A B concatenates_S1x65536x128_S1x65536x128_S2x65536x128_d0
    (ix3 0 r l) rfl (ix3 0 r l) fun b => match b with
    | ⟨0, _⟩ => rfl
    | ⟨1, _⟩ => rfl
    | ⟨2, _⟩ => rfl

/-- … and channel `1` is the second. -/
theorem stack_apply_one {α : Type} (A B : S1x65536x128.Idx → α) (r : Fin 65536) (l : Fin 128) :
    concatenate S2x65536x128 0 [⟨S1x65536x128, A⟩, ⟨S1x65536x128, B⟩]
      concatenates_S1x65536x128_S1x65536x128_S2x65536x128_d0 (ix3 1 r l) = B (ix3 0 r l) :=
  concatenate_pair_apply_right (t := S2x65536x128) 0 A B concatenates_S1x65536x128_S1x65536x128_S2x65536x128_d0
    (ix3 1 r l) rfl rfl (ix3 0 r l)
    (fun b => match b with
      | ⟨0, _⟩ => fun h => absurd rfl h
      | ⟨1, _⟩ => fun _ => rfl
      | ⟨2, _⟩ => fun _ => rfl)
    rfl

/-! ## The gate, channel by channel -/

/-- Channel `0` of the reference's gate: `S - Wr - Wi`. -/
theorem refGate_zero (Ur Ui : FVec Ideal S128x128 .f32) (s : FVec Ideal S2x65536x128 .f32) (r : Fin 65536) (l : Fin 128) :
    refGate Ur Ui s (ix3 0 r l)
      = (∑ a : Fin 128, (s (ix3 0 r a) + s (ix3 1 r a)) * (Ur (ix2 l a) + Ui (ix2 l a)))
        - (∑ a : Fin 128, s (ix3 0 r a) * Ur (ix2 l a)) - (∑ a : Fin 128, s (ix3 1 r a) * Ui (ix2 l a)) := by
  unfold refGate
  rw [stack_apply_zero, bcast_apply, subf_apply, subf_apply, contr_apply, contr_apply, contr_apply]
  simp only [addf_apply, chan0_apply, chan1_apply]

/-- Channel `1` of the reference's gate: `Wr - Wi`. -/
theorem refGate_one (Ur Ui : FVec Ideal S128x128 .f32) (s : FVec Ideal S2x65536x128 .f32) (r : Fin 65536) (l : Fin 128) :
    refGate Ur Ui s (ix3 1 r l)
      = (∑ a : Fin 128, s (ix3 0 r a) * Ur (ix2 l a)) - (∑ a : Fin 128, s (ix3 1 r a) * Ui (ix2 l a)) := by
  unfold refGate
  rw [stack_apply_one, bcast_apply, subf_apply, contr_apply, contr_apply]
  simp only [chan0_apply, chan1_apply]

/-- The reference's gate is the specification's. -/
theorem refGate_eq (Ur Ui : FVec Ideal S128x128 .f32) (s : FVec Ideal S2x65536x128 .f32) :
    refGate Ur Ui s = Cert.Spec.gateFn Ur Ui s := by
  funext j
  obtain ⟨c, r, l, rfl⟩ : ∃ (c : Fin 2) (r : Fin 65536) (l : Fin 128), j = ix3 c r l := ⟨j 0, j 1, j 2, eq_ix3 j⟩
  rw [Cert.Spec.gateFn_ix3]
  match c with
  | ⟨0, _⟩ => exact (refGate_zero Ur Ui s r l).trans (if_pos rfl).symm
  | ⟨1, _⟩ => exact (refGate_one Ur Ui s r l).trans (if_neg Nat.one_ne_zero).symm

end Cert.ReferenceIdeal.RefValue

end
-- ==== Proof.RefValue.lean ====
/-
  The reference program read as four steps.  Each step re-lays the state so that the gate's seven qubits are the lane
  axis (a reshape to one axis per binary digit of a position, a transpose of those axes, a reshape to
  [2, 65536, 128]), applies the gate, and re-lays back.  These are the steps; the run itself is read in the next module.
-/
import proofs.«410610_j67473936220746_4_alg».proof.Proof.Gen.ReferenceIdeal
import Idealize.ShloMosaic.Lib.StableHlo.Run
import proofs.«410610_j67473936220746_4_alg».proof.Proof.RefGate

set_option maxRecDepth 16384

noncomputable section

namespace Cert.ReferenceIdeal.RefValue

open Cert.ReferenceIdeal Cert.ReferenceIdeal.Gen
open Idealize.ShloMosaic Idealize.ShloMosaic.TcCoe Idealize.ShloMosaic.StableHlo Idealize.SL.Sem

/-! ## The reference's four steps as functions of the two argument arrays -/

/-- Matrix `ri` (0 the real part, 1 the imaginary part) of gate `g`, cut out of the stack of gate matrices. -/
def rmat00 (a1 : FVec Ideal S4x2x128x128 .f32) : FVec Ideal S128x128 .f32 :=
  shapeCast S128x128 (extractStridedSlice S1x1x128x128 ![0, 0, 0, 0] a1 slices_S4x2x128x128_S1x1x128x128_0_0_0_0) shapeCasts_S1x1x128x128_S128x128
def rmat01 (a1 : FVec Ideal S4x2x128x128 .f32) : FVec Ideal S128x128 .f32 :=
  shapeCast S128x128 (extractStridedSlice S1x1x128x128 ![0, 1, 0, 0] a1 slices_S4x2x128x128_S1x1x128x128_0_1_0_0) shapeCasts_S1x1x128x128_S128x128
def rmat10 (a1 : FVec Ideal S4x2x128x128 .f32) : FVec Ideal S128x128 .f32 :=
  shapeCast S128x128 (extractStridedSlice S1x1x128x128 ![1, 0, 0, 0] a1 slices_S4x2x128x128_S1x1x128x128_1_0_0_0) shapeCasts_S1x1x128x128_S128x128
def rmat11 (a1 : FVec Ideal S4x2x128x128 .f32) : FVec Ideal S128x128 .f32 :=
  shapeCast S128x128 (extractStridedSlice S1x1x128x128 ![1, 1, 0, 0] a1 slices_S4x2x128x128_S1x1x128x128_1_1_0_0) shapeCasts_S1x1x128x128_S128x128
def rmat20 (a1 : FVec Ideal S4x2x128x128 .f32) : FVec Ideal S128x128 .f32 :=
  shapeCast S128x128 (extractStridedSlice S1x1x128x128 ![2, 0, 0, 0] a1 slices_S4x2x128x128_S1x1x128x128_2_0_0_0) shapeCasts_S1x1x128x128_S128x128
def rmat21 (a1 : FVec Ideal S4x2x128x128 .f32) : FVec Ideal S128x128 .f32 :=
  shapeCast S128x128 (extractStridedSlice S1x1x128x128 ![2, 1, 0, 0] a1 slices_S4x2x128x128_S1x1x128x128_2_1_0_0) shapeCasts_S1x1x128x128_S128x128
def rmat30 (a1 : FVec Ideal S4x2x128x128 .f32) : FVec Ideal S128x128 .f32 :=
  shapeCast S128x128 (extractStridedSlice S1x1x128x128 ![3, 0, 0, 0] a1 slices_S4x2x128x128_S1x1x128x128_3_0_0_0) shapeCasts_S1x1x128x128_S128x128
def rmat31 (a1 : FVec Ideal S4x2x128x128 .f32) : FVec Ideal S128x128 .f32 :=
  shapeCast S128x128 (extractStridedSlice S1x1x128x128 ![3, 1, 0, 0] a1 slices_S4x2x128x128_S1x1x128x128_3_1_0_0) shapeCasts_S1x1x128x128_S128x128

/-- Gate 0's qubits are already the lane axis: its re-laying is a reshape through the all-binary shape. -/
def rIn0 (x : FVec Ideal S2x8388608 .f32) : FVec Ideal S2x65536x128 .f32 :=
  shapeCast S2x65536x128 (shapeCast S2x2x2x2x2x2x2x2x2x2x2x2x2x2x2x2x2x2x2x2x2x2x2x2 x shapeCasts_S2x8388608_S2x2x2x2x2x2x2x2x2x2x2x2x2x2x2x2x2x2x2x2x2x2x2x2) shapeCasts_S2x2x2x2x2x2x2x2x2x2x2x2x2x2x2x2x2x2x2x2x2x2x2x2_S2x65536x128
def rOut0 (y : FVec Ideal S2x65536x128 .f32) : FVec Ideal S2x8388608 .f32 :=
  shapeCast S2x8388608 (shapeCast S2x2x2x2x2x2x2x2x2x2x2x2x2x2x2x2x2x2x2x2x2x2x2x2 y shapeCasts_S2x65536x128_S2x2x2x2x2x2x2x2x2x2x2x2x2x2x2x2x2x2x2x2x2x2x2x2) shapeCasts_S2x2x2x2x2x2x2x2x2x2x2x2x2x2x2x2x2x2x2x2x2x2x2x2_S2x8388608
/-- The state re-laid for gate 1, digit by digit, and back. -/
def rIn1 (x : FVec Ideal S2x8388608 .f32) : FVec Ideal S2x65536x128 .f32 :=
  shapeCast S2x65536x128 (transpose S2x2x2x2x2x2x2x2x2x2x2x2x2x2x2x2x2x2x2x2x2x2x2x2 [0, 8, 9, 10, 11, 12, 13, 14, 1, 2, 3, 4, 5, 6, 7, 15, 16, 17, 18, 19, 20, 21, 22, 23]
    (shapeCast S2x2x2x2x2x2x2x2x2x2x2x2x2x2x2x2x2x2x2x2x2x2x2x2 x shapeCasts_S2x8388608_S2x2x2x2x2x2x2x2x2x2x2x2x2x2x2x2x2x2x2x2x2x2x2x2) transposes_S2x2x2x2x2x2x2x2x2x2x2x2x2x2x2x2x2x2x2x2x2x2x2x2_S2x2x2x2x2x2x2x2x2x2x2x2x2x2x2x2x2x2x2x2x2x2x2x2_0_8_9_10_11_12_13_14_1_2_3_4_5_6_7_15_16_17_18_19_20_21_22_23)
    shapeCasts_S2x2x2x2x2x2x2x2x2x2x2x2x2x2x2x2x2x2x2x2x2x2x2x2_S2x65536x128
def rOut1 (y : FVec Ideal S2x65536x128 .f32) : FVec Ideal S2x8388608 .f32 :=
  shapeCast S2x8388608 (transpose S2x2x2x2x2x2x2x2x2x2x2x2x2x2x2x2x2x2x2x2x2x2x2x2 [0, 8, 9, 10, 11, 12, 13, 14, 1, 2, 3, 4, 5, 6, 7, 15, 16, 17, 18, 19, 20, 21, 22, 23]
    (shapeCast S2x2x2x2x2x2x2x2x2x2x2x2x2x2x2x2x2x2x2x2x2x2x2x2 y shapeCasts_S2x65536x128_S2x2x2x2x2x2x2x2x2x2x2x2x2x2x2x2x2x2x2x2x2x2x2x2) transposes_S2x2x2x2x2x2x2x2x2x2x2x2x2x2x2x2x2x2x2x2x2x2x2x2_S2x2x2x2x2x2x2x2x2x2x2x2x2x2x2x2x2x2x2x2x2x2x2x2_0_8_9_10_11_12_13_14_1_2_3_4_5_6_7_15_16_17_18_19_20_21_22_23)
    shapeCasts_S2x2x2x2x2x2x2x2x2x2x2x2x2x2x2x2x2x2x2x2x2x2x2x2_S2x8388608
/-- … for gate 2. -/
def rIn2 (x : FVec Ideal S2x8388608 .f32) : FVec Ideal S2x65536x128 .f32 :=
  shapeCast S2x65536x128 (transpose S2x2x2x2x2x2x2x2x2x2x2x2x2x2x2x2x2x2x2x2x2x2x2x2 [0, 4, 6, 8, 10, 12, 14, 16, 1, 2, 3, 5, 7, 9, 11, 13, 15, 17, 18, 19, 20, 21, 22, 23]
    (shapeCast S2x2x2x2x2x2x2x2x2x2x2x2x2x2x2x2x2x2x2x2x2x2x2x2 x shapeCasts_S2x8388608_S2x2x2x2x2x2x2x2x2x2x2x2x2x2x2x2x2x2x2x2x2x2x2x2) transposes_S2x2x2x2x2x2x2x2x2x2x2x2x2x2x2x2x2x2x2x2x2x2x2x2_S2x2x2x2x2x2x2x2x2x2x2x2x2x2x2x2x2x2x2x2x2x2x2x2_0_4_6_8_10_12_14_16_1_2_3_5_7_9_11_13_15_17_18_19_20_21_22_23)
    shapeCasts_S2x2x2x2x2x2x2x2x2x2x2x2x2x2x2x2x2x2x2x2x2x2x2x2_S2x65536x128
def rOut2 (y : FVec Ideal S2x65536x128 .f32) : FVec Ideal S2x8388608 .f32 :=
  shapeCast S2x8388608 (transpose S2x2x2x2x2x2x2x2x2x2x2x2x2x2x2x2x2x2x2x2x2x2x2x2 [0, 8, 9, 10, 1, 11, 2, 12, 3, 13, 4, 14, 5, 15, 6, 16, 7, 17, 18, 19, 20, 21, 22, 23]
    (shapeCast S2x2x2x2x2x2x2x2x2x2x2x2x2x2x2x2x2x2x2x2x2x2x2x2 y shapeCasts_S2x65536x128_S2x2x2x2x2x2x2x2x2x2x2x2x2x2x2x2x2x2x2x2x2x2x2x2) transposes_S2x2x2x2x2x2x2x2x2x2x2x2x2x2x2x2x2x2x2x2x2x2x2x2_S2x2x2x2x2x2x2x2x2x2x2x2x2x2x2x2x2x2x2x2x2x2x2x2_0_8_9_10_1_11_2_12_3_13_4_14_5_15_6_16_7_17_18_19_20_21_22_23)
    shapeCasts_S2x2x2x2x2x2x2x2x2x2x2x2x2x2x2x2x2x2x2x2x2x2x2x2_S2x8388608
/-- … for gate 3. -/
def rIn3 (x : FVec Ideal S2x8388608 .f32) : FVec Ideal S2x65536x128 .f32 :=
  shapeCast S2x65536x128 (transpose S2x2x2x2x2x2x2x2x2x2x2x2x2x2x2x2x2x2x2x2x2x2x2x2 [0, 17, 18, 19, 20, 21, 22, 23, 1, 2, 3, 4, 5, 6, 7, 8, 9, 10, 11, 12, 13, 14, 15, 16]
    (shapeCast S2x2x2x2x2x2x2x2x2x2x2x2x2x2x2x2x2x2x2x2x2x2x2x2 x shapeCasts_S2x8388608_S2x2x2x2x2x2x2x2x2x2x2x2x2x2x2x2x2x2x2x2x2x2x2x2) transposes_S2x2x2x2x2x2x2x2x2x2x2x2x2x2x2x2x2x2x2x2x2x2x2x2_S2x2x2x2x2x2x2x2x2x2x2x2x2x2x2x2x2x2x2x2x2x2x2x2_0_17_18_19_20_21_22_23_1_2_3_4_5_6_7_8_9_10_11_12_13_14_15_16)
    shapeCasts_S2x2x2x2x2x2x2x2x2x2x2x2x2x2x2x2x2x2x2x2x2x2x2x2_S2x65536x128
def rOut3 (y : FVec Ideal S2x65536x128 .f32) : FVec Ideal S2x8388608 .f32 :=
  shapeCast S2x8388608 (transpose S2x2x2x2x2x2x2x2x2x2x2x2x2x2x2x2x2x2x2x2x2x2x2x2 [0, 8, 9, 10, 11, 12, 13, 14, 15, 16, 17, 18, 19, 20, 21, 22, 23, 1, 2, 3, 4, 5, 6, 7]
    (shapeCast S2x2x2x2x2x2x2x2x2x2x2x2x2x2x2x2x2x2x2x2x2x2x2x2 y shapeCasts_S2x65536x128_S2x2x2x2x2x2x2x2x2x2x2x2x2x2x2x2x2x2x2x2x2x2x2x2) transposes_S2x2x2x2x2x2x2x2x2x2x2x2x2x2x2x2x2x2x2x2x2x2x2x2_S2x2x2x2x2x2x2x2x2x2x2x2x2x2x2x2x2x2x2x2x2x2x2x2_0_8_9_10_11_12_13_14_15_16_17_18_19_20_21_22_23_1_2_3_4_5_6_7)
    shapeCasts_S2x2x2x2x2x2x2x2x2x2x2x2x2x2x2x2x2x2x2x2x2x2x2x2_S2x8388608

def rstep0 (x : FVec Ideal S2x8388608 .f32) (a1 : FVec Ideal S4x2x128x128 .f32) : FVec Ideal S2x8388608 .f32 :=
  rOut0 (refGate (rmat00 a1) (rmat01 a1) (rIn0 x))
def rstep1 (x : FVec Ideal S2x8388608 .f32) (a1 : FVec Ideal S4x2x128x128 .f32) : FVec Ideal S2x8388608 .f32 :=
  rOut1 (refGate (rmat10 a1) (rmat11 a1) (rIn1 x))
def rstep2 (x : FVec Ideal S2x8388608 .f32) (a1 : FVec Ideal S4x2x128x128 .f32) : FVec Ideal S2x8388608 .f32 :=
  rOut2 (refGate (rmat20 a1) (rmat21 a1) (rIn2 x))
def rstep3 (x : FVec Ideal S2x8388608 .f32) (a1 : FVec Ideal S4x2x128x128 .f32) : FVec Ideal S2x8388608 .f32 :=
  rOut3 (refGate (rmat30 a1) (rmat31 a1) (rIn3 x))

end Cert.ReferenceIdeal.RefValue

end
-- ==== Proof.RefRun.lean ====
/-
  The reference program's run.  Its @main is a straight line of 98 host operations; every weakly fair execution
  terminates with each buffer at the fold of the operations over the launch memory.  The line is four stretches, one
  per gate; the state after one stretch is the next stretch's input, so the fold is read one stretch at a time: each
  stretch takes the state buffer it finds to the step of that gate, and leaves the stack of gate matrices alone.
-/
import proofs.«410610_j67473936220746_4_alg».proof.Proof.RefValue
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

/-- @main's 98 operations, in order. -/
abbrev ops : List (HloOp τ sig (Elt F)) :=
  [ unary main_arg1 main_v0 ((extractStridedSlice S1x1x128x128 ![0, 0, 0, 0] · slices_S4x2x128x128_S1x1x128x128_0_0_0_0) : (⟨S4x2x128x128, .f32⟩ : BufTy).Contents (Elt F) → (⟨S1x1x128x128, .f32⟩ : BufTy).Contents (Elt F)),
    reshape main_v0 main_v1 rfl shapeCasts_S1x1x128x128_S128x128,
    unary main_arg1 main_v2 ((extractStridedSlice S1x1x128x128 ![0, 1, 0, 0] · slices_S4x2x128x128_S1x1x128x128_0_1_0_0) : (⟨S4x2x128x128, .f32⟩ : BufTy).Contents (Elt F) → (⟨S1x1x128x128, .f32⟩ : BufTy).Contents (Elt F)),
    reshape main_v2 main_v3 rfl shapeCasts_S1x1x128x128_S128x128,
    reshape main_arg0 main_v4 rfl shapeCasts_S2x8388608_S2x2x2x2x2x2x2x2x2x2x2x2x2x2x2x2x2x2x2x2x2x2x2x2,
    reshape main_v4 main_v5 rfl shapeCasts_S2x2x2x2x2x2x2x2x2x2x2x2x2x2x2x2x2x2x2x2x2x2x2x2_S2x65536x128,
    unary main_v5 main_v6 ((extractStridedSlice S1x65536x128 ![0, 0, 0] · slices_S2x65536x128_S1x65536x128_0_0_0) : (⟨S2x65536x128, .f32⟩ : BufTy).Contents (Elt F) → (⟨S1x65536x128, .f32⟩ : BufTy).Contents (Elt F)),
    reshape main_v6 main_v7 rfl shapeCasts_S1x65536x128_S65536x128,
    unary main_v5 main_v8 ((extractStridedSlice S1x65536x128 ![1, 0, 0] · slices_S2x65536x128_S1x65536x128_1_0_0) : (⟨S2x65536x128, .f32⟩ : BufTy).Contents (Elt F) → (⟨S1x65536x128, .f32⟩ : BufTy).Contents (Elt F)),
    reshape main_v8 main_v9 rfl shapeCasts_S1x65536x128_S65536x128,
    binary main_v7 main_v1 main_v10 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v9 main_v3 main_v11 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v1 main_v3 main_v12 (addf : (⟨S128x128, .f32⟩ : BufTy).Contents (Elt F) → (⟨S128x128, .f32⟩ : BufTy).Contents (Elt F) → (⟨S128x128, .f32⟩ : BufTy).Contents (Elt F)),
    binary main_v7 main_v9 main_v13 (addf : (⟨S65536x128, .f32⟩ : BufTy).Contents (Elt F) → (⟨S65536x128, .f32⟩ : BufTy).Contents (Elt F) → (⟨S65536x128, .f32⟩ : BufTy).Contents (Elt F)),
    binary main_v13 main_v12 main_v14 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v10 main_v11 main_v15 (subf : (⟨S65536x128, .f32⟩ : BufTy).Contents (Elt F) → (⟨S65536x128, .f32⟩ : BufTy).Contents (Elt F) → (⟨S65536x128, .f32⟩ : BufTy).Contents (Elt F)),
    binary main_v14 main_v10 main_v16 (subf : (⟨S65536x128, .f32⟩ : BufTy).Contents (Elt F) → (⟨S65536x128, .f32⟩ : BufTy).Contents (Elt F) → (⟨S65536x128, .f32⟩ : BufTy).Contents (Elt F)),
    binary main_v16 main_v11 main_v17 (subf : (⟨S65536x128, .f32⟩ : BufTy).Contents (Elt F) → (⟨S65536x128, .f32⟩ : BufTy).Contents (Elt F) → (⟨S65536x128, .f32⟩ : BufTy).Contents (Elt F)),
    unary main_v17 main_v18 (broadcastInDim S1x65536x128 ![1, 2] bcast_S65536x128_S1x65536x128_1_2 : (⟨S65536x128, .f32⟩ : BufTy).Contents (Elt F) → (⟨S1x65536x128, .f32⟩ : BufTy).Contents (Elt F)),
    unary main_v15 main_v19 (broadcastInDim S1x65536x128 ![1, 2] bcast_S65536x128_S1x65536x128_1_2 : (⟨S65536x128, .f32⟩ : BufTy).Contents (Elt F) → (⟨S1x65536x128, .f32⟩ : BufTy).Contents (Elt F)),
    binary main_v18 main_v19 main_v20 ((fun a b => concatenate S2x65536x128 0 [⟨S1x65536x128, a⟩, ⟨S1x65536x128, b⟩] concatenates_S1x65536x128_S1x65536x128_S2x65536x128_d0) : (⟨S1x65536x128, .f32⟩ : BufTy).Contents (Elt F) → (⟨S1x65536x128, .f32⟩ : BufTy).Contents (Elt F) → (⟨S2x65536x128, .f32⟩ : BufTy).Contents (Elt F)),
    reshape main_v20 main_v21 rfl shapeCasts_S2x65536x128_S2x2x2x2x2x2x2x2x2x2x2x2x2x2x2x2x2x2x2x2x2x2x2x2,
    reshape main_v21 main_v22 rfl shapeCasts_S2x2x2x2x2x2x2x2x2x2x2x2x2x2x2x2x2x2x2x2x2x2x2x2_S2x8388608,
    unary main_arg1 main_v23 ((extractStridedSlice S1x1x128x128 ![1, 0, 0, 0] · slices_S4x2x128x128_S1x1x128x128_1_0_0_0) : (⟨S4x2x128x128, .f32⟩ : BufTy).Contents (Elt F) → (⟨S1x1x128x128, .f32⟩ : BufTy).Contents (Elt F)),
    reshape main_v23 main_v24 rfl shapeCasts_S1x1x128x128_S128x128,
    unary main_arg1 main_v25 ((extractStridedSlice S1x1x128x128 ![1, 1, 0, 0] · slices_S4x2x128x128_S1x1x128x128_1_1_0_0) : (⟨S4x2x128x128, .f32⟩ : BufTy).Contents (Elt F) → (⟨S1x1x128x128, .f32⟩ : BufTy).Contents (Elt F)),
    reshape main_v25 main_v26 rfl shapeCasts_S1x1x128x128_S128x128,
    reshape main_v22 main_v27 rfl shapeCasts_S2x8388608_S2x2x2x2x2x2x2x2x2x2x2x2x2x2x2x2x2x2x2x2x2x2x2x2,
    unary main_v27 main_v28 ((transpose S2x2x2x2x2x2x2x2x2x2x2x2x2x2x2x2x2x2x2x2x2x2x2x2 [0, 8, 9, 10, 11, 12, 13, 14, 1, 2, 3, 4, 5, 6, 7, 15, 16, 17, 18, 19, 20, 21, 22, 23] · transposes_S2x2x2x2x2x2x2x2x2x2x2x2x2x2x2x2x2x2x2x2x2x2x2x2_S2x2x2x2x2x2x2x2x2x2x2x2x2x2x2x2x2x2x2x2x2x2x2x2_0_8_9_10_11_12_13_14_1_2_3_4_5_6_7_15_16_17_18_19_20_21_22_23) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v28 main_v29 rfl shapeCasts_S2x2x2x2x2x2x2x2x2x2x2x2x2x2x2x2x2x2x2x2x2x2x2x2_S2x65536x128,
    unary main_v29 main_v30 ((extractStridedSlice S1x65536x128 ![0, 0, 0] · slices_S2x65536x128_S1x65536x128_0_0_0) : (⟨S2x65536x128, .f32⟩ : BufTy).Contents (Elt F) → (⟨S1x65536x128, .f32⟩ : BufTy).Contents (Elt F)),
    reshape main_v30 main_v31 rfl shapeCasts_S1x65536x128_S65536x128,
    unary main_v29 main_v32 ((extractStridedSlice S1x65536x128 ![1, 0, 0] · slices_S2x65536x128_S1x65536x128_1_0_0) : (⟨S2x65536x128, .f32⟩ : BufTy).Contents (Elt F) → (⟨S1x65536x128, .f32⟩ : BufTy).Contents (Elt F)),
    reshape main_v32 main_v33 rfl shapeCasts_S1x65536x128_S65536x128,
    binary main_v31 main_v24 main_v34 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v33 main_v26 main_v35 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v24 main_v26 main_v36 (addf : (⟨S128x128, .f32⟩ : BufTy).Contents (Elt F) → (⟨S128x128, .f32⟩ : BufTy).Contents (Elt F) → (⟨S128x128, .f32⟩ : BufTy).Contents (Elt F)),
    binary main_v31 main_v33 main_v37 (addf : (⟨S65536x128, .f32⟩ : BufTy).Contents (Elt F) → (⟨S65536x128, .f32⟩ : BufTy).Contents (Elt F) → (⟨S65536x128, .f32⟩ : BufTy).Contents (Elt F)),
    binary main_v37 main_v36 main_v38 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v34 main_v35 main_v39 (subf : (⟨S65536x128, .f32⟩ : BufTy).Contents (Elt F) → (⟨S65536x128, .f32⟩ : BufTy).Contents (Elt F) → (⟨S65536x128, .f32⟩ : BufTy).Contents (Elt F)),
    binary main_v38 main_v34 main_v40 (subf : (⟨S65536x128, .f32⟩ : BufTy).Contents (Elt F) → (⟨S65536x128, .f32⟩ : BufTy).Contents (Elt F) → (⟨S65536x128, .f32⟩ : BufTy).Contents (Elt F)),
    binary main_v40 main_v35 main_v41 (subf : (⟨S65536x128, .f32⟩ : BufTy).Contents (Elt F) → (⟨S65536x128, .f32⟩ : BufTy).Contents (Elt F) → (⟨S65536x128, .f32⟩ : BufTy).Contents (Elt F)),
    unary main_v41 main_v42 (broadcastInDim S1x65536x128 ![1, 2] bcast_S65536x128_S1x65536x128_1_2 : (⟨S65536x128, .f32⟩ : BufTy).Contents (Elt F) → (⟨S1x65536x128, .f32⟩ : BufTy).Contents (Elt F)),
    unary main_v39 main_v43 (broadcastInDim S1x65536x128 ![1, 2] bcast_S65536x128_S1x65536x128_1_2 : (⟨S65536x128, .f32⟩ : BufTy).Contents (Elt F) → (⟨S1x65536x128, .f32⟩ : BufTy).Contents (Elt F)),
    binary main_v42 main_v43 main_v44 ((fun a b => concatenate S2x65536x128 0 [⟨S1x65536x128, a⟩, ⟨S1x65536x128, b⟩] concatenates_S1x65536x128_S1x65536x128_S2x65536x128_d0) : (⟨S1x65536x128, .f32⟩ : BufTy).Contents (Elt F) → (⟨S1x65536x128, .f32⟩ : BufTy).Contents (Elt F) → (⟨S2x65536x128, .f32⟩ : BufTy).Contents (Elt F)),
    reshape main_v44 main_v45 rfl shapeCasts_S2x65536x128_S2x2x2x2x2x2x2x2x2x2x2x2x2x2x2x2x2x2x2x2x2x2x2x2,
    unary main_v45 main_v46 ((transpose S2x2x2x2x2x2x2x2x2x2x2x2x2x2x2x2x2x2x2x2x2x2x2x2 [0, 8, 9, 10, 11, 12, 13, 14, 1, 2, 3, 4, 5, 6, 7, 15, 16, 17, 18, 19, 20, 21, 22, 23] · transposes_S2x2x2x2x2x2x2x2x2x2x2x2x2x2x2x2x2x2x2x2x2x2x2x2_S2x2x2x2x2x2x2x2x2x2x2x2x2x2x2x2x2x2x2x2x2x2x2x2_0_8_9_10_11_12_13_14_1_2_3_4_5_6_7_15_16_17_18_19_20_21_22_23) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v46 main_v47 rfl shapeCasts_S2x2x2x2x2x2x2x2x2x2x2x2x2x2x2x2x2x2x2x2x2x2x2x2_S2x8388608,
    unary main_arg1 main_v48 ((extractStridedSlice S1x1x128x128 ![2, 0, 0, 0] · slices_S4x2x128x128_S1x1x128x128_2_0_0_0) : (⟨S4x2x128x128, .f32⟩ : BufTy).Contents (Elt F) → (⟨S1x1x128x128, .f32⟩ : BufTy).Contents (Elt F)),
    reshape main_v48 main_v49 rfl shapeCasts_S1x1x128x128_S128x128,
    unary main_arg1 main_v50 ((extractStridedSlice S1x1x128x128 ![2, 1, 0, 0] · slices_S4x2x128x128_S1x1x128x128_2_1_0_0) : (⟨S4x2x128x128, .f32⟩ : BufTy).Contents (Elt F) → (⟨S1x1x128x128, .f32⟩ : BufTy).Contents (Elt F)),
    reshape main_v50 main_v51 rfl shapeCasts_S1x1x128x128_S128x128,
    reshape main_v47 main_v52 rfl shapeCasts_S2x8388608_S2x2x2x2x2x2x2x2x2x2x2x2x2x2x2x2x2x2x2x2x2x2x2x2,
    unary main_v52 main_v53 ((transpose S2x2x2x2x2x2x2x2x2x2x2x2x2x2x2x2x2x2x2x2x2x2x2x2 [0, 4, 6, 8, 10, 12, 14, 16, 1, 2, 3, 5, 7, 9, 11, 13, 15, 17, 18, 19, 20, 21, 22, 23] · transposes_S2x2x2x2x2x2x2x2x2x2x2x2x2x2x2x2x2x2x2x2x2x2x2x2_S2x2x2x2x2x2x2x2x2x2x2x2x2x2x2x2x2x2x2x2x2x2x2x2_0_4_6_8_10_12_14_16_1_2_3_5_7_9_11_13_15_17_18_19_20_21_22_23) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v53 main_v54 rfl shapeCasts_S2x2x2x2x2x2x2x2x2x2x2x2x2x2x2x2x2x2x2x2x2x2x2x2_S2x65536x128,
    unary main_v54 main_v55 ((extractStridedSlice S1x65536x128 ![0, 0, 0] · slices_S2x65536x128_S1x65536x128_0_0_0) : (⟨S2x65536x128, .f32⟩ : BufTy).Contents (Elt F) → (⟨S1x65536x128, .f32⟩ : BufTy).Contents (Elt F)),
    reshape main_v55 main_v56 rfl shapeCasts_S1x65536x128_S65536x128,
    unary main_v54 main_v57 ((extractStridedSlice S1x65536x128 ![1, 0, 0] · slices_S2x65536x128_S1x65536x128_1_0_0) : (⟨S2x65536x128, .f32⟩ : BufTy).Contents (Elt F) → (⟨S1x65536x128, .f32⟩ : BufTy).Contents (Elt F)),
    reshape main_v57 main_v58 rfl shapeCasts_S1x65536x128_S65536x128,
    binary main_v56 main_v49 main_v59 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v58 main_v51 main_v60 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v49 main_v51 main_v61 (addf : (⟨S128x128, .f32⟩ : BufTy).Contents (Elt F) → (⟨S128x128, .f32⟩ : BufTy).Contents (Elt F) → (⟨S128x128, .f32⟩ : BufTy).Contents (Elt F)),
    binary main_v56 main_v58 main_v62 (addf : (⟨S65536x128, .f32⟩ : BufTy).Contents (Elt F) → (⟨S65536x128, .f32⟩ : BufTy).Contents (Elt F) → (⟨S65536x128, .f32⟩ : BufTy).Contents (Elt F)),
    binary main_v62 main_v61 main_v63 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v59 main_v60 main_v64 (subf : (⟨S65536x128, .f32⟩ : BufTy).Contents (Elt F) → (⟨S65536x128, .f32⟩ : BufTy).Contents (Elt F) → (⟨S65536x128, .f32⟩ : BufTy).Contents (Elt F)),
    binary main_v63 main_v59 main_v65 (subf : (⟨S65536x128, .f32⟩ : BufTy).Contents (Elt F) → (⟨S65536x128, .f32⟩ : BufTy).Contents (Elt F) → (⟨S65536x128, .f32⟩ : BufTy).Contents (Elt F)),
    binary main_v65 main_v60 main_v66 (subf : (⟨S65536x128, .f32⟩ : BufTy).Contents (Elt F) → (⟨S65536x128, .f32⟩ : BufTy).Contents (Elt F) → (⟨S65536x128, .f32⟩ : BufTy).Contents (Elt F)),
    unary main_v66 main_v67 (broadcastInDim S1x65536x128 ![1, 2] bcast_S65536x128_S1x65536x128_1_2 : (⟨S65536x128, .f32⟩ : BufTy).Contents (Elt F) → (⟨S1x65536x128, .f32⟩ : BufTy).Contents (Elt F)),
    unary main_v64 main_v68 (broadcastInDim S1x65536x128 ![1, 2] bcast_S65536x128_S1x65536x128_1_2 : (⟨S65536x128, .f32⟩ : BufTy).Contents (Elt F) → (⟨S1x65536x128, .f32⟩ : BufTy).Contents (Elt F)),
    binary main_v67 main_v68 main_v69 ((fun a b => concatenate S2x65536x128 0 [⟨S1x65536x128, a⟩, ⟨S1x65536x128, b⟩] concatenates_S1x65536x128_S1x65536x128_S2x65536x128_d0) : (⟨S1x65536x128, .f32⟩ : BufTy).Contents (Elt F) → (⟨S1x65536x128, .f32⟩ : BufTy).Contents (Elt F) → (⟨S2x65536x128, .f32⟩ : BufTy).Contents (Elt F)),
    reshape main_v69 main_v70 rfl shapeCasts_S2x65536x128_S2x2x2x2x2x2x2x2x2x2x2x2x2x2x2x2x2x2x2x2x2x2x2x2,
    unary main_v70 main_v71 ((transpose S2x2x2x2x2x2x2x2x2x2x2x2x2x2x2x2x2x2x2x2x2x2x2x2 [0, 8, 9, 10, 1, 11, 2, 12, 3, 13, 4, 14, 5, 15, 6, 16, 7, 17, 18, 19, 20, 21, 22, 23] · transposes_S2x2x2x2x2x2x2x2x2x2x2x2x2x2x2x2x2x2x2x2x2x2x2x2_S2x2x2x2x2x2x2x2x2x2x2x2x2x2x2x2x2x2x2x2x2x2x2x2_0_8_9_10_1_11_2_12_3_13_4_14_5_15_6_16_7_17_18_19_20_21_22_23) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v71 main_v72 rfl shapeCasts_S2x2x2x2x2x2x2x2x2x2x2x2x2x2x2x2x2x2x2x2x2x2x2x2_S2x8388608,
    unary main_arg1 main_v73 ((extractStridedSlice S1x1x128x128 ![3, 0, 0, 0] · slices_S4x2x128x128_S1x1x128x128_3_0_0_0) : (⟨S4x2x128x128, .f32⟩ : BufTy).Contents (Elt F) → (⟨S1x1x128x128, .f32⟩ : BufTy).Contents (Elt F)),
    reshape main_v73 main_v74 rfl shapeCasts_S1x1x128x128_S128x128,
    unary main_arg1 main_v75 ((extractStridedSlice S1x1x128x128 ![3, 1, 0, 0] · slices_S4x2x128x128_S1x1x128x128_3_1_0_0) : (⟨S4x2x128x128, .f32⟩ : BufTy).Contents (Elt F) → (⟨S1x1x128x128, .f32⟩ : BufTy).Contents (Elt F)),
    reshape main_v75 main_v76 rfl shapeCasts_S1x1x128x128_S128x128,
    reshape main_v72 main_v77 rfl shapeCasts_S2x8388608_S2x2x2x2x2x2x2x2x2x2x2x2x2x2x2x2x2x2x2x2x2x2x2x2,
    unary main_v77 main_v78 ((transpose S2x2x2x2x2x2x2x2x2x2x2x2x2x2x2x2x2x2x2x2x2x2x2x2 [0, 17, 18, 19, 20, 21, 22, 23, 1, 2, 3, 4, 5, 6, 7, 8, 9, 10, 11, 12, 13, 14, 15, 16] · transposes_S2x2x2x2x2x2x2x2x2x2x2x2x2x2x2x2x2x2x2x2x2x2x2x2_S2x2x2x2x2x2x2x2x2x2x2x2x2x2x2x2x2x2x2x2x2x2x2x2_0_17_18_19_20_21_22_23_1_2_3_4_5_6_7_8_9_10_11_12_13_14_15_16) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v78 main_v79 rfl shapeCasts_S2x2x2x2x2x2x2x2x2x2x2x2x2x2x2x2x2x2x2x2x2x2x2x2_S2x65536x128,
    unary main_v79 main_v80 ((extractStridedSlice S1x65536x128 ![0, 0, 0] · slices_S2x65536x128_S1x65536x128_0_0_0) : (⟨S2x65536x128, .f32⟩ : BufTy).Contents (Elt F) → (⟨S1x65536x128, .f32⟩ : BufTy).Contents (Elt F)),
    reshape main_v80 main_v81 rfl shapeCasts_S1x65536x128_S65536x128,
    unary main_v79 main_v82 ((extractStridedSlice S1x65536x128 ![1, 0, 0] · slices_S2x65536x128_S1x65536x128_1_0_0) : (⟨S2x65536x128, .f32⟩ : BufTy).Contents (Elt F) → (⟨S1x65536x128, .f32⟩ : BufTy).Contents (Elt F)),
    reshape main_v82 main_v83 rfl shapeCasts_S1x65536x128_S65536x128,
    binary main_v81 main_v74 main_v84 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v83 main_v76 main_v85 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v74 main_v76 main_v86 (addf : (⟨S128x128, .f32⟩ : BufTy).Contents (Elt F) → (⟨S128x128, .f32⟩ : BufTy).Contents (Elt F) → (⟨S128x128, .f32⟩ : BufTy).Contents (Elt F)),
    binary main_v81 main_v83 main_v87 (addf : (⟨S65536x128, .f32⟩ : BufTy).Contents (Elt F) → (⟨S65536x128, .f32⟩ : BufTy).Contents (Elt F) → (⟨S65536x128, .f32⟩ : BufTy).Contents (Elt F)),
    binary main_v87 main_v86 main_v88 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v84 main_v85 main_v89 (subf : (⟨S65536x128, .f32⟩ : BufTy).Contents (Elt F) → (⟨S65536x128, .f32⟩ : BufTy).Contents (Elt F) → (⟨S65536x128, .f32⟩ : BufTy).Contents (Elt F)),
    binary main_v88 main_v84 main_v90 (subf : (⟨S65536x128, .f32⟩ : BufTy).Contents (Elt F) → (⟨S65536x128, .f32⟩ : BufTy).Contents (Elt F) → (⟨S65536x128, .f32⟩ : BufTy).Contents (Elt F)),
    binary main_v90 main_v85 main_v91 (subf : (⟨S65536x128, .f32⟩ : BufTy).Contents (Elt F) → (⟨S65536x128, .f32⟩ : BufTy).Contents (Elt F) → (⟨S65536x128, .f32⟩ : BufTy).Contents (Elt F)),
    unary main_v91 main_v92 (broadcastInDim S1x65536x128 ![1, 2] bcast_S65536x128_S1x65536x128_1_2 : (⟨S65536x128, .f32⟩ : BufTy).Contents (Elt F) → (⟨S1x65536x128, .f32⟩ : BufTy).Contents (Elt F)),
    unary main_v89 main_v93 (broadcastInDim S1x65536x128 ![1, 2] bcast_S65536x128_S1x65536x128_1_2 : (⟨S65536x128, .f32⟩ : BufTy).Contents (Elt F) → (⟨S1x65536x128, .f32⟩ : BufTy).Contents (Elt F)),
    binary main_v92 main_v93 main_v94 ((fun a b => concatenate S2x65536x128 0 [⟨S1x65536x128, a⟩, ⟨S1x65536x128, b⟩] concatenates_S1x65536x128_S1x65536x128_S2x65536x128_d0) : (⟨S1x65536x128, .f32⟩ : BufTy).Contents (Elt F) → (⟨S1x65536x128, .f32⟩ : BufTy).Contents (Elt F) → (⟨S2x65536x128, .f32⟩ : BufTy).Contents (Elt F)),
    reshape main_v94 main_v95 rfl shapeCasts_S2x65536x128_S2x2x2x2x2x2x2x2x2x2x2x2x2x2x2x2x2x2x2x2x2x2x2x2,
    unary main_v95 main_v96 ((transpose S2x2x2x2x2x2x2x2x2x2x2x2x2x2x2x2x2x2x2x2x2x2x2x2 [0, 8, 9, 10, 11, 12, 13, 14, 15, 16, 17, 18, 19, 20, 21, 22, 23, 1, 2, 3, 4, 5, 6, 7] · transposes_S2x2x2x2x2x2x2x2x2x2x2x2x2x2x2x2x2x2x2x2x2x2x2x2_S2x2x2x2x2x2x2x2x2x2x2x2x2x2x2x2x2x2x2x2x2x2x2x2_0_8_9_10_11_12_13_14_15_16_17_18_19_20_21_22_23_1_2_3_4_5_6_7) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v96 main_v97 rfl shapeCasts_S2x2x2x2x2x2x2x2x2x2x2x2x2x2x2x2x2x2x2x2x2x2x2x2_S2x8388608 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., reshape_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., reshape_bufs_sub .., unary_bufs_sub .., reshape_bufs_sub .., unary_bufs_sub .., reshape_bufs_sub .., unary_bufs_sub .., reshape_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., reshape_bufs_sub .., unary_bufs_sub .., reshape_bufs_sub .., unary_bufs_sub .., reshape_bufs_sub .., unary_bufs_sub .., reshape_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., reshape_bufs_sub .., unary_bufs_sub .., reshape_bufs_sub ..⟩

set_option maxRecDepth 8192 in
/-- Every weakly fair execution of @main terminates with each buffer at the fold of the operations over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## The four stretches -/

/-- Gate 0's stretch: operations 1 … 23. -/
abbrev opsG0 : List (HloOp τ sig (Elt F)) :=
  [ unary main_arg1 main_v0 ((extractStridedSlice S1x1x128x128 ![0, 0, 0, 0] · slices_S4x2x128x128_S1x1x128x128_0_0_0_0) : (⟨S4x2x128x128, .f32⟩ : BufTy).Contents (Elt F) → (⟨S1x1x128x128, .f32⟩ : BufTy).Contents (Elt F)),
    reshape main_v0 main_v1 rfl shapeCasts_S1x1x128x128_S128x128,
    unary main_arg1 main_v2 ((extractStridedSlice S1x1x128x128 ![0, 1, 0, 0] · slices_S4x2x128x128_S1x1x128x128_0_1_0_0) : (⟨S4x2x128x128, .f32⟩ : BufTy).Contents (Elt F) → (⟨S1x1x128x128, .f32⟩ : BufTy).Contents (Elt F)),
    reshape main_v2 main_v3 rfl shapeCasts_S1x1x128x128_S128x128,
    reshape main_arg0 main_v4 rfl shapeCasts_S2x8388608_S2x2x2x2x2x2x2x2x2x2x2x2x2x2x2x2x2x2x2x2x2x2x2x2,
    reshape main_v4 main_v5 rfl shapeCasts_S2x2x2x2x2x2x2x2x2x2x2x2x2x2x2x2x2x2x2x2x2x2x2x2_S2x65536x128,
    unary main_v5 main_v6 ((extractStridedSlice S1x65536x128 ![0, 0, 0] · slices_S2x65536x128_S1x65536x128_0_0_0) : (⟨S2x65536x128, .f32⟩ : BufTy).Contents (Elt F) → (⟨S1x65536x128, .f32⟩ : BufTy).Contents (Elt F)),
    reshape main_v6 main_v7 rfl shapeCasts_S1x65536x128_S65536x128,
    unary main_v5 main_v8 ((extractStridedSlice S1x65536x128 ![1, 0, 0] · slices_S2x65536x128_S1x65536x128_1_0_0) : (⟨S2x65536x128, .f32⟩ : BufTy).Contents (Elt F) → (⟨S1x65536x128, .f32⟩ : BufTy).Contents (Elt F)),
    reshape main_v8 main_v9 rfl shapeCasts_S1x65536x128_S65536x128,
    binary main_v7 main_v1 main_v10 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v9 main_v3 main_v11 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v1 main_v3 main_v12 (addf : (⟨S128x128, .f32⟩ : BufTy).Contents (Elt F) → (⟨S128x128, .f32⟩ : BufTy).Contents (Elt F) → (⟨S128x128, .f32⟩ : BufTy).Contents (Elt F)),
    binary main_v7 main_v9 main_v13 (addf : (⟨S65536x128, .f32⟩ : BufTy).Contents (Elt F) → (⟨S65536x128, .f32⟩ : BufTy).Contents (Elt F) → (⟨S65536x128, .f32⟩ : BufTy).Contents (Elt F)),
    binary main_v13 main_v12 main_v14 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v10 main_v11 main_v15 (subf : (⟨S65536x128, .f32⟩ : BufTy).Contents (Elt F) → (⟨S65536x128, .f32⟩ : BufTy).Contents (Elt F) → (⟨S65536x128, .f32⟩ : BufTy).Contents (Elt F)),
    binary main_v14 main_v10 main_v16 (subf : (⟨S65536x128, .f32⟩ : BufTy).Contents (Elt F) → (⟨S65536x128, .f32⟩ : BufTy).Contents (Elt F) → (⟨S65536x128, .f32⟩ : BufTy).Contents (Elt F)),
    binary main_v16 main_v11 main_v17 (subf : (⟨S65536x128, .f32⟩ : BufTy).Contents (Elt F) → (⟨S65536x128, .f32⟩ : BufTy).Contents (Elt F) → (⟨S65536x128, .f32⟩ : BufTy).Contents (Elt F)),
    unary main_v17 main_v18 (broadcastInDim S1x65536x128 ![1, 2] bcast_S65536x128_S1x65536x128_1_2 : (⟨S65536x128, .f32⟩ : BufTy).Contents (Elt F) → (⟨S1x65536x128, .f32⟩ : BufTy).Contents (Elt F)),
    unary main_v15 main_v19 (broadcastInDim S1x65536x128 ![1, 2] bcast_S65536x128_S1x65536x128_1_2 : (⟨S65536x128, .f32⟩ : BufTy).Contents (Elt F) → (⟨S1x65536x128, .f32⟩ : BufTy).Contents (Elt F)),
    binary main_v18 main_v19 main_v20 ((fun a b => concatenate S2x65536x128 0 [⟨S1x65536x128, a⟩, ⟨S1x65536x128, b⟩] concatenates_S1x65536x128_S1x65536x128_S2x65536x128_d0) : (⟨S1x65536x128, .f32⟩ : BufTy).Contents (Elt F) → (⟨S1x65536x128, .f32⟩ : BufTy).Contents (Elt F) → (⟨S2x65536x128, .f32⟩ : BufTy).Contents (Elt F)),
    reshape main_v20 main_v21 rfl shapeCasts_S2x65536x128_S2x2x2x2x2x2x2x2x2x2x2x2x2x2x2x2x2x2x2x2x2x2x2x2,
    reshape main_v21 main_v22 rfl shapeCasts_S2x2x2x2x2x2x2x2x2x2x2x2x2x2x2x2x2x2x2x2x2x2x2x2_S2x8388608 ]
/-- Gate 1's stretch: operations 24 … 48. -/
abbrev opsG1 : List (HloOp τ sig (Elt F)) :=
  [ unary main_arg1 main_v23 ((extractStridedSlice S1x1x128x128 ![1, 0, 0, 0] · slices_S4x2x128x128_S1x1x128x128_1_0_0_0) : (⟨S4x2x128x128, .f32⟩ : BufTy).Contents (Elt F) → (⟨S1x1x128x128, .f32⟩ : BufTy).Contents (Elt F)),
    reshape main_v23 main_v24 rfl shapeCasts_S1x1x128x128_S128x128,
    unary main_arg1 main_v25 ((extractStridedSlice S1x1x128x128 ![1, 1, 0, 0] · slices_S4x2x128x128_S1x1x128x128_1_1_0_0) : (⟨S4x2x128x128, .f32⟩ : BufTy).Contents (Elt F) → (⟨S1x1x128x128, .f32⟩ : BufTy).Contents (Elt F)),
    reshape main_v25 main_v26 rfl shapeCasts_S1x1x128x128_S128x128,
    reshape main_v22 main_v27 rfl shapeCasts_S2x8388608_S2x2x2x2x2x2x2x2x2x2x2x2x2x2x2x2x2x2x2x2x2x2x2x2,
    unary main_v27 main_v28 ((transpose S2x2x2x2x2x2x2x2x2x2x2x2x2x2x2x2x2x2x2x2x2x2x2x2 [0, 8, 9, 10, 11, 12, 13, 14, 1, 2, 3, 4, 5, 6, 7, 15, 16, 17, 18, 19, 20, 21, 22, 23] · transposes_S2x2x2x2x2x2x2x2x2x2x2x2x2x2x2x2x2x2x2x2x2x2x2x2_S2x2x2x2x2x2x2x2x2x2x2x2x2x2x2x2x2x2x2x2x2x2x2x2_0_8_9_10_11_12_13_14_1_2_3_4_5_6_7_15_16_17_18_19_20_21_22_23) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v28 main_v29 rfl shapeCasts_S2x2x2x2x2x2x2x2x2x2x2x2x2x2x2x2x2x2x2x2x2x2x2x2_S2x65536x128,
    unary main_v29 main_v30 ((extractStridedSlice S1x65536x128 ![0, 0, 0] · slices_S2x65536x128_S1x65536x128_0_0_0) : (⟨S2x65536x128, .f32⟩ : BufTy).Contents (Elt F) → (⟨S1x65536x128, .f32⟩ : BufTy).Contents (Elt F)),
    reshape main_v30 main_v31 rfl shapeCasts_S1x65536x128_S65536x128,
    unary main_v29 main_v32 ((extractStridedSlice S1x65536x128 ![1, 0, 0] · slices_S2x65536x128_S1x65536x128_1_0_0) : (⟨S2x65536x128, .f32⟩ : BufTy).Contents (Elt F) → (⟨S1x65536x128, .f32⟩ : BufTy).Contents (Elt F)),
    reshape main_v32 main_v33 rfl shapeCasts_S1x65536x128_S65536x128,
    binary main_v31 main_v24 main_v34 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v33 main_v26 main_v35 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v24 main_v26 main_v36 (addf : (⟨S128x128, .f32⟩ : BufTy).Contents (Elt F) → (⟨S128x128, .f32⟩ : BufTy).Contents (Elt F) → (⟨S128x128, .f32⟩ : BufTy).Contents (Elt F)),
    binary main_v31 main_v33 main_v37 (addf : (⟨S65536x128, .f32⟩ : BufTy).Contents (Elt F) → (⟨S65536x128, .f32⟩ : BufTy).Contents (Elt F) → (⟨S65536x128, .f32⟩ : BufTy).Contents (Elt F)),
    binary main_v37 main_v36 main_v38 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v34 main_v35 main_v39 (subf : (⟨S65536x128, .f32⟩ : BufTy).Contents (Elt F) → (⟨S65536x128, .f32⟩ : BufTy).Contents (Elt F) → (⟨S65536x128, .f32⟩ : BufTy).Contents (Elt F)),
    binary main_v38 main_v34 main_v40 (subf : (⟨S65536x128, .f32⟩ : BufTy).Contents (Elt F) → (⟨S65536x128, .f32⟩ : BufTy).Contents (Elt F) → (⟨S65536x128, .f32⟩ : BufTy).Contents (Elt F)),
    binary main_v40 main_v35 main_v41 (subf : (⟨S65536x128, .f32⟩ : BufTy).Contents (Elt F) → (⟨S65536x128, .f32⟩ : BufTy).Contents (Elt F) → (⟨S65536x128, .f32⟩ : BufTy).Contents (Elt F)),
    unary main_v41 main_v42 (broadcastInDim S1x65536x128 ![1, 2] bcast_S65536x128_S1x65536x128_1_2 : (⟨S65536x128, .f32⟩ : BufTy).Contents (Elt F) → (⟨S1x65536x128, .f32⟩ : BufTy).Contents (Elt F)),
    unary main_v39 main_v43 (broadcastInDim S1x65536x128 ![1, 2] bcast_S65536x128_S1x65536x128_1_2 : (⟨S65536x128, .f32⟩ : BufTy).Contents (Elt F) → (⟨S1x65536x128, .f32⟩ : BufTy).Contents (Elt F)),
    binary main_v42 main_v43 main_v44 ((fun a b => concatenate S2x65536x128 0 [⟨S1x65536x128, a⟩, ⟨S1x65536x128, b⟩] concatenates_S1x65536x128_S1x65536x128_S2x65536x128_d0) : (⟨S1x65536x128, .f32⟩ : BufTy).Contents (Elt F) → (⟨S1x65536x128, .f32⟩ : BufTy).Contents (Elt F) → (⟨S2x65536x128, .f32⟩ : BufTy).Contents (Elt F)),
    reshape main_v44 main_v45 rfl shapeCasts_S2x65536x128_S2x2x2x2x2x2x2x2x2x2x2x2x2x2x2x2x2x2x2x2x2x2x2x2,
    unary main_v45 main_v46 ((transpose S2x2x2x2x2x2x2x2x2x2x2x2x2x2x2x2x2x2x2x2x2x2x2x2 [0, 8, 9, 10, 11, 12, 13, 14, 1, 2, 3, 4, 5, 6, 7, 15, 16, 17, 18, 19, 20, 21, 22, 23] · transposes_S2x2x2x2x2x2x2x2x2x2x2x2x2x2x2x2x2x2x2x2x2x2x2x2_S2x2x2x2x2x2x2x2x2x2x2x2x2x2x2x2x2x2x2x2x2x2x2x2_0_8_9_10_11_12_13_14_1_2_3_4_5_6_7_15_16_17_18_19_20_21_22_23) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v46 main_v47 rfl shapeCasts_S2x2x2x2x2x2x2x2x2x2x2x2x2x2x2x2x2x2x2x2x2x2x2x2_S2x8388608 ]
/-- Gate 2's stretch: operations 49 … 73. -/
abbrev opsG2 : List (HloOp τ sig (Elt F)) :=
  [ unary main_arg1 main_v48 ((extractStridedSlice S1x1x128x128 ![2, 0, 0, 0] · slices_S4x2x128x128_S1x1x128x128_2_0_0_0) : (⟨S4x2x128x128, .f32⟩ : BufTy).Contents (Elt F) → (⟨S1x1x128x128, .f32⟩ : BufTy).Contents (Elt F)),
    reshape main_v48 main_v49 rfl shapeCasts_S1x1x128x128_S128x128,
    unary main_arg1 main_v50 ((extractStridedSlice S1x1x128x128 ![2, 1, 0, 0] · slices_S4x2x128x128_S1x1x128x128_2_1_0_0) : (⟨S4x2x128x128, .f32⟩ : BufTy).Contents (Elt F) → (⟨S1x1x128x128, .f32⟩ : BufTy).Contents (Elt F)),
    reshape main_v50 main_v51 rfl shapeCasts_S1x1x128x128_S128x128,
    reshape main_v47 main_v52 rfl shapeCasts_S2x8388608_S2x2x2x2x2x2x2x2x2x2x2x2x2x2x2x2x2x2x2x2x2x2x2x2,
    unary main_v52 main_v53 ((transpose S2x2x2x2x2x2x2x2x2x2x2x2x2x2x2x2x2x2x2x2x2x2x2x2 [0, 4, 6, 8, 10, 12, 14, 16, 1, 2, 3, 5, 7, 9, 11, 13, 15, 17, 18, 19, 20, 21, 22, 23] · transposes_S2x2x2x2x2x2x2x2x2x2x2x2x2x2x2x2x2x2x2x2x2x2x2x2_S2x2x2x2x2x2x2x2x2x2x2x2x2x2x2x2x2x2x2x2x2x2x2x2_0_4_6_8_10_12_14_16_1_2_3_5_7_9_11_13_15_17_18_19_20_21_22_23) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v53 main_v54 rfl shapeCasts_S2x2x2x2x2x2x2x2x2x2x2x2x2x2x2x2x2x2x2x2x2x2x2x2_S2x65536x128,
    unary main_v54 main_v55 ((extractStridedSlice S1x65536x128 ![0, 0, 0] · slices_S2x65536x128_S1x65536x128_0_0_0) : (⟨S2x65536x128, .f32⟩ : BufTy).Contents (Elt F) → (⟨S1x65536x128, .f32⟩ : BufTy).Contents (Elt F)),
    reshape main_v55 main_v56 rfl shapeCasts_S1x65536x128_S65536x128,
    unary main_v54 main_v57 ((extractStridedSlice S1x65536x128 ![1, 0, 0] · slices_S2x65536x128_S1x65536x128_1_0_0) : (⟨S2x65536x128, .f32⟩ : BufTy).Contents (Elt F) → (⟨S1x65536x128, .f32⟩ : BufTy).Contents (Elt F)),
    reshape main_v57 main_v58 rfl shapeCasts_S1x65536x128_S65536x128,
    binary main_v56 main_v49 main_v59 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v58 main_v51 main_v60 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v49 main_v51 main_v61 (addf : (⟨S128x128, .f32⟩ : BufTy).Contents (Elt F) → (⟨S128x128, .f32⟩ : BufTy).Contents (Elt F) → (⟨S128x128, .f32⟩ : BufTy).Contents (Elt F)),
    binary main_v56 main_v58 main_v62 (addf : (⟨S65536x128, .f32⟩ : BufTy).Contents (Elt F) → (⟨S65536x128, .f32⟩ : BufTy).Contents (Elt F) → (⟨S65536x128, .f32⟩ : BufTy).Contents (Elt F)),
    binary main_v62 main_v61 main_v63 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v59 main_v60 main_v64 (subf : (⟨S65536x128, .f32⟩ : BufTy).Contents (Elt F) → (⟨S65536x128, .f32⟩ : BufTy).Contents (Elt F) → (⟨S65536x128, .f32⟩ : BufTy).Contents (Elt F)),
    binary main_v63 main_v59 main_v65 (subf : (⟨S65536x128, .f32⟩ : BufTy).Contents (Elt F) → (⟨S65536x128, .f32⟩ : BufTy).Contents (Elt F) → (⟨S65536x128, .f32⟩ : BufTy).Contents (Elt F)),
    binary main_v65 main_v60 main_v66 (subf : (⟨S65536x128, .f32⟩ : BufTy).Contents (Elt F) → (⟨S65536x128, .f32⟩ : BufTy).Contents (Elt F) → (⟨S65536x128, .f32⟩ : BufTy).Contents (Elt F)),
    unary main_v66 main_v67 (broadcastInDim S1x65536x128 ![1, 2] bcast_S65536x128_S1x65536x128_1_2 : (⟨S65536x128, .f32⟩ : BufTy).Contents (Elt F) → (⟨S1x65536x128, .f32⟩ : BufTy).Contents (Elt F)),
    unary main_v64 main_v68 (broadcastInDim S1x65536x128 ![1, 2] bcast_S65536x128_S1x65536x128_1_2 : (⟨S65536x128, .f32⟩ : BufTy).Contents (Elt F) → (⟨S1x65536x128, .f32⟩ : BufTy).Contents (Elt F)),
    binary main_v67 main_v68 main_v69 ((fun a b => concatenate S2x65536x128 0 [⟨S1x65536x128, a⟩, ⟨S1x65536x128, b⟩] concatenates_S1x65536x128_S1x65536x128_S2x65536x128_d0) : (⟨S1x65536x128, .f32⟩ : BufTy).Contents (Elt F) → (⟨S1x65536x128, .f32⟩ : BufTy).Contents (Elt F) → (⟨S2x65536x128, .f32⟩ : BufTy).Contents (Elt F)),
    reshape main_v69 main_v70 rfl shapeCasts_S2x65536x128_S2x2x2x2x2x2x2x2x2x2x2x2x2x2x2x2x2x2x2x2x2x2x2x2,
    unary main_v70 main_v71 ((transpose S2x2x2x2x2x2x2x2x2x2x2x2x2x2x2x2x2x2x2x2x2x2x2x2 [0, 8, 9, 10, 1, 11, 2, 12, 3, 13, 4, 14, 5, 15, 6, 16, 7, 17, 18, 19, 20, 21, 22, 23] · transposes_S2x2x2x2x2x2x2x2x2x2x2x2x2x2x2x2x2x2x2x2x2x2x2x2_S2x2x2x2x2x2x2x2x2x2x2x2x2x2x2x2x2x2x2x2x2x2x2x2_0_8_9_10_1_11_2_12_3_13_4_14_5_15_6_16_7_17_18_19_20_21_22_23) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v71 main_v72 rfl shapeCasts_S2x2x2x2x2x2x2x2x2x2x2x2x2x2x2x2x2x2x2x2x2x2x2x2_S2x8388608 ]
/-- Gate 3's stretch: operations 74 … 98. -/
abbrev opsG3 : List (HloOp τ sig (Elt F)) :=
  [ unary main_arg1 main_v73 ((extractStridedSlice S1x1x128x128 ![3, 0, 0, 0] · slices_S4x2x128x128_S1x1x128x128_3_0_0_0) : (⟨S4x2x128x128, .f32⟩ : BufTy).Contents (Elt F) → (⟨S1x1x128x128, .f32⟩ : BufTy).Contents (Elt F)),
    reshape main_v73 main_v74 rfl shapeCasts_S1x1x128x128_S128x128,
    unary main_arg1 main_v75 ((extractStridedSlice S1x1x128x128 ![3, 1, 0, 0] · slices_S4x2x128x128_S1x1x128x128_3_1_0_0) : (⟨S4x2x128x128, .f32⟩ : BufTy).Contents (Elt F) → (⟨S1x1x128x128, .f32⟩ : BufTy).Contents (Elt F)),
    reshape main_v75 main_v76 rfl shapeCasts_S1x1x128x128_S128x128,
    reshape main_v72 main_v77 rfl shapeCasts_S2x8388608_S2x2x2x2x2x2x2x2x2x2x2x2x2x2x2x2x2x2x2x2x2x2x2x2,
    unary main_v77 main_v78 ((transpose S2x2x2x2x2x2x2x2x2x2x2x2x2x2x2x2x2x2x2x2x2x2x2x2 [0, 17, 18, 19, 20, 21, 22, 23, 1, 2, 3, 4, 5, 6, 7, 8, 9, 10, 11, 12, 13, 14, 15, 16] · transposes_S2x2x2x2x2x2x2x2x2x2x2x2x2x2x2x2x2x2x2x2x2x2x2x2_S2x2x2x2x2x2x2x2x2x2x2x2x2x2x2x2x2x2x2x2x2x2x2x2_0_17_18_19_20_21_22_23_1_2_3_4_5_6_7_8_9_10_11_12_13_14_15_16) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v78 main_v79 rfl shapeCasts_S2x2x2x2x2x2x2x2x2x2x2x2x2x2x2x2x2x2x2x2x2x2x2x2_S2x65536x128,
    unary main_v79 main_v80 ((extractStridedSlice S1x65536x128 ![0, 0, 0] · slices_S2x65536x128_S1x65536x128_0_0_0) : (⟨S2x65536x128, .f32⟩ : BufTy).Contents (Elt F) → (⟨S1x65536x128, .f32⟩ : BufTy).Contents (Elt F)),
    reshape main_v80 main_v81 rfl shapeCasts_S1x65536x128_S65536x128,
    unary main_v79 main_v82 ((extractStridedSlice S1x65536x128 ![1, 0, 0] · slices_S2x65536x128_S1x65536x128_1_0_0) : (⟨S2x65536x128, .f32⟩ : BufTy).Contents (Elt F) → (⟨S1x65536x128, .f32⟩ : BufTy).Contents (Elt F)),
    reshape main_v82 main_v83 rfl shapeCasts_S1x65536x128_S65536x128,
    binary main_v81 main_v74 main_v84 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v83 main_v76 main_v85 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v74 main_v76 main_v86 (addf : (⟨S128x128, .f32⟩ : BufTy).Contents (Elt F) → (⟨S128x128, .f32⟩ : BufTy).Contents (Elt F) → (⟨S128x128, .f32⟩ : BufTy).Contents (Elt F)),
    binary main_v81 main_v83 main_v87 (addf : (⟨S65536x128, .f32⟩ : BufTy).Contents (Elt F) → (⟨S65536x128, .f32⟩ : BufTy).Contents (Elt F) → (⟨S65536x128, .f32⟩ : BufTy).Contents (Elt F)),
    binary main_v87 main_v86 main_v88 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    binary main_v84 main_v85 main_v89 (subf : (⟨S65536x128, .f32⟩ : BufTy).Contents (Elt F) → (⟨S65536x128, .f32⟩ : BufTy).Contents (Elt F) → (⟨S65536x128, .f32⟩ : BufTy).Contents (Elt F)),
    binary main_v88 main_v84 main_v90 (subf : (⟨S65536x128, .f32⟩ : BufTy).Contents (Elt F) → (⟨S65536x128, .f32⟩ : BufTy).Contents (Elt F) → (⟨S65536x128, .f32⟩ : BufTy).Contents (Elt F)),
    binary main_v90 main_v85 main_v91 (subf : (⟨S65536x128, .f32⟩ : BufTy).Contents (Elt F) → (⟨S65536x128, .f32⟩ : BufTy).Contents (Elt F) → (⟨S65536x128, .f32⟩ : BufTy).Contents (Elt F)),
    unary main_v91 main_v92 (broadcastInDim S1x65536x128 ![1, 2] bcast_S65536x128_S1x65536x128_1_2 : (⟨S65536x128, .f32⟩ : BufTy).Contents (Elt F) → (⟨S1x65536x128, .f32⟩ : BufTy).Contents (Elt F)),
    unary main_v89 main_v93 (broadcastInDim S1x65536x128 ![1, 2] bcast_S65536x128_S1x65536x128_1_2 : (⟨S65536x128, .f32⟩ : BufTy).Contents (Elt F) → (⟨S1x65536x128, .f32⟩ : BufTy).Contents (Elt F)),
    binary main_v92 main_v93 main_v94 ((fun a b => concatenate S2x65536x128 0 [⟨S1x65536x128, a⟩, ⟨S1x65536x128, b⟩] concatenates_S1x65536x128_S1x65536x128_S2x65536x128_d0) : (⟨S1x65536x128, .f32⟩ : BufTy).Contents (Elt F) → (⟨S1x65536x128, .f32⟩ : BufTy).Contents (Elt F) → (⟨S2x65536x128, .f32⟩ : BufTy).Contents (Elt F)),
    reshape main_v94 main_v95 rfl shapeCasts_S2x65536x128_S2x2x2x2x2x2x2x2x2x2x2x2x2x2x2x2x2x2x2x2x2x2x2x2,
    unary main_v95 main_v96 ((transpose S2x2x2x2x2x2x2x2x2x2x2x2x2x2x2x2x2x2x2x2x2x2x2x2 [0, 8, 9, 10, 11, 12, 13, 14, 15, 16, 17, 18, 19, 20, 21, 22, 23, 1, 2, 3, 4, 5, 6, 7] · transposes_S2x2x2x2x2x2x2x2x2x2x2x2x2x2x2x2x2x2x2x2x2x2x2x2_S2x2x2x2x2x2x2x2x2x2x2x2x2x2x2x2x2x2x2x2x2x2x2x2_0_8_9_10_11_12_13_14_15_16_17_18_19_20_21_22_23_1_2_3_4_5_6_7) : (⟨S2x2x2x2x2x2x2x2x2x2x2x2x2x2x2x2x2x2x2x2x2x2x2x2, .f32⟩ : BufTy).Contents (Elt F) → (⟨S2x2x2x2x2x2x2x2x2x2x2x2x2x2x2x2x2x2x2x2x2x2x2x2, .f32⟩ : BufTy).Contents (Elt F)),
    reshape main_v96 main_v97 rfl shapeCasts_S2x2x2x2x2x2x2x2x2x2x2x2x2x2x2x2x2x2x2x2x2x2x2x2_S2x8388608 ]

theorem ops_split : (ops : List (HloOp τ sig (Elt F))) = opsG0 ++ (opsG1 ++ (opsG2 ++ opsG3)) := rfl

/-- The fold over the whole line is the four stretches' folds in a row. -/
theorem after_ops (V : Valuation τ sig (Elt F)) :
    after ops V = after opsG3 (after opsG2 (after opsG1 (after opsG0 V))) :=
  (congrArg (fun l => after l V) ops_split).trans
    (((StableHlo.after_append opsG0 (opsG1 ++ (opsG2 ++ opsG3)) V).trans
      (StableHlo.after_append opsG1 (opsG2 ++ opsG3) (after opsG0 V))).trans
      (StableHlo.after_append opsG2 opsG3 (after opsG1 (after opsG0 V))))

section Stretches
variable (V : Valuation τ sig (Elt Ideal))

set_option maxRecDepth 16384

theorem g0_out : after opsG0 V (Proc.devRef .tc main_v22) = rstep0 (V (Proc.devRef .tc main_arg0)) (V (Proc.devRef .tc main_arg1)) := by
  after_results <;> rfl
theorem g0_arg1 : after opsG0 V (Proc.devRef .tc main_arg1) = V (Proc.devRef .tc main_arg1) := by
  after_results <;> rfl
theorem g1_out : after opsG1 V (Proc.devRef .tc main_v47) = rstep1 (V (Proc.devRef .tc main_v22)) (V (Proc.devRef .tc main_arg1)) := by
  after_results <;> rfl
theorem g1_arg1 : after opsG1 V (Proc.devRef .tc main_arg1) = V (Proc.devRef .tc main_arg1) := by
  after_results <;> rfl
theorem g2_out : after opsG2 V (Proc.devRef .tc main_v72) = rstep2 (V (Proc.devRef .tc main_v47)) (V (Proc.devRef .tc main_arg1)) := by
  after_results <;> rfl
theorem g2_arg1 : after opsG2 V (Proc.devRef .tc main_arg1) = V (Proc.devRef .tc main_arg1) := by
  after_results <;> rfl
set_option maxHeartbeats 1600000 in
theorem g3_out : after opsG3 V (Proc.devRef .tc main_v97) = rstep3 (V (Proc.devRef .tc main_v72)) (V (Proc.devRef .tc main_arg1)) := by
  after_results <;> rfl

/-- The result buffer after the whole line: the four steps in a row. -/
theorem after_ops_v97 : after ops V (Proc.devRef .tc main_v97)
    = rstep3 (rstep2 (rstep1 (rstep0 (V (Proc.devRef .tc main_arg0)) (V (Proc.devRef .tc main_arg1))) (V (Proc.devRef .tc main_arg1)))
        (V (Proc.devRef .tc main_arg1))) (V (Proc.devRef .tc main_arg1)) := by
  rw [after_ops, g3_out, g2_out, g2_arg1, g1_out, g1_arg1, g0_out, g0_arg1]

theorem after_ops_arg0 : after ops V (Proc.devRef .tc main_arg0) = V (Proc.devRef .tc main_arg0) := by
  after_results <;> rfl
theorem after_ops_arg1 : after ops V (Proc.devRef .tc main_arg1) = V (Proc.devRef .tc main_arg1) := by
  after_results <;> rfl

end Stretches

/-- The reference's run with its result named: the four steps in a row from the two arguments as launched, the
    arguments unchanged. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v97)
        = rstep3 (rstep2 (rstep1 (rstep0 (m ((c.tc : Thread nD τ).loc main_arg0)) (m ((c.tc : Thread nD τ).loc main_arg1)))
            (m ((c.tc : Thread nD τ).loc main_arg1))) (m ((c.tc : Thread nD τ).loc main_arg1))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v97).trans (after_ops_v97 _), (h c main_arg0).trans (after_ops_arg0 _),
      (h c main_arg1).trans (after_ops_arg1 _)⟩) (run_fold (F := Ideal) m ρ)

end Cert.ReferenceIdeal.RefRun

end
-- ==== Proof.LibBits.lean ====
/-
  Positions spelt in digits.  A reshape keeps an entry's row-major position, so a reshape into many short axes reads off
  the digits of that position in a mixed radix, a transpose of the short axes permutes the digits, and a reshape back
  reassembles a position from them.  Here are the three digit shapes a 2 x 2^23 array is cut into below: 24 binary
  digits; and two 16-digit forms in which three of the binary digits are kept together as one digit of eight and the
  last seven as one digit of 128.  For each, an index built from explicit digits and its position as the number the
  digits spell; and every position below 2^24 has its 24 binary digits.  Last, two reshapes in a row are one.
-/
import Idealize.ShloMosaic.Lib.Pipeline.Value
import Idealize.ShloMosaic.Lib.ValueIdx

namespace Cert.Bits

open Idealize.ShloMosaic

abbrev S24 : Shape := ⟨24, ![2, 2, 2, 2, 2, 2, 2, 2, 2, 2, 2, 2, 2, 2, 2, 2, 2, 2, 2, 2, 2, 2, 2, 2]⟩
abbrev S16a : Shape := ⟨16, ![2, 8, 2, 2, 2, 2, 2, 2, 2, 2, 2, 2, 2, 2, 2, 128]⟩
abbrev S16b : Shape := ⟨16, ![2, 2, 2, 2, 2, 2, 2, 2, 8, 2, 2, 2, 2, 2, 2, 128]⟩

/-- The index of the all-binary shape with the given 24 digits, most significant first. -/
abbrev v24 (b0 b1 b2 b3 b4 b5 b6 b7 b8 b9 b10 b11 b12 b13 b14 b15 b16 b17 b18 b19 b20 b21 b22 b23 : Fin 2) : S24.Idx :=
  fun d => match d with
    | ⟨0, _⟩ => b0
    | ⟨1, _⟩ => b1
    | ⟨2, _⟩ => b2
    | ⟨3, _⟩ => b3
    | ⟨4, _⟩ => b4
    | ⟨5, _⟩ => b5
    | ⟨6, _⟩ => b6
    | ⟨7, _⟩ => b7
    | ⟨8, _⟩ => b8
    | ⟨9, _⟩ => b9
    | ⟨10, _⟩ => b10
    | ⟨11, _⟩ => b11
    | ⟨12, _⟩ => b12
    | ⟨13, _⟩ => b13
    | ⟨14, _⟩ => b14
    | ⟨15, _⟩ => b15
    | ⟨16, _⟩ => b16
    | ⟨17, _⟩ => b17
    | ⟨18, _⟩ => b18
    | ⟨19, _⟩ => b19
    | ⟨20, _⟩ => b20
    | ⟨21, _⟩ => b21
    | ⟨22, _⟩ => b22
    | ⟨23, _⟩ => b23
    | ⟨_ + 24, h⟩ => absurd h (Nat.not_lt.2 (Nat.le_add_left _ _))

/-- Every index of the all-binary shape is the one its own digits spell. -/
theorem eq_v24 (j : S24.Idx) :
    j = v24 (j 0) (j 1) (j 2) (j 3) (j 4) (j 5) (j 6) (j 7) (j 8) (j 9) (j 10) (j 11) (j 12) (j 13) (j 14) (j 15) (j 16)
      (j 17) (j 18) (j 19) (j 20) (j 21) (j 22) (j 23) := by
  funext d
  match d with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨_ + 24, h⟩ => exact absurd h (Nat.not_lt.2 (Nat.le_add_left _ _))

/-- The position of an index of the all-binary shape is the number its digits spell. -/
theorem rm24 (b0 b1 b2 b3 b4 b5 b6 b7 b8 b9 b10 b11 b12 b13 b14 b15 b16 b17 b18 b19 b20 b21 b22 b23 : Fin 2) :
    (S24.rowMajor (v24 b0 b1 b2 b3 b4 b5 b6 b7 b8 b9 b10 b11 b12 b13 b14 b15 b16 b17 b18 b19 b20 b21 b22 b23)).val
      = b0.val * 8388608 + (b1.val * 4194304 + (b2.val * 2097152 + (b3.val * 1048576 + (b4.val * 524288 + (b5.val * 262144
        + (b6.val * 131072 + (b7.val * 65536 + (b8.val * 32768 + (b9.val * 16384 + (b10.val * 8192 + (b11.val * 4096
        + (b12.val * 2048 + (b13.val * 1024 + (b14.val * 512 + (b15.val * 256 + (b16.val * 128 + (b17.val * 64 + (b18.val * 32
        + (b19.val * 16 + (b20.val * 8 + (b21.val * 4 + (b22.val * 2 + (b23.val * 1 + 0))))))))))))))))))))))) := by
  show (Shape.rowMajorPi _ (v24 b0 b1 b2 b3 b4 b5 b6 b7 b8 b9 b10 b11 b12 b13 b14 b15 b16 b17 b18 b19 b20 b21 b22 b23)).val = _
  simp only [Shape.rowMajorPi_succ_val, Shape.rowMajorPi_zero]
  rfl

/-- Every position below 2^24 has 24 binary digits. -/
theorem digits24 (n : Nat) (hn : n < 16777216) :
    ∃ b0 b1 b2 b3 b4 b5 b6 b7 b8 b9 b10 b11 b12 b13 b14 b15 b16 b17 b18 b19 b20 b21 b22 b23 : Fin 2,
      n = b0.val * 8388608 + (b1.val * 4194304 + (b2.val * 2097152 + (b3.val * 1048576 + (b4.val * 524288 + (b5.val * 262144
        + (b6.val * 131072 + (b7.val * 65536 + (b8.val * 32768 + (b9.val * 16384 + (b10.val * 8192 + (b11.val * 4096
        + (b12.val * 2048 + (b13.val * 1024 + (b14.val * 512 + (b15.val * 256 + (b16.val * 128 + (b17.val * 64 + (b18.val * 32
        + (b19.val * 16 + (b20.val * 8 + (b21.val * 4 + (b22.val * 2 + (b23.val * 1 + 0))))))))))))))))))))))) := by
  have hN : S24.numel = 16777216 := by decide
  let j : S24.Idx := S24.rowMajor.symm ⟨n, hN ▸ hn⟩
  have hj : (S24.rowMajor j).val = n := by simp [j]
  refine ⟨j 0, j 1, j 2, j 3, j 4, j 5, j 6, j 7, j 8, j 9, j 10, j 11, j 12, j 13, j 14, j 15, j 16, j 17, j 18, j 19,
    j 20, j 21, j 22, j 23, ?_⟩
  rw [← hj]
  conv_lhs => rw [eq_v24 j]
  exact rm24 _ _ _ _ _ _ _ _ _ _ _ _ _ _ _ _ _ _ _ _ _ _ _ _

/-- The index of the shape [2, 8, 2 x 13, 128] with the given digits. -/
abbrev v16a (c : Fin 2) (g : Fin 8) (t0 t1 t2 t3 t4 t5 t6 t7 t8 t9 t10 t11 t12 : Fin 2) (l : Fin 128) : S16a.Idx :=
  fun d => match d with
    | ⟨0, _⟩ => c
    | ⟨1, _⟩ => g
    | ⟨2, _⟩ => t0
    | ⟨3, _⟩ => t1
    | ⟨4, _⟩ => t2
    | ⟨5, _⟩ => t3
    | ⟨6, _⟩ => t4
    | ⟨7, _⟩ => t5
    | ⟨8, _⟩ => t6
    | ⟨9, _⟩ => t7
    | ⟨10, _⟩ => t8
    | ⟨11, _⟩ => t9
    | ⟨12, _⟩ => t10
    | ⟨13, _⟩ => t11
    | ⟨14, _⟩ => t12
    | ⟨15, _⟩ => l
    | ⟨_ + 16, h⟩ => absurd h (Nat.not_lt.2 (Nat.le_add_left _ _))

theorem rm16a (c : Fin 2) (g : Fin 8) (t0 t1 t2 t3 t4 t5 t6 t7 t8 t9 t10 t11 t12 : Fin 2) (l : Fin 128) :
    (S16a.rowMajor (v16a c g t0 t1 t2 t3 t4 t5 t6 t7 t8 t9 t10 t11 t12 l)).val
      = c.val * 8388608 + (g.val * 1048576 + (t0.val * 524288 + (t1.val * 262144 + (t2.val * 131072 + (t3.val * 65536
        + (t4.val * 32768 + (t5.val * 16384 + (t6.val * 8192 + (t7.val * 4096 + (t8.val * 2048 + (t9.val * 1024
        + (t10.val * 512 + (t11.val * 256 + (t12.val * 128 + (l.val * 1 + 0))))))))))))))) := by
  show (Shape.rowMajorPi _ (v16a c g t0 t1 t2 t3 t4 t5 t6 t7 t8 t9 t10 t11 t12 l)).val = _
  simp only [Shape.rowMajorPi_succ_val, Shape.rowMajorPi_zero]
  rfl

/-- The index of the shape [2, 2 x 7, 8, 2 x 6, 128] with the given digits. -/
abbrev v16b (c : Fin 2) (t0 t1 t2 t3 t4 t5 t6 : Fin 2) (g : Fin 8) (u0 u1 u2 u3 u4 u5 : Fin 2) (l : Fin 128) : S16b.Idx :=
  fun d => match d with
    | ⟨0, _⟩ => c
    | ⟨1, _⟩ => t0
    | ⟨2, _⟩ => t1
    | ⟨3, _⟩ => t2
    | ⟨4, _⟩ => t3
    | ⟨5, _⟩ => t4
    | ⟨6, _⟩ => t5
    | ⟨7, _⟩ => t6
    | ⟨8, _⟩ => g
    | ⟨9, _⟩ => u0
    | ⟨10, _⟩ => u1
    | ⟨11, _⟩ => u2
    | ⟨12, _⟩ => u3
    | ⟨13, _⟩ => u4
    | ⟨14, _⟩ => u5
    | ⟨15, _⟩ => l
    | ⟨_ + 16, h⟩ => absurd h (Nat.not_lt.2 (Nat.le_add_left _ _))

theorem rm16b (c : Fin 2) (t0 t1 t2 t3 t4 t5 t6 : Fin 2) (g : Fin 8) (u0 u1 u2 u3 u4 u5 : Fin 2) (l : Fin 128) :
    (S16b.rowMajor (v16b c t0 t1 t2 t3 t4 t5 t6 g u0 u1 u2 u3 u4 u5 l)).val
      = c.val * 8388608 + (t0.val * 4194304 + (t1.val * 2097152 + (t2.val * 1048576 + (t3.val * 524288 + (t4.val * 262144
        + (t5.val * 131072 + (t6.val * 65536 + (g.val * 8192 + (u0.val * 4096 + (u1.val * 2048 + (u2.val * 1024
        + (u3.val * 512 + (u4.val * 256 + (u5.val * 128 + (l.val * 1 + 0))))))))))))))) := by
  show (Shape.rowMajorPi _ (v16b c t0 t1 t2 t3 t4 t5 t6 g u0 u1 u2 u3 u4 u5 l)).val = _
  simp only [Shape.rowMajorPi_succ_val, Shape.rowMajorPi_zero]
  rfl

/-- Positions of indices given by explicit coordinates, at ranks 2, 3 and 4. -/
theorem rm_ix2 {n0 n1 : Nat} (a : Fin n0) (b : Fin n1) :
    ((⟨2, ![n0, n1]⟩ : Shape).rowMajor (ValueIdx.ix2 a b)).val = a.val * n1 + b.val := by
  rw [Shape.rowMajor_val_two]; rfl

theorem rm_ix3 {n0 n1 n2 : Nat} (a : Fin n0) (b : Fin n1) (c : Fin n2) :
    ((⟨3, ![n0, n1, n2]⟩ : Shape).rowMajor (ValueIdx.ix3 a b c)).val = (a.val * n1 + b.val) * n2 + c.val := by
  rw [Shape.rowMajor_val_three]; rfl

theorem rm_ix4 {n0 n1 n2 n3 : Nat} (a : Fin n0) (b : Fin n1) (c : Fin n2) (d : Fin n3) :
    ((⟨4, ![n0, n1, n2, n3]⟩ : Shape).rowMajor (ValueIdx.ix4 a b c d)).val
      = ((a.val * n1 + b.val) * n2 + c.val) * n3 + d.val := by
  rw [Shape.rowMajor_val_four]; rfl

/-- Two reshapes in a row are one: each keeps every entry's row-major position. -/
theorem shapeCast_shapeCast_eq {s t u : Shape} {α : Type} (x : s.Idx → α) (h1 : s.ShapeCasts t) (h2 : t.ShapeCasts u)
    (h3 : s.ShapeCasts u) : shapeCast u (shapeCast t x h1) h2 = shapeCast u x h3 := by
  funext j
  unfold shapeCast
  refine congrArg x ?_
  exact Shape.reshapeEquiv_eq_of_rowMajor _ (by
    rw [Shape.rowMajor_reshapeEquiv, Shape.rowMajor_reshapeEquiv])

end Cert.Bits
-- ==== Proof.Perm1.lean ====
/-
  Gate 1 acts on qubits 7 … 13.  Its re-laying swaps two runs of seven binary digits of a position: digits 1 … 7 and
  digits 8 … 14 (digit 0 is the channel, digits 15 … 23 stay).  The reference does it digit by digit on the all-binary
  shape; the kernel in two blocks on the shape [2, 128, 128, 512].  Both read the same entry, on the way in and on the
  way out.
-/
import proofs.«410610_j67473936220746_4_alg».proof.Proof.LibBits

namespace Cert.Perm

open Idealize.ShloMosaic Idealize.ShloMosaic.ValueIdx Cert.Bits

abbrev S2 : Shape := ⟨2, ![2, 8388608]⟩
abbrev S3 : Shape := ⟨3, ![2, 65536, 128]⟩
abbrev S4 : Shape := ⟨4, ![2, 128, 128, 512]⟩

/-- Gate 1 acts on qubits 7 … 13: the re-laying moves binary digits 8 … 14 of a position in front of digits 1 … 7.
    Done digit by digit on the all-binary shape, or in two blocks of seven digits on the shape [2, 128, 128, 512], it
    reads the same entry of the state. -/
theorem permIn1_eq {α : Type} (x : S2.Idx → α)
    (h1 : S2.ShapeCasts S24)
    (hT : S24.Transposes [0, 8, 9, 10, 11, 12, 13, 14, 1, 2, 3, 4, 5, 6, 7, 15, 16, 17, 18, 19, 20, 21, 22, 23] S24)
    (h2 : S24.ShapeCasts S3)
    (k1 : S2.ShapeCasts S4) (kT : S4.Transposes [0, 2, 1, 3] S4) (k2 : S4.ShapeCasts S3) :
    shapeCast S3 (transpose S24 [0, 8, 9, 10, 11, 12, 13, 14, 1, 2, 3, 4, 5, 6, 7, 15, 16, 17, 18, 19, 20, 21, 22, 23]
        (shapeCast S24 x h1) hT) h2
      = shapeCast S3 (transpose S4 [0, 2, 1, 3] (shapeCast S4 x k1) kT) k2 := by
  funext j
  have hlt : (S3.rowMajor j).val < 16777216 := (S3.rowMajor j).isLt
  obtain ⟨b0, b1, b2, b3, b4, b5, b6, b7, b8, b9, b10, b11, b12, b13, b14, b15, b16, b17, b18, b19, b20, b21, b22, b23, hn⟩ :=
    digits24 _ hlt
  -- the entry of the state both sides read
  have hN : b8.val * 4194304 + b9.val * 2097152 + b10.val * 1048576 + b11.val * 524288 + b12.val * 262144 + b13.val * 131072
      + b14.val * 65536 + b1.val * 32768 + b2.val * 16384 + b3.val * 8192 + b4.val * 4096 + b5.val * 2048 + b6.val * 1024
      + b7.val * 512 + b15.val * 256 + b16.val * 128 + b17.val * 64 + b18.val * 32 + b19.val * 16 + b20.val * 8 + b21.val * 4
      + b22.val * 2 + b23.val < 8388608 := by omega
  have hR : shapeCast S3 (transpose S24 [0, 8, 9, 10, 11, 12, 13, 14, 1, 2, 3, 4, 5, 6, 7, 15, 16, 17, 18, 19, 20, 21, 22, 23]
        (shapeCast S24 x h1) hT) h2 j = x (ix2 b0 ⟨_, hN⟩) := by
    refine (shapeCast_apply _ h2 j (v24 b0 b1 b2 b3 b4 b5 b6 b7 b8 b9 b10 b11 b12 b13 b14 b15 b16 b17 b18 b19 b20 b21 b22 b23)
      (by rw [rm24]; exact hn.symm)).trans ?_
    refine (transpose_apply _ _ hT _
      (v24 b0 b8 b9 b10 b11 b12 b13 b14 b1 b2 b3 b4 b5 b6 b7 b15 b16 b17 b18 b19 b20 b21 b22 b23)
      (fun b => by fin_cases b <;> rfl)).trans ?_
    refine shapeCast_apply x h1 _ (ix2 b0 ⟨_, hN⟩) ?_
    rw [rm24, rm_ix2]
    dsimp only
    omega
  have hA : b1.val * 64 + b2.val * 32 + b3.val * 16 + b4.val * 8 + b5.val * 4 + b6.val * 2 + b7.val < 128 := by omega
  have hB : b8.val * 64 + b9.val * 32 + b10.val * 16 + b11.val * 8 + b12.val * 4 + b13.val * 2 + b14.val < 128 := by omega
  have hD : b15.val * 256 + b16.val * 128 + b17.val * 64 + b18.val * 32 + b19.val * 16 + b20.val * 8 + b21.val * 4
      + b22.val * 2 + b23.val < 512 := by omega
  have hK : shapeCast S3 (transpose S4 [0, 2, 1, 3] (shapeCast S4 x k1) kT) k2 j = x (ix2 b0 ⟨_, hN⟩) := by
    refine (shapeCast_apply _ k2 j (ix4 b0 ⟨_, hA⟩ ⟨_, hB⟩ ⟨_, hD⟩) ?_).trans ?_
    · rw [rm_ix4]
      dsimp only
      omega
    refine (transpose_apply _ _ kT _ (ix4 b0 ⟨_, hB⟩ ⟨_, hA⟩ ⟨_, hD⟩)
      (fun b => by fin_cases b <;> rfl)).trans ?_
    refine shapeCast_apply x k1 _ (ix2 b0 ⟨_, hN⟩) ?_
    rw [rm_ix4, rm_ix2]
    dsimp only
    omega
  exact hR.trans hK.symm

/-- The way back after gate 1 (the same swap of the two runs of seven digits), from the re-laid result to the state. -/
theorem permOut1_eq {α : Type} (y : S3.Idx → α)
    (h1 : S3.ShapeCasts S24)
    (hT : S24.Transposes [0, 8, 9, 10, 11, 12, 13, 14, 1, 2, 3, 4, 5, 6, 7, 15, 16, 17, 18, 19, 20, 21, 22, 23] S24)
    (h2 : S24.ShapeCasts S2)
    (k1 : S3.ShapeCasts S4) (kT : S4.Transposes [0, 2, 1, 3] S4) (k2 : S4.ShapeCasts S2) :
    shapeCast S2 (transpose S24 [0, 8, 9, 10, 11, 12, 13, 14, 1, 2, 3, 4, 5, 6, 7, 15, 16, 17, 18, 19, 20, 21, 22, 23]
        (shapeCast S24 y h1) hT) h2
      = shapeCast S2 (transpose S4 [0, 2, 1, 3] (shapeCast S4 y k1) kT) k2 := by
  funext j
  have hlt : (S2.rowMajor j).val < 16777216 := (S2.rowMajor j).isLt
  obtain ⟨b0, b1, b2, b3, b4, b5, b6, b7, b8, b9, b10, b11, b12, b13, b14, b15, b16, b17, b18, b19, b20, b21, b22, b23, hn⟩ :=
    digits24 _ hlt
  -- the entry of the re-laid result both sides read: row (digits 8 … 14, 1 … 7, 15, 16), lane (digits 17 … 23)
  have hRow : b8.val * 32768 + b9.val * 16384 + b10.val * 8192 + b11.val * 4096 + b12.val * 2048 + b13.val * 1024
      + b14.val * 512 + b1.val * 256 + b2.val * 128 + b3.val * 64 + b4.val * 32 + b5.val * 16 + b6.val * 8 + b7.val * 4
      + b15.val * 2 + b16.val < 65536 := by omega
  have hL : b17.val * 64 + b18.val * 32 + b19.val * 16 + b20.val * 8 + b21.val * 4 + b22.val * 2 + b23.val < 128 := by omega
  have hR : shapeCast S2 (transpose S24 [0, 8, 9, 10, 11, 12, 13, 14, 1, 2, 3, 4, 5, 6, 7, 15, 16, 17, 18, 19, 20, 21, 22, 23]
        (shapeCast S24 y h1) hT) h2 j = y (ix3 b0 ⟨_, hRow⟩ ⟨_, hL⟩) := by
    refine (shapeCast_apply _ h2 j (v24 b0 b1 b2 b3 b4 b5 b6 b7 b8 b9 b10 b11 b12 b13 b14 b15 b16 b17 b18 b19 b20 b21 b22 b23)
      (by rw [rm24]; exact hn.symm)).trans ?_
    refine (transpose_apply _ _ hT _
      (v24 b0 b8 b9 b10 b11 b12 b13 b14 b1 b2 b3 b4 b5 b6 b7 b15 b16 b17 b18 b19 b20 b21 b22 b23)
      (fun b => by fin_cases b <;> rfl)).trans ?_
    refine shapeCast_apply y h1 _ (ix3 b0 ⟨_, hRow⟩ ⟨_, hL⟩) ?_
    rw [rm24, rm_ix3]
    dsimp only
    omega
  have hA : b1.val * 64 + b2.val * 32 + b3.val * 16 + b4.val * 8 + b5.val * 4 + b6.val * 2 + b7.val < 128 := by omega
  have hB : b8.val * 64 + b9.val * 32 + b10.val * 16 + b11.val * 8 + b12.val * 4 + b13.val * 2 + b14.val < 128 := by omega
  have hD : b15.val * 256 + b16.val * 128 + b17.val * 64 + b18.val * 32 + b19.val * 16 + b20.val * 8 + b21.val * 4
      + b22.val * 2 + b23.val < 512 := by omega
  have hK : shapeCast S2 (transpose S4 [0, 2, 1, 3] (shapeCast S4 y k1) kT) k2 j = y (ix3 b0 ⟨_, hRow⟩ ⟨_, hL⟩) := by
    refine (shapeCast_apply _ k2 j (ix4 b0 ⟨_, hA⟩ ⟨_, hB⟩ ⟨_, hD⟩) ?_).trans ?_
    · rw [rm_ix4]
      dsimp only
      omega
    refine (transpose_apply _ _ kT _ (ix4 b0 ⟨_, hB⟩ ⟨_, hA⟩ ⟨_, hD⟩)
      (fun b => by fin_cases b <;> rfl)).trans ?_
    refine shapeCast_apply y k1 _ (ix3 b0 ⟨_, hRow⟩ ⟨_, hL⟩) ?_
    rw [rm_ix4, rm_ix3]
    dsimp only
    omega
  exact hR.trans hK.symm

end Cert.Perm
-- ==== Proof.Perm2In.lean ====
/-
  Gate 2 acts on qubits 3, 5, 7, 9, 11, 13, 15: binary digits 4, 6, 8, 10, 12, 14, 16 of a position (digit 0 is the
  channel).  Its re-laying brings those seven digits to the front and keeps the other sixteen in order behind them.
  The reference does it digit by digit on the all-binary shape; the kernel keeps digits 1 … 3 together as one digit of
  eight and digits 17 … 23 as one digit of 128, and deals the fourteen digits between into even and odd places.  Both
  read the same entry of the state.
-/
import proofs.«410610_j67473936220746_4_alg».proof.Proof.LibBits

namespace Cert.Perm2

open Idealize.ShloMosaic Idealize.ShloMosaic.ValueIdx Cert.Bits

abbrev S2 : Shape := ⟨2, ![2, 8388608]⟩
abbrev S3 : Shape := ⟨3, ![2, 65536, 128]⟩

/-- The reference's re-laying read at a result index whose position has the binary digits b0 … b23: it is the state's
    entry whose position has digits 8, 9, 10 first, then digits 1 … 7 and 11 … 16 alternating, then digits 17 … 23. -/
theorem ref_at {α : Type} (x : S2.Idx → α)
    (h1 : S2.ShapeCasts S24)
    (hT : S24.Transposes [0, 4, 6, 8, 10, 12, 14, 16, 1, 2, 3, 5, 7, 9, 11, 13, 15, 17, 18, 19, 20, 21, 22, 23] S24)
    (h2 : S24.ShapeCasts S3) (j : S3.Idx)
    (b0 b1 b2 b3 b4 b5 b6 b7 b8 b9 b10 b11 b12 b13 b14 b15 b16 b17 b18 b19 b20 b21 b22 b23 : Fin 2)
    (hn : (S3.rowMajor j).val = b0.val * 8388608 + (b1.val * 4194304 + (b2.val * 2097152 + (b3.val * 1048576 + (b4.val * 524288 + (b5.val * 262144
        + (b6.val * 131072 + (b7.val * 65536 + (b8.val * 32768 + (b9.val * 16384 + (b10.val * 8192 + (b11.val * 4096
        + (b12.val * 2048 + (b13.val * 1024 + (b14.val * 512 + (b15.val * 256 + (b16.val * 128 + (b17.val * 64 + (b18.val * 32
        + (b19.val * 16 + (b20.val * 8 + (b21.val * 4 + (b22.val * 2 + (b23.val * 1 + 0))))))))))))))))))))))))
    (hN : b8.val * 4194304 + b9.val * 2097152 + b10.val * 1048576 + b1.val * 524288 + b11.val * 262144 + b2.val * 131072
      + b12.val * 65536 + b3.val * 32768 + b13.val * 16384 + b4.val * 8192 + b14.val * 4096 + b5.val * 2048 + b15.val * 1024
      + b6.val * 512 + b16.val * 256 + b7.val * 128 + b17.val * 64 + b18.val * 32 + b19.val * 16 + b20.val * 8 + b21.val * 4
      + b22.val * 2 + b23.val < 8388608) :
    shapeCast S3 (transpose S24 [0, 4, 6, 8, 10, 12, 14, 16, 1, 2, 3, 5, 7, 9, 11, 13, 15, 17, 18, 19, 20, 21, 22, 23]
        (shapeCast S24 x h1) hT) h2 j = x (ix2 b0 ⟨_, hN⟩) := by
  refine (shapeCast_apply _ h2 j (v24 b0 b1 b2 b3 b4 b5 b6 b7 b8 b9 b10 b11 b12 b13 b14 b15 b16 b17 b18 b19 b20 b21 b22 b23)
    (by rw [rm24]; exact hn.symm)).trans ?_
  refine (transpose_apply _ _ hT _
    (v24 b0 b8 b9 b10 b1 b11 b2 b12 b3 b13 b4 b14 b5 b15 b6 b16 b7 b17 b18 b19 b20 b21 b22 b23)
    (fun b => by fin_cases b <;> rfl)).trans ?_
  refine shapeCast_apply x h1 _ (ix2 b0 ⟨_, hN⟩) ?_
  rw [rm24, rm_ix2]
  dsimp only
  clear hn hN h1 h2
  omega

/-- The kernel's re-laying read at the same result index: digits 8, 9, 10 travel together as one digit of eight and
    digits 17 … 23 as one digit of 128; the entry read is the same. -/
theorem ker_at {α : Type} (x : S2.Idx → α)
    (k1 : S2.ShapeCasts S16a) (kT : S16a.Transposes [0, 2, 4, 6, 8, 10, 12, 14, 1, 3, 5, 7, 9, 11, 13, 15] S16b)
    (k2 : S16b.ShapeCasts S3) (j : S3.Idx)
    (b0 b1 b2 b3 b4 b5 b6 b7 b8 b9 b10 b11 b12 b13 b14 b15 b16 b17 b18 b19 b20 b21 b22 b23 : Fin 2)
    (hn : (S3.rowMajor j).val = b0.val * 8388608 + (b1.val * 4194304 + (b2.val * 2097152 + (b3.val * 1048576 + (b4.val * 524288 + (b5.val * 262144
        + (b6.val * 131072 + (b7.val * 65536 + (b8.val * 32768 + (b9.val * 16384 + (b10.val * 8192 + (b11.val * 4096
        + (b12.val * 2048 + (b13.val * 1024 + (b14.val * 512 + (b15.val * 256 + (b16.val * 128 + (b17.val * 64 + (b18.val * 32
        + (b19.val * 16 + (b20.val * 8 + (b21.val * 4 + (b22.val * 2 + (b23.val * 1 + 0))))))))))))))))))))))))
    (hN : b8.val * 4194304 + b9.val * 2097152 + b10.val * 1048576 + b1.val * 524288 + b11.val * 262144 + b2.val * 131072
      + b12.val * 65536 + b3.val * 32768 + b13.val * 16384 + b4.val * 8192 + b14.val * 4096 + b5.val * 2048 + b15.val * 1024
      + b6.val * 512 + b16.val * 256 + b7.val * 128 + b17.val * 64 + b18.val * 32 + b19.val * 16 + b20.val * 8 + b21.val * 4
      + b22.val * 2 + b23.val < 8388608) :
    shapeCast S3 (transpose S16b [0, 2, 4, 6, 8, 10, 12, 14, 1, 3, 5, 7, 9, 11, 13, 15] (shapeCast S16a x k1) kT) k2 j
      = x (ix2 b0 ⟨_, hN⟩) := by
  have hG : b8.val * 4 + b9.val * 2 + b10.val < 8 := by clear hn hN k1 k2; omega
  have hL : b17.val * 64 + b18.val * 32 + b19.val * 16 + b20.val * 8 + b21.val * 4 + b22.val * 2 + b23.val < 128 := by
    clear hn hN k1 k2; omega
  refine (shapeCast_apply _ k2 j (v16b b0 b1 b2 b3 b4 b5 b6 b7 ⟨_, hG⟩ b11 b12 b13 b14 b15 b16 ⟨_, hL⟩) ?_).trans ?_
  · rw [rm16b, hn]
    dsimp only
    clear hn hN hG hL k1 k2
    omega
  refine (transpose_apply _ _ kT _ (v16a b0 ⟨_, hG⟩ b1 b11 b2 b12 b3 b13 b4 b14 b5 b15 b6 b16 b7 ⟨_, hL⟩)
    (fun b => by fin_cases b <;> rfl)).trans ?_
  refine shapeCast_apply x k1 _ (ix2 b0 ⟨_, hN⟩) ?_
  rw [rm16a, rm_ix2]
  dsimp only
  clear hn hN hG hL k1 k2
  omega

theorem permIn2_eq {α : Type} (x : S2.Idx → α)
    (h1 : S2.ShapeCasts S24)
    (hT : S24.Transposes [0, 4, 6, 8, 10, 12, 14, 16, 1, 2, 3, 5, 7, 9, 11, 13, 15, 17, 18, 19, 20, 21, 22, 23] S24)
    (h2 : S24.ShapeCasts S3)
    (k1 : S2.ShapeCasts S16a) (kT : S16a.Transposes [0, 2, 4, 6, 8, 10, 12, 14, 1, 3, 5, 7, 9, 11, 13, 15] S16b)
    (k2 : S16b.ShapeCasts S3) :
    shapeCast S3 (transpose S24 [0, 4, 6, 8, 10, 12, 14, 16, 1, 2, 3, 5, 7, 9, 11, 13, 15, 17, 18, 19, 20, 21, 22, 23]
        (shapeCast S24 x h1) hT) h2
      = shapeCast S3 (transpose S16b [0, 2, 4, 6, 8, 10, 12, 14, 1, 3, 5, 7, 9, 11, 13, 15] (shapeCast S16a x k1) kT) k2 := by
  funext j
  have hlt : (S3.rowMajor j).val < 16777216 := (S3.rowMajor j).isLt
  obtain ⟨b0, b1, b2, b3, b4, b5, b6, b7, b8, b9, b10, b11, b12, b13, b14, b15, b16, b17, b18, b19, b20, b21, b22, b23, hn⟩ :=
    digits24 _ hlt
  -- the position of the entry of the state both sides read
  have hN : b8.val * 4194304 + b9.val * 2097152 + b10.val * 1048576 + b1.val * 524288 + b11.val * 262144 + b2.val * 131072
      + b12.val * 65536 + b3.val * 32768 + b13.val * 16384 + b4.val * 8192 + b14.val * 4096 + b5.val * 2048 + b15.val * 1024
      + b6.val * 512 + b16.val * 256 + b7.val * 128 + b17.val * 64 + b18.val * 32 + b19.val * 16 + b20.val * 8 + b21.val * 4
      + b22.val * 2 + b23.val < 8388608 := by clear hn hlt h1 h2 k1 k2; omega
  exact (ref_at x h1 hT h2 j b0 b1 b2 b3 b4 b5 b6 b7 b8 b9 b10 b11 b12 b13 b14 b15 b16 b17 b18 b19 b20 b21 b22 b23 hn hN).trans
    (ker_at x k1 kT k2 j b0 b1 b2 b3 b4 b5 b6 b7 b8 b9 b10 b11 b12 b13 b14 b15 b16 b17 b18 b19 b20 b21 b22 b23 hn hN).symm

end Cert.Perm2
-- ==== Proof.Perm2Out.lean ====
/-
  The way back after gate 2 (qubits 3, 5, 7, 9, 11, 13, 15): the seven leading binary digits of a position in the
  re-laid result return to places 4, 6, 8, 10, 12, 14, 16, the other sixteen digits closing up around them in order.
  The reference does it digit by digit on the all-binary shape; the kernel keeps three of the digits together as one
  digit of eight and the last seven as one digit of 128, and interleaves the fourteen digits between.  Both read the
  same entry of the re-laid result.
-/
import proofs.«410610_j67473936220746_4_alg».proof.Proof.LibBits

namespace Cert.Perm2

open Idealize.ShloMosaic Idealize.ShloMosaic.ValueIdx Cert.Bits

abbrev T2 : Shape := ⟨2, ![2, 8388608]⟩
abbrev T3 : Shape := ⟨3, ![2, 65536, 128]⟩

/-- The entry in channel b0, row (b4 b6 … b16 b1 b2 b3 b5 b7 … b15), lane (b17 … b23) of the re-laid result has the position
    that the binary digits of the reference's source index spell: b0, b4 b6 … b16, b1 b2 b3, b5 b7 … b15, b17 … b23. -/
theorem spell_src24 (b0 b1 b2 b3 b4 b5 b6 b7 b8 b9 b10 b11 b12 b13 b14 b15 b16 b17 b18 b19 b20 b21 b22 b23 : Fin 2) :
    (b0.val * 65536 + (b4.val * 32768 + b6.val * 16384 + b8.val * 8192 + b10.val * 4096 + b12.val * 2048
          + b14.val * 1024 + b16.val * 512 + b1.val * 256 + b2.val * 128 + b3.val * 64 + b5.val * 32 + b7.val * 16
          + b9.val * 8 + b11.val * 4 + b13.val * 2 + b15.val)) * 128
        + (b17.val * 64 + b18.val * 32 + b19.val * 16 + b20.val * 8 + b21.val * 4 + b22.val * 2 + b23.val)
      = b0.val * 8388608 + (b4.val * 4194304 + (b6.val * 2097152 + (b8.val * 1048576 + (b10.val * 524288
      + (b12.val * 262144 + (b14.val * 131072 + (b16.val * 65536 + (b1.val * 32768 + (b2.val * 16384
      + (b3.val * 8192 + (b5.val * 4096 + (b7.val * 2048 + (b9.val * 1024 + (b11.val * 512 + (b13.val * 256
      + (b15.val * 128 + (b17.val * 64 + (b18.val * 32 + (b19.val * 16 + (b20.val * 8 + (b21.val * 4
      + (b22.val * 2 + (b23.val * 1 + 0))))))))))))))))))))))) := by
  omega

/-- With b1 b2 b3 read as one digit of eight and b17 … b23 as one digit of 128, the digits in their own order spell the
    same position in the shape [2, 8, 2 x 13, 128] as in binary. -/
theorem spell_16a (b0 b1 b2 b3 b4 b5 b6 b7 b8 b9 b10 b11 b12 b13 b14 b15 b16 b17 b18 b19 b20 b21 b22 b23 : Fin 2) :
    b0.val * 8388608 + ((b1.val * 4 + b2.val * 2 + b3.val) * 1048576 + (b4.val * 524288 + (b5.val * 262144
      + (b6.val * 131072 + (b7.val * 65536 + (b8.val * 32768 + (b9.val * 16384 + (b10.val * 8192 + (b11.val * 4096
      + (b12.val * 2048 + (b13.val * 1024 + (b14.val * 512 + (b15.val * 256 + (b16.val * 128 + ((b17.val * 64
      + b18.val * 32 + b19.val * 16 + b20.val * 8 + b21.val * 4 + b22.val * 2 + b23.val) * 1 + 0)))))))))))))))
      = b0.val * 8388608 + (b1.val * 4194304 + (b2.val * 2097152 + (b3.val * 1048576 + (b4.val * 524288
      + (b5.val * 262144 + (b6.val * 131072 + (b7.val * 65536 + (b8.val * 32768 + (b9.val * 16384
      + (b10.val * 8192 + (b11.val * 4096 + (b12.val * 2048 + (b13.val * 1024 + (b14.val * 512 + (b15.val * 256
      + (b16.val * 128 + (b17.val * 64 + (b18.val * 32 + (b19.val * 16 + (b20.val * 8 + (b21.val * 4
      + (b22.val * 2 + (b23.val * 1 + 0))))))))))))))))))))))) := by
  omega

/-- The same entry's position is also what the digits of the kernel's source index spell in the shape
    [2, 2 x 7, 8, 2 x 6, 128]: b0, b4 b6 … b16, (b1 b2 b3) as one digit of eight, b5 b7 … b15, (b17 … b23) as one digit
    of 128. -/
theorem spell_16b (b0 b1 b2 b3 b4 b5 b6 b7 b8 b9 b10 b11 b12 b13 b14 b15 b16 b17 b18 b19 b20 b21 b22 b23 : Fin 2) :
    (b0.val * 65536 + (b4.val * 32768 + b6.val * 16384 + b8.val * 8192 + b10.val * 4096 + b12.val * 2048
          + b14.val * 1024 + b16.val * 512 + b1.val * 256 + b2.val * 128 + b3.val * 64 + b5.val * 32 + b7.val * 16
          + b9.val * 8 + b11.val * 4 + b13.val * 2 + b15.val)) * 128
        + (b17.val * 64 + b18.val * 32 + b19.val * 16 + b20.val * 8 + b21.val * 4 + b22.val * 2 + b23.val)
      = b0.val * 8388608 + (b4.val * 4194304 + (b6.val * 2097152 + (b8.val * 1048576 + (b10.val * 524288
      + (b12.val * 262144 + (b14.val * 131072 + (b16.val * 65536 + ((b1.val * 4 + b2.val * 2 + b3.val) * 8192
      + (b5.val * 4096 + (b7.val * 2048 + (b9.val * 1024 + (b11.val * 512 + (b13.val * 256 + (b15.val * 128
      + ((b17.val * 64 + b18.val * 32 + b19.val * 16 + b20.val * 8 + b21.val * 4 + b22.val * 2 + b23.val) * 1
      + 0))))))))))))))) := by
  omega

/-- The reference's way back, read at a state index whose position has the binary digits b0 … b23.  The all-binary
    index with those digits is the transpose's result index; its source index carries on axis perm[b] the digit b, that
    is, it spells b0, b4 b6 … b16, b1 b2 b3, b5 b7 … b15, b17 … b23: the first sixteen digits after b0 are the row and the
    last seven the lane of the entry of the re-laid result. -/
theorem permOut2_ref {α : Type} (y : T3.Idx → α)
    (h1 : T3.ShapeCasts S24)
    (hT : S24.Transposes [0, 8, 9, 10, 1, 11, 2, 12, 3, 13, 4, 14, 5, 15, 6, 16, 7, 17, 18, 19, 20, 21, 22, 23] S24)
    (h2 : S24.ShapeCasts T2) (j : T2.Idx) (b0 b1 b2 b3 b4 b5 b6 b7 b8 b9 b10 b11 b12 b13 b14 b15 b16 b17 b18 b19 b20 b21 b22 b23 : Fin 2)
    (hn : (T2.rowMajor j).val = b0.val * 8388608 + (b1.val * 4194304 + (b2.val * 2097152 + (b3.val * 1048576
      + (b4.val * 524288 + (b5.val * 262144 + (b6.val * 131072 + (b7.val * 65536 + (b8.val * 32768 + (b9.val * 16384
      + (b10.val * 8192 + (b11.val * 4096 + (b12.val * 2048 + (b13.val * 1024 + (b14.val * 512 + (b15.val * 256
      + (b16.val * 128 + (b17.val * 64 + (b18.val * 32 + (b19.val * 16 + (b20.val * 8 + (b21.val * 4 + (b22.val * 2
      + (b23.val * 1 + 0))))))))))))))))))))))))
    (hR : b4.val * 32768 + b6.val * 16384 + b8.val * 8192 + b10.val * 4096 + b12.val * 2048 + b14.val * 1024
      + b16.val * 512 + b1.val * 256 + b2.val * 128 + b3.val * 64 + b5.val * 32 + b7.val * 16 + b9.val * 8 + b11.val * 4
      + b13.val * 2 + b15.val < 65536)
    (hL : b17.val * 64 + b18.val * 32 + b19.val * 16 + b20.val * 8 + b21.val * 4 + b22.val * 2 + b23.val < 128) :
    shapeCast T2 (transpose S24 [0, 8, 9, 10, 1, 11, 2, 12, 3, 13, 4, 14, 5, 15, 6, 16, 7, 17, 18, 19, 20, 21, 22, 23]
        (shapeCast S24 y h1) hT) h2 j = y (ix3 b0 ⟨_, hR⟩ ⟨_, hL⟩) := by
  refine (shapeCast_apply _ h2 j (v24 b0 b1 b2 b3 b4 b5 b6 b7 b8 b9 b10 b11 b12 b13 b14 b15 b16 b17 b18 b19 b20 b21 b22 b23)
    (by rw [rm24]; exact hn.symm)).trans ?_
  refine (transpose_apply _ _ hT _
    (v24 b0 b4 b6 b8 b10 b12 b14 b16 b1 b2 b3 b5 b7 b9 b11 b13 b15 b17 b18 b19 b20 b21 b22 b23)
    (fun b => by fin_cases b <;> rfl)).trans ?_
  refine shapeCast_apply y h1 _ (ix3 b0 ⟨_, hR⟩ ⟨_, hL⟩) ?_
  rw [rm24, rm_ix3]
  dsimp only
  exact spell_src24 b0 b1 b2 b3 b4 b5 b6 b7 b8 b9 b10 b11 b12 b13 b14 b15 b16 b17 b18 b19 b20 b21 b22 b23

/-- The kernel's way back, read at the same state index.  In the shape [2, 8, 2 x 13, 128] the index has the digits
    b0, (b1 b2 b3) as one digit of eight, b4 … b16, and (b17 … b23) as one digit of 128; the transpose's source index, in
    the shape [2, 2 x 7, 8, 2 x 6, 128], has b0, b4 b6 … b16, (b1 b2 b3), b5 b7 … b15, (b17 … b23): the same position as the
    reference's source index. -/
theorem permOut2_ker {α : Type} (y : T3.Idx → α)
    (k1 : T3.ShapeCasts S16b) (kT : S16b.Transposes [0, 8, 1, 9, 2, 10, 3, 11, 4, 12, 5, 13, 6, 14, 7, 15] S16a)
    (k2 : S16a.ShapeCasts T2) (j : T2.Idx) (b0 b1 b2 b3 b4 b5 b6 b7 b8 b9 b10 b11 b12 b13 b14 b15 b16 b17 b18 b19 b20 b21 b22 b23 : Fin 2)
    (hn : (T2.rowMajor j).val = b0.val * 8388608 + (b1.val * 4194304 + (b2.val * 2097152 + (b3.val * 1048576
      + (b4.val * 524288 + (b5.val * 262144 + (b6.val * 131072 + (b7.val * 65536 + (b8.val * 32768 + (b9.val * 16384
      + (b10.val * 8192 + (b11.val * 4096 + (b12.val * 2048 + (b13.val * 1024 + (b14.val * 512 + (b15.val * 256
      + (b16.val * 128 + (b17.val * 64 + (b18.val * 32 + (b19.val * 16 + (b20.val * 8 + (b21.val * 4 + (b22.val * 2
      + (b23.val * 1 + 0))))))))))))))))))))))))
    (hR : b4.val * 32768 + b6.val * 16384 + b8.val * 8192 + b10.val * 4096 + b12.val * 2048 + b14.val * 1024
      + b16.val * 512 + b1.val * 256 + b2.val * 128 + b3.val * 64 + b5.val * 32 + b7.val * 16 + b9.val * 8 + b11.val * 4
      + b13.val * 2 + b15.val < 65536)
    (hL : b17.val * 64 + b18.val * 32 + b19.val * 16 + b20.val * 8 + b21.val * 4 + b22.val * 2 + b23.val < 128) :
    shapeCast T2 (transpose S16a [0, 8, 1, 9, 2, 10, 3, 11, 4, 12, 5, 13, 6, 14, 7, 15] (shapeCast S16b y k1) kT) k2 j
      = y (ix3 b0 ⟨_, hR⟩ ⟨_, hL⟩) := by
  have hG : b1.val * 4 + b2.val * 2 + b3.val < 8 := by omega
  refine (shapeCast_apply _ k2 j
    (v16a b0 ⟨_, hG⟩ b4 b5 b6 b7 b8 b9 b10 b11 b12 b13 b14 b15 b16 ⟨_, hL⟩) ?_).trans ?_
  · rw [rm16a, hn]
    dsimp only
    exact spell_16a b0 b1 b2 b3 b4 b5 b6 b7 b8 b9 b10 b11 b12 b13 b14 b15 b16 b17 b18 b19 b20 b21 b22 b23
  refine (transpose_apply _ _ kT _
    (v16b b0 b4 b6 b8 b10 b12 b14 b16 ⟨_, hG⟩ b5 b7 b9 b11 b13 b15 ⟨_, hL⟩)
    (fun b => by fin_cases b <;> rfl)).trans ?_
  refine shapeCast_apply y k1 _ (ix3 b0 ⟨_, hR⟩ ⟨_, hL⟩) ?_
  rw [rm16b, rm_ix3]
  dsimp only
  exact spell_16b b0 b1 b2 b3 b4 b5 b6 b7 b8 b9 b10 b11 b12 b13 b14 b15 b16 b17 b18 b19 b20 b21 b22 b23

theorem permOut2_eq {α : Type} (y : T3.Idx → α)
    (h1 : T3.ShapeCasts S24)
    (hT : S24.Transposes [0, 8, 9, 10, 1, 11, 2, 12, 3, 13, 4, 14, 5, 15, 6, 16, 7, 17, 18, 19, 20, 21, 22, 23] S24)
    (h2 : S24.ShapeCasts T2)
    (k1 : T3.ShapeCasts S16b) (kT : S16b.Transposes [0, 8, 1, 9, 2, 10, 3, 11, 4, 12, 5, 13, 6, 14, 7, 15] S16a)
    (k2 : S16a.ShapeCasts T2) :
    shapeCast T2 (transpose S24 [0, 8, 9, 10, 1, 11, 2, 12, 3, 13, 4, 14, 5, 15, 6, 16, 7, 17, 18, 19, 20, 21, 22, 23]
        (shapeCast S24 y h1) hT) h2
      = shapeCast T2 (transpose S16a [0, 8, 1, 9, 2, 10, 3, 11, 4, 12, 5, 13, 6, 14, 7, 15] (shapeCast S16b y k1) kT) k2 := by
  funext j
  have hlt : (T2.rowMajor j).val < 16777216 := (T2.rowMajor j).isLt
  obtain ⟨b0, b1, b2, b3, b4, b5, b6, b7, b8, b9, b10, b11, b12, b13, b14, b15, b16, b17, b18, b19, b20, b21, b22, b23, hn⟩ :=
    digits24 _ hlt
  -- both sides read the entry of the re-laid result in row b4 b6 … b16 b1 b2 b3 b5 b7 … b15 and lane b17 … b23
  have hR : b4.val * 32768 + b6.val * 16384 + b8.val * 8192 + b10.val * 4096 + b12.val * 2048 + b14.val * 1024
      + b16.val * 512 + b1.val * 256 + b2.val * 128 + b3.val * 64 + b5.val * 32 + b7.val * 16 + b9.val * 8 + b11.val * 4
      + b13.val * 2 + b15.val < 65536 := by omega
  have hL : b17.val * 64 + b18.val * 32 + b19.val * 16 + b20.val * 8 + b21.val * 4 + b22.val * 2 + b23.val < 128 := by
    omega
  exact (permOut2_ref y h1 hT h2 j b0 b1 b2 b3 b4 b5 b6 b7 b8 b9 b10 b11 b12 b13 b14 b15 b16 b17 b18 b19 b20 b21 b22 b23 hn hR hL).trans
    (permOut2_ker y k1 kT k2 j b0 b1 b2 b3 b4 b5 b6 b7 b8 b9 b10 b11 b12 b13 b14 b15 b16 b17 b18 b19 b20 b21 b22 b23 hn hR hL).symm

end Cert.Perm2
-- ==== Proof.Perm3.lean ====
/-
  Gate 3 acts on qubits 16 … 22, the last seven binary digits of a position.  Its re-laying moves digits 17 … 23 in
  front of digits 1 … 16 (digit 0 is the channel).  The reference does it digit by digit on the all-binary shape; the
  kernel as one transpose of the two trailing axes between [2, 65536, 128] and [2, 128, 65536].  Both read the same
  entry, on the way in and on the way out.
-/
import proofs.«410610_j67473936220746_4_alg».proof.Proof.LibBits

namespace Cert.Perm3

open Idealize.ShloMosaic Idealize.ShloMosaic.ValueIdx Cert.Bits

abbrev S2 : Shape := ⟨2, ![2, 8388608]⟩
abbrev S3 : Shape := ⟨3, ![2, 65536, 128]⟩
abbrev S3' : Shape := ⟨3, ![2, 128, 65536]⟩

/-- Sixteen binary digits spell a number below 2^16. -/
theorem lt_of_digits16 (a0 a1 a2 a3 a4 a5 a6 a7 a8 a9 a10 a11 a12 a13 a14 a15 : Fin 2) :
    a0.val * 32768 + a1.val * 16384 + a2.val * 8192 + a3.val * 4096 + a4.val * 2048 + a5.val * 1024
      + a6.val * 512 + a7.val * 256 + a8.val * 128 + a9.val * 64 + a10.val * 32 + a11.val * 16 + a12.val * 8
      + a13.val * 4 + a14.val * 2 + a15.val < 65536 := by omega

theorem permIn3_eq {α : Type} (x : S2.Idx → α)
    (h1 : S2.ShapeCasts S24)
    (hT : S24.Transposes [0, 17, 18, 19, 20, 21, 22, 23, 1, 2, 3, 4, 5, 6, 7, 8, 9, 10, 11, 12, 13, 14, 15, 16] S24)
    (h2 : S24.ShapeCasts S3)
    (k1 : S2.ShapeCasts S3) (kT : S3.Transposes [0, 2, 1] S3') (k2 : S3'.ShapeCasts S3) :
    shapeCast S3 (transpose S24 [0, 17, 18, 19, 20, 21, 22, 23, 1, 2, 3, 4, 5, 6, 7, 8, 9, 10, 11, 12, 13, 14, 15, 16]
        (shapeCast S24 x h1) hT) h2
      = shapeCast S3 (transpose S3' [0, 2, 1] (shapeCast S3 x k1) kT) k2 := by
  funext j
  have hlt : (S3.rowMajor j).val < 16777216 := (S3.rowMajor j).isLt
  obtain ⟨b0, b1, b2, b3, b4, b5, b6, b7, b8, b9, b10, b11, b12, b13, b14, b15, b16, b17, b18, b19, b20, b21, b22, b23, hn⟩ :=
    digits24 _ hlt
  -- the entry of the state both sides read: digits 8 … 23 first, then digits 1 … 7
  have hN : b8.val * 4194304 + b9.val * 2097152 + b10.val * 1048576 + b11.val * 524288 + b12.val * 262144 + b13.val * 131072
      + b14.val * 65536 + b15.val * 32768 + b16.val * 16384 + b17.val * 8192 + b18.val * 4096 + b19.val * 2048 + b20.val * 1024
      + b21.val * 512 + b22.val * 256 + b23.val * 128 + b1.val * 64 + b2.val * 32 + b3.val * 16 + b4.val * 8 + b5.val * 4
      + b6.val * 2 + b7.val < 8388608 := by omega
  have hR : shapeCast S3 (transpose S24 [0, 17, 18, 19, 20, 21, 22, 23, 1, 2, 3, 4, 5, 6, 7, 8, 9, 10, 11, 12, 13, 14, 15, 16]
        (shapeCast S24 x h1) hT) h2 j = x (ix2 b0 ⟨_, hN⟩) := by
    refine (shapeCast_apply _ h2 j (v24 b0 b1 b2 b3 b4 b5 b6 b7 b8 b9 b10 b11 b12 b13 b14 b15 b16 b17 b18 b19 b20 b21 b22 b23)
      (by rw [rm24]; exact hn.symm)).trans ?_
    refine (transpose_apply _ _ hT _
      (v24 b0 b8 b9 b10 b11 b12 b13 b14 b15 b16 b17 b18 b19 b20 b21 b22 b23 b1 b2 b3 b4 b5 b6 b7)
      (fun b => by fin_cases b <;> rfl)).trans ?_
    refine shapeCast_apply x h1 _ (ix2 b0 ⟨_, hN⟩) ?_
    rw [rm24, rm_ix2]
    dsimp only
    omega
  have hA : b1.val * 64 + b2.val * 32 + b3.val * 16 + b4.val * 8 + b5.val * 4 + b6.val * 2 + b7.val < 128 := by omega
  have hW : b8.val * 32768 + b9.val * 16384 + b10.val * 8192 + b11.val * 4096 + b12.val * 2048 + b13.val * 1024
      + b14.val * 512 + b15.val * 256 + b16.val * 128 + b17.val * 64 + b18.val * 32 + b19.val * 16 + b20.val * 8
      + b21.val * 4 + b22.val * 2 + b23.val < 65536 := lt_of_digits16 b8 b9 b10 b11 b12 b13 b14 b15 b16 b17 b18 b19 b20 b21 b22 b23
  have hK : shapeCast S3 (transpose S3' [0, 2, 1] (shapeCast S3 x k1) kT) k2 j = x (ix2 b0 ⟨_, hN⟩) := by
    refine (shapeCast_apply _ k2 j (ix3 b0 ⟨_, hA⟩ ⟨_, hW⟩) ?_).trans ?_
    · rw [rm_ix3]
      dsimp only
      omega
    refine (transpose_apply _ _ kT _ (ix3 b0 ⟨_, hW⟩ ⟨_, hA⟩)
      (fun b => by fin_cases b <;> rfl)).trans ?_
    refine shapeCast_apply x k1 _ (ix2 b0 ⟨_, hN⟩) ?_
    rw [rm_ix3, rm_ix2]
    dsimp only
    omega
  exact hR.trans hK.symm

theorem permOut3_eq {α : Type} (y : S3.Idx → α)
    (h1 : S3.ShapeCasts S24)
    (hT : S24.Transposes [0, 8, 9, 10, 11, 12, 13, 14, 15, 16, 17, 18, 19, 20, 21, 22, 23, 1, 2, 3, 4, 5, 6, 7] S24)
    (h2 : S24.ShapeCasts S2)
    (k1 : S3.ShapeCasts S3') (kT : S3'.Transposes [0, 2, 1] S3) (k2 : S3.ShapeCasts S2) :
    shapeCast S2 (transpose S24 [0, 8, 9, 10, 11, 12, 13, 14, 15, 16, 17, 18, 19, 20, 21, 22, 23, 1, 2, 3, 4, 5, 6, 7]
        (shapeCast S24 y h1) hT) h2
      = shapeCast S2 (transpose S3 [0, 2, 1] (shapeCast S3' y k1) kT) k2 := by
  funext j
  have hlt : (S2.rowMajor j).val < 16777216 := (S2.rowMajor j).isLt
  obtain ⟨b0, b1, b2, b3, b4, b5, b6, b7, b8, b9, b10, b11, b12, b13, b14, b15, b16, b17, b18, b19, b20, b21, b22, b23, hn⟩ :=
    digits24 _ hlt
  -- the entry of the re-laid result both sides read: row (digits 17 … 23, 1 … 9), lane (digits 10 … 16)
  have hRow : b17.val * 32768 + b18.val * 16384 + b19.val * 8192 + b20.val * 4096 + b21.val * 2048 + b22.val * 1024
      + b23.val * 512 + b1.val * 256 + b2.val * 128 + b3.val * 64 + b4.val * 32 + b5.val * 16 + b6.val * 8 + b7.val * 4
      + b8.val * 2 + b9.val < 65536 := by omega
  have hL : b10.val * 64 + b11.val * 32 + b12.val * 16 + b13.val * 8 + b14.val * 4 + b15.val * 2 + b16.val < 128 := by omega
  have hR : shapeCast S2 (transpose S24 [0, 8, 9, 10, 11, 12, 13, 14, 15, 16, 17, 18, 19, 20, 21, 22, 23, 1, 2, 3, 4, 5, 6, 7]
        (shapeCast S24 y h1) hT) h2 j = y (ix3 b0 ⟨_, hRow⟩ ⟨_, hL⟩) := by
    refine (shapeCast_apply _ h2 j (v24 b0 b1 b2 b3 b4 b5 b6 b7 b8 b9 b10 b11 b12 b13 b14 b15 b16 b17 b18 b19 b20 b21 b22 b23)
      (by rw [rm24]; exact hn.symm)).trans ?_
    refine (transpose_apply _ _ hT _
      (v24 b0 b17 b18 b19 b20 b21 b22 b23 b1 b2 b3 b4 b5 b6 b7 b8 b9 b10 b11 b12 b13 b14 b15 b16)
      (fun b => by fin_cases b <;> rfl)).trans ?_
    refine shapeCast_apply y h1 _ (ix3 b0 ⟨_, hRow⟩ ⟨_, hL⟩) ?_
    rw [rm24, rm_ix3]
    dsimp only
    omega
  have hW : b1.val * 32768 + b2.val * 16384 + b3.val * 8192 + b4.val * 4096 + b5.val * 2048 + b6.val * 1024
      + b7.val * 512 + b8.val * 256 + b9.val * 128 + b10.val * 64 + b11.val * 32 + b12.val * 16 + b13.val * 8
      + b14.val * 4 + b15.val * 2 + b16.val < 65536 := lt_of_digits16 b1 b2 b3 b4 b5 b6 b7 b8 b9 b10 b11 b12 b13 b14 b15 b16
  have hA : b17.val * 64 + b18.val * 32 + b19.val * 16 + b20.val * 8 + b21.val * 4 + b22.val * 2 + b23.val < 128 := by omega
  have hK : shapeCast S2 (transpose S3 [0, 2, 1] (shapeCast S3' y k1) kT) k2 j = y (ix3 b0 ⟨_, hRow⟩ ⟨_, hL⟩) := by
    refine (shapeCast_apply _ k2 j (ix3 b0 ⟨_, hW⟩ ⟨_, hA⟩) ?_).trans ?_
    · rw [rm_ix3]
      dsimp only
      omega
    refine (transpose_apply _ _ kT _ (ix3 b0 ⟨_, hA⟩ ⟨_, hW⟩)
      (fun b => by fin_cases b <;> rfl)).trans ?_
    refine shapeCast_apply y k1 _ (ix3 b0 ⟨_, hRow⟩ ⟨_, hL⟩) ?_
    rw [rm_ix3, rm_ix3]
    dsimp only
    omega
  exact hR.trans hK.symm

end Cert.Perm3
-- ==== Proof.Bridge.lean ====
/-
  The two programs' steps are the same functions.  Gate by gate: the kernel's gate on transposed matrices and the
  reference's gate of three contractions are both the gate of the specification; and the re-laying of the state, done
  by the kernel on a shape that keeps runs of binary digits together and by the reference one axis per digit, reads the
  same entries on the way in and on the way out.
-/
import proofs.«410610_j67473936220746_4_alg».proof.Proof.KernelValue
import proofs.«410610_j67473936220746_4_alg».proof.Proof.RefValue
import proofs.«410610_j67473936220746_4_alg».proof.Proof.Perm1
import proofs.«410610_j67473936220746_4_alg».proof.Proof.Perm2In
import proofs.«410610_j67473936220746_4_alg».proof.Proof.Perm2Out
import proofs.«410610_j67473936220746_4_alg».proof.Proof.Perm3

set_option maxRecDepth 16384

noncomputable section

namespace Cert.Bridge

open Idealize.ShloMosaic
open Cert.KernelIdeal.KValue Cert.ReferenceIdeal.RefValue

/-- The kernel's gate, handed transposed matrices, is the reference's gate. -/
theorem gate_eq (Ur Ui : FVec Ideal Cert.Spec.SU .f32) (s : FVec Ideal Cert.Spec.SP .f32) :
    kgate Ur Ui s = refGate Ur Ui s := by
  unfold kgate tr
  rw [Cert.Spec.gateT_transposes, refGate_eq]

theorem relayIn0_eq (x : FVec Ideal Cert.ReferenceIdeal.S2x8388608 .f32) :
    rIn0 x = shapeCast Cert.KernelIdeal.S2x65536x128 x Cert.KernelIdeal.Gen.shapeCasts_S2x8388608_S2x65536x128 :=
  Cert.Bits.shapeCast_shapeCast_eq x _ _ _

theorem relayOut0_eq (y : FVec Ideal Cert.ReferenceIdeal.S2x65536x128 .f32) :
    rOut0 y = shapeCast Cert.KernelIdeal.S2x8388608 y Cert.KernelIdeal.Gen.shapeCasts_S2x65536x128_S2x8388608 :=
  Cert.Bits.shapeCast_shapeCast_eq y _ _ _

theorem relayIn1_eq (x : FVec Ideal Cert.ReferenceIdeal.S2x8388608 .f32) : rIn1 x = relayIn1 x :=
  Cert.Perm.permIn1_eq x _ _ _ _ _ _

theorem relayOut1_eq (y : FVec Ideal Cert.ReferenceIdeal.S2x65536x128 .f32) : rOut1 y = relayOut1 y :=
  Cert.Perm.permOut1_eq y _ _ _ _ _ _

theorem relayIn2_eq (x : FVec Ideal Cert.ReferenceIdeal.S2x8388608 .f32) : rIn2 x = relayIn2 x :=
  Cert.Perm2.permIn2_eq x _ _ _ _ _ _

theorem relayOut2_eq (y : FVec Ideal Cert.ReferenceIdeal.S2x65536x128 .f32) : rOut2 y = relayOut2 y :=
  Cert.Perm2.permOut2_eq y _ _ _ _ _ _

theorem relayIn3_eq (x : FVec Ideal Cert.ReferenceIdeal.S2x8388608 .f32) : rIn3 x = relayIn3 x :=
  Cert.Perm3.permIn3_eq x _ _ _ _ _ _

theorem relayOut3_eq (y : FVec Ideal Cert.ReferenceIdeal.S2x65536x128 .f32) : rOut3 y = relayOut3 y :=
  Cert.Perm3.permOut3_eq y _ _ _ _ _ _

theorem step0_eq (x : FVec Ideal Cert.ReferenceIdeal.S2x8388608 .f32) (a1 : FVec Ideal Cert.ReferenceIdeal.S4x2x128x128 .f32) :
    step0 x a1 = rstep0 x a1 := by
  unfold step0 rstep0
  rw [relayOut0_eq, relayIn0_eq, gate_eq]
  rfl

theorem step1_eq (x : FVec Ideal Cert.ReferenceIdeal.S2x8388608 .f32) (a1 : FVec Ideal Cert.ReferenceIdeal.S4x2x128x128 .f32) :
    step1 x a1 = rstep1 x a1 := by
  unfold step1 rstep1
  rw [relayOut1_eq, relayIn1_eq, gate_eq]
  rfl

theorem step2_eq (x : FVec Ideal Cert.ReferenceIdeal.S2x8388608 .f32) (a1 : FVec Ideal Cert.ReferenceIdeal.S4x2x128x128 .f32) :
    step2 x a1 = rstep2 x a1 := by
  unfold step2 rstep2
  rw [relayOut2_eq, relayIn2_eq, gate_eq]
  rfl

theorem step3_eq (x : FVec Ideal Cert.ReferenceIdeal.S2x8388608 .f32) (a1 : FVec Ideal Cert.ReferenceIdeal.S4x2x128x128 .f32) :
    step3 x a1 = rstep3 x a1 := by
  unfold step3 rstep3
  rw [relayOut3_eq, relayIn3_eq, gate_eq]
  rfl

/-- The four steps in a row agree. -/
theorem steps_eq (a0 : FVec Ideal Cert.ReferenceIdeal.S2x8388608 .f32) (a1 : FVec Ideal Cert.ReferenceIdeal.S4x2x128x128 .f32) :
    step3 (step2 (step1 (step0 a0 a1) a1) a1) a1 = rstep3 (rstep2 (rstep1 (rstep0 a0 a1) a1) a1) a1 := by
  rw [step0_eq, step1_eq, step2_eq, step3_eq]

end Cert.Bridge

end
-- ==== Proof.lean ====
/-
  Four seven-qubit gates applied in a row to a complex state of 2^23 amplitudes held as two real channels: the kernel
  program (four pipelined matrix products among re-layings of the state on shapes that keep runs of binary digits of a
  position together) against the reference (the same four gates as plain contractions, the state re-laid one axis
  per binary digit).

  Both runs end with the result buffer at four steps composed, one per gate; step by step the two are the same
  function of the state and of the stack of gate matrices: the kernel's gate on transposed matrices and the reference's
  three contractions are one sum over the lane axis, entry by entry, and the two ways of re-laying read the same
  entries.  No law of arithmetic beyond this is used, so the precondition is never opened.  The frames: the two kernel
  programs by their generated frame certificates, the reference by its run with the result dropped.  The idealization
  rewrote nothing, so nothing is to preserve.
-/
import proofs.«410610_j67473936220746_4_alg».proof.Defs
import proofs.«410610_j67473936220746_4_alg».proof.Proof.Gen.Kernel
import proofs.«410610_j67473936220746_4_alg».proof.Proof.Gen.Kernel.Skeleton
import proofs.«410610_j67473936220746_4_alg».proof.Proof.Gen.Kernel.Launch
import proofs.«410610_j67473936220746_4_alg».proof.Proof.Gen.Kernel.Points
import proofs.«410610_j67473936220746_4_alg».proof.Proof.Gen.Kernel.Frame
import proofs.«410610_j67473936220746_4_alg».proof.Proof.Gen.KernelIdeal
import proofs.«410610_j67473936220746_4_alg».proof.Proof.Gen.KernelIdeal.Skeleton
import proofs.«410610_j67473936220746_4_alg».proof.Proof.Gen.KernelIdeal.Launch
import proofs.«410610_j67473936220746_4_alg».proof.Proof.Gen.KernelIdeal.Points
import proofs.«410610_j67473936220746_4_alg».proof.Proof.Gen.KernelIdeal.Frame
import proofs.«410610_j67473936220746_4_alg».proof.Proof.Gen.ReferenceIdeal
import proofs.«410610_j67473936220746_4_alg».proof.Proof.Gen.Pre_finite_inputs
import proofs.«410610_j67473936220746_4_alg».proof.Proof.KernelRun
import proofs.«410610_j67473936220746_4_alg».proof.Proof.KernelValue
import proofs.«410610_j67473936220746_4_alg».proof.Proof.RefRun
import proofs.«410610_j67473936220746_4_alg».proof.Proof.Bridge
import Idealize.ShloMosaic.Adequacy
import Idealize.ShloMosaic.Init

noncomputable section

namespace Cert.Proof

open Idealize.ShloMosaic Idealize.SL.Sem

/-- The reference runs and leaves its arguments alone: its run with the result dropped. -/
theorem frame_ref : Cert.frame_ReferenceIdeal := fun m ρ _ =>
  (θ_run Cert.ReferenceIdeal.defs _ _).mono (fun _ h c => (h c).2) (Cert.ReferenceIdeal.RefRun.run_steps m ρ)

/-- Both idealized programs end with the result at the four steps composed, and the steps agree. -/
theorem algebraic : Cert.algebraic_KernelIdeal_ReferenceIdeal := by
  intro m ρ m' ρ' _ hagree
  refine ⟨fun c => Cert.KernelIdeal.KValue.step3 (Cert.KernelIdeal.KValue.step2 (Cert.KernelIdeal.KValue.step1
      (Cert.KernelIdeal.KValue.step0 (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg1)))
      (m ((c.tc : Thread Cert.KernelIdeal.nD Cert.KernelIdeal.τ).loc Cert.KernelIdeal.main_arg1)))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KValue.W9_v55 m ρ c), (h c).2⟩)
      (Cert.KernelIdeal.GenRun.run_v55 (F := Ideal) m ρ)
  · refine (θ_run Cert.ReferenceIdeal.defs _ _).mono (fun _ h c => ⟨(h c).1.trans ?_, (h c).2⟩)
      (Cert.ReferenceIdeal.RefRun.run_steps m' ρ')
    rw [(hagree c).1, (hagree c).2]
    exact (Cert.Bridge.steps_eq _ _).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ref,
    trivial,
    algebraic⟩

end Cert.Proof

end
